-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S32x512 : Shape := ⟨2, ![32, 512]⟩
abbrev S32 : Shape := ⟨1, ![32]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S65536x256 .f32) (main_arg1 : FVec F S65536x256 .f32) (main_arg2 : IVec S65536 32) (main_arg3 : FVec F S32x512 .f32) (main_arg4 : FVec F S32 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S32x512 .f32 := Host.absf main_arg3
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S65536x256 : Shape := ⟨2, ![65536, 256]⟩
abbrev S65536 : Shape := ⟨1, ![65536]⟩
abbrev S32x512 : Shape := ⟨2, ![32, 512]⟩
abbrev S32 : Shape := ⟨1, ![32]⟩
abbrev S16x4096 : Shape := ⟨2, ![16, 4096]⟩
abbrev S_ : Shape := ⟨0, ![]⟩
abbrev S16 : Shape := ⟨1, ![16]⟩
abbrev S4 : Shape := ⟨1, ![4]⟩
abbrev S1x16 : Shape := ⟨2, ![1, 16]⟩
abbrev S4x1 : Shape := ⟨2, ![4, 1]⟩
abbrev S4x16 : Shape := ⟨2, ![4, 16]⟩
abbrev S4096x32 : Shape := ⟨2, ![4096, 32]⟩
abbrev S4096x256 : Shape := ⟨2, ![4096, 256]⟩
abbrev S1 : Shape := ⟨1, ![1]⟩
abbrev S4096 : Shape := ⟨1, ![4096]⟩
abbrev S1024x32 : Shape := ⟨2, ![1024, 32]⟩
abbrev S1024x256 : Shape := ⟨2, ![1024, 256]⟩
abbrev S1024x1 : Shape := ⟨2, ![1024, 1]⟩
abbrev S1x4096 : Shape := ⟨2, ![1, 4096]⟩
abbrev S1024x4096 : Shape := ⟨2, ![1024, 4096]⟩
abbrev S1024 : Shape := ⟨1, ![1024]⟩
abbrev S32x256 : Shape := ⟨2, ![32, 256]⟩
abbrev S1x32 : Shape := ⟨2, ![1, 32]⟩

abbrev nBuf : Space → Nat
  | .hbm => 50
  | .vmem => 13
  | .smem => 2
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .i32⟩
  | .hbm, ⟨3, _⟩ => ⟨S32x512, .f32⟩
  | .hbm, ⟨4, _⟩ => ⟨S32, .f32⟩
  | .hbm, ⟨5, _⟩ => ⟨S16x4096, .i32⟩
  | .hbm, ⟨6, _⟩ => ⟨S_, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x16, .i32⟩
  | .hbm, ⟨18, _⟩ => ⟨S4x1, .i32⟩
  | .hbm, ⟨19, _⟩ => ⟨S4x16, .i32⟩
  | .hbm, ⟨20, _⟩ => ⟨S4x16, .i32⟩
  | .hbm, ⟨21, _⟩ => ⟨S4x16, .i1⟩
  | .hbm, ⟨22, _⟩ => ⟨S1x16, .i32⟩
  | .hbm, ⟨23, _⟩ => ⟨S4x1, .i32⟩
  | .hbm, ⟨24, _⟩ => ⟨S4x16, .i32⟩
  | .hbm, ⟨25, _⟩ => ⟨S4x16, .i32⟩
  | .hbm, ⟨26, _⟩ => ⟨S4x16, .i1⟩
  | .hbm, ⟨27, _⟩ => ⟨S4x16, .i1⟩
  | .hbm, ⟨28, _⟩ => ⟨S16, .i32⟩
  | .hbm, ⟨29, _⟩ => ⟨S1x16, .i32⟩
  | .hbm, ⟨30, _⟩ => ⟨S_, .i32⟩
  | .hbm, ⟨31, _⟩ => ⟨S_, .i32⟩
  | .hbm, ⟨32, _⟩ => ⟨S4x16, .i32⟩
  | .hbm, ⟨33, _⟩ => ⟨S4x16, .i32⟩
  | .hbm, ⟨34, _⟩ => ⟨S4x16, .i32⟩
  | .hbm, ⟨35, _⟩ => ⟨S1x16, .i32⟩
  | .hbm, ⟨36, _⟩ => ⟨S_, .i32⟩
  | .hbm, ⟨37, _⟩ => ⟨S_, .i32⟩
  | .hbm, ⟨38, _⟩ => ⟨S4x16, .i32⟩
  | .hbm, ⟨39, _⟩ => ⟨S4x16, .i32⟩
  | .hbm, ⟨40, _⟩ => ⟨S4x16, .i32⟩
  | .hbm, ⟨41, _⟩ => ⟨S_, .i32⟩
  | .hbm, ⟨42, _⟩ => ⟨S4, .i32⟩
  | .hbm, ⟨43, _⟩ => ⟨S_, .i32⟩
  | .hbm, ⟨44, _⟩ => ⟨S4, .i32⟩
  | .hbm, ⟨45, _⟩ => ⟨S_, .i32⟩
  | .hbm, ⟨46, _⟩ => ⟨S4, .i32⟩
  | .hbm, ⟨47, _⟩ => ⟨S_, .i32⟩
  | .hbm, ⟨48, _⟩ => ⟨S4, .i32⟩
  | .hbm, ⟨49, _⟩ => ⟨S4096x32, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096, .i32⟩
  | .local _ .vmem, ⟨5, _⟩ => ⟨S4096, .i32⟩
  | .local _ .vmem, ⟨6, _⟩ => ⟨S32x512, .f32⟩
  | .local _ .vmem, ⟨7, _⟩ => ⟨S32, .f32⟩
  | .local _ .vmem, ⟨8, _⟩ => ⟨S1024x32, .f32⟩
  | .local _ .vmem, ⟨9, _⟩ => ⟨S1024x32, .f32⟩
  | .local _ .vmem, ⟨10, _⟩ => ⟨S1024x256, .f32⟩
  | .local _ .vmem, ⟨11, _⟩ => ⟨S1024x256, .f32⟩
  | .local _ .vmem, ⟨12, _⟩ => ⟨S1024x1, .f32⟩
  | .local _ .smem, ⟨0, _⟩ => ⟨S4, .i32⟩
  | .local _ .smem, ⟨1, _⟩ => ⟨S4, .i32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_c_7 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v30 : Ref sig .tc := ⟨.hbm, 49, rfl⟩
abbrev main_v26 : Ref sig .tc := ⟨.smem, 0, rfl⟩
abbrev main_v29 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

abbrev pre0 : Pipeline.Prefetch sig := ⟨2, ![main_v26.idx, main_v29.idx], fun | 0 => main_v26.names | 1 => main_v29.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_2 : BitVec 32 := 0#32
  let v14 : BitVec 1 := Scalar.cmpi .ne v13 c0_i32_2
  v14

def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : BitVec 32 := Scalar.maxsi arg1 v1
  let v3 : Index := Scalar.indexCast arg0
  let v4 : BitVec 32 := pf.at 1 (Rect.unit (s := S4) ![v3.toNat] S1.size (k0_off1_inb i)) numel1_S1
  let v5 : BitVec 32 := Scalar.minsi v2 v4
  let c0_i32 : BitVec 32 := 0#32
  let c0_i32_0 : BitVec 32 := 0#32
  ![v5.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : BitVec 32 := Scalar.maxsi arg1 v1
  let v3 : Index := Scalar.indexCast arg0
  let v4 : BitVec 32 := pf.at 1 (Rect.unit (s := S4) ![v3.toNat] S1.size (k0_off1_inb i)) numel1_S1
  let v5 : BitVec 32 := Scalar.minsi v2 v4
  let c0_i32 : BitVec 32 := 0#32
  let c0_i32_0 : BitVec 32 := 0#32
  ![v5.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 1 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : BitVec 32 := Scalar.maxsi arg1 v1
  let v3 : Index := Scalar.indexCast arg0
  let v4 : BitVec 32 := pf.at 1 (Rect.unit (s := S4) ![v3.toNat] S1.size (k0_off1_inb i)) numel1_S1
  let v5 : BitVec 32 := Scalar.minsi v2 v4
  let c0_i32 : BitVec 32 := 0#32
  ![v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S65536_S16x4096 : S65536.ShapeCasts S16x4096
  reducesTo_S16x4096_S16_d1 : S16x4096.ReducesTo [1] S16
  h_S_ : 0 < S_.numel
  bcast_S_S4 : S_.BroadcastsInDim S4 (![] : Fin 0 → Fin S4.rank)
  bcast_S16_S1x16_1 : S16.BroadcastsInDim S1x16 (![1] : Fin 1 → Fin S1x16.rank)
  bcast_S4_S4x1_0 : S4.BroadcastsInDim S4x1 (![0] : Fin 1 → Fin S4x1.rank)
  bcast_S1x16_S4x16_0_1 : S1x16.BroadcastsInDim S4x16 (![0, 1] : Fin 2 → Fin S4x16.rank)
  bcast_S4x1_S4x16_0_1 : S4x1.BroadcastsInDim S4x16 (![0, 1] : Fin 2 → Fin S4x16.rank)
  bcast_S_S4x16 : S_.BroadcastsInDim S4x16 (![] : Fin 0 → Fin S4x16.rank)
  reducesTo_S4x16_S4_d1 : S4x16.ReducesTo [1] S4
  numel1_S1 : S1.numel = 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4096_S4096_0 : ∀ a, (![0] : Fin 1 → Nat) a + S4096.size a ≤ S4096.size a
  h_S4096 : 0 < S4096.numel
  shapeCasts_S4096_S1x4096 : S4096.ShapeCasts S1x4096
  iota_S1024x1_d0_w32 : S1024x1.Iotas .tc 32 [0]
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  reduces_S1024x4096_S1024 : S1024x4096.Reduces [1] S1024
  shapeCasts_S1024_S1024x1 : S1024.ShapeCasts S1024x1
  broadcasts_S1024x1_S1024x256 : S1024x1.Broadcasts S1024x256
  inb_S32x512_S32x512_0_0 : ∀ a, (![0, 0] : Fin 2 → Nat) a + S32x512.size a ≤ S32x512.size a
  h_S32x512 : 0 < S32x512.numel
  slices_S32x512_o0_0_S32x256 : S32x512.Slices ![0, 0] S32x256
  slices_S32x512_o0_256_S32x256 : S32x512.Slices ![0, 256] S32x256
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  dot_S1024x4096_S4096x256_S1024x256_1_0_0_1_n_n_wf : DotDims.WF S1024x4096 S4096x256 S1024x256 [1] [0] [0] [1] [] []
  dot_S1024x256_S32x256_S1024x32_1_1_0_0_n_n_wf : DotDims.WF S1024x256 S32x256 S1024x32 [1] [1] [0] [0] [] []
  hrank0 : 0 < grid0.rank
  k0_off1_inb : ∀ i : grid0.Coords, ∀ a, (k0_off1 i) a + S1.size a ≤ S4.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S4096x32.size a
  hwx0_5 : ∀ i : grid0.Coords, EltTy.bits .f32 = 32 ∨ (Rect.block (s := S4096x32) S1024x32.size (cc0_transform_5 i) (hinb0_5 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S32x256_S1024x32_1_1_0_0_n_n : DotDims S1024x256 S32x256 S1024x32 where
  lhsContracting := [1]
  rhsContracting := [1]
  lhsNonContracting := [0]
  rhsNonContracting := [0]
  lhsBatch := []
  rhsBatch := []
  wf := dot_S1024x256_S32x256_S1024x32_1_1_0_0_n_n_wf

abbrev spec0_0 : Pipeline.WinSpec sig grid0.rank :=
  Pipeline.WinSpec.ofSpec (Memref.whole main_arg0) S4096x256.size reads0_0 false false 2 stage0_0 sem0_0 nbuf0_0 hstage0_0

abbrev spec0_1 : Pipeline.WinSpec sig grid0.rank :=
  Pipeline.WinSpec.ofSpec (Memref.whole main_arg1) S4096x256.size reads0_1 false false 2 stage0_1 sem0_1 nbuf0_1 hstage0_1

abbrev spec0_2 : Pipeline.WinSpec sig grid0.rank :=
  Pipeline.WinSpec.ofSpec (Memref.whole main_arg2) S4096.size reads0_2 false false 2 stage0_2 sem0_2 nbuf0_2 hstage0_2

abbrev spec0_3 : Pipeline.WinSpec sig grid0.rank :=
  Pipeline.WinSpec.ofSpec (Memref.whole main_arg3) S32x512.size reads0_3 false true 1 stage0_3 sem0_3 nbuf0_3 hstage0_3

abbrev spec0_4 : Pipeline.WinSpec sig grid0.rank :=
  Pipeline.WinSpec.ofSpec (Memref.whole main_arg4) S32.size reads0_4 false true 1 stage0_4 sem0_4 nbuf0_4 hstage0_4

abbrev spec0_5 : Pipeline.WinSpec sig grid0.rank :=
  Pipeline.WinSpec.ofSpec (Memref.whole main_v30) S1024x32.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S4096x256.size a ≤ S65536x256.size a), EltTy.bits .f32 = 32 ∨ (Rect.block (s := S65536x256) S4096x256.size (cc0_transform_0 k0_off1_inb numel1_S1 pf i) h).WholeWords (EltTy.packing .f32)) ∧
  (∀ i : grid0.Coords, ∃ h : (∀ a, (cc0_transform_1 k0_off1_inb numel1_S1 pf i a + 1) * S4096x256.size a ≤ S65536x256.size a), EltTy.bits .f32 = 32 ∨ (Rect.block (s := S65536x256) S4096x256.size (cc0_transform_1 k0_off1_inb numel1_S1 pf i) h).WholeWords (EltTy.packing .f32)) ∧
  (∀ i : grid0.Coords, ∃ h : (∀ a, (cc0_transform_2 k0_off1_inb numel1_S1 pf i a + 1) * S4096.size a ≤ S65536.size a), EltTy.bits .i32 = 32 ∨ (Rect.block (s := S65536) S4096.size (cc0_transform_2 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | 3 => hwx0_3 | 4 => hwx0_4 | 5 => hwx0_5 | ⟨_ + 6, h⟩ => absurd h (Nat.not_lt.2 (Nat.le_add_left _ _))
abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S65536x256 : Shape := ⟨2, ![65536, 256]⟩
abbrev S65536 : Shape := ⟨1, ![65536]⟩
abbrev S32x512 : Shape := ⟨2, ![32, 512]⟩
abbrev S32 : Shape := ⟨1, ![32]⟩
abbrev S65536x512 : Shape := ⟨2, ![65536, 512]⟩
abbrev S_ : Shape := ⟨0, ![]⟩
abbrev S4096x512 : Shape := ⟨2, ![4096, 512]⟩
abbrev S65536x1 : Shape := ⟨2, ![65536, 1]⟩
abbrev S4096 : Shape := ⟨1, ![4096]⟩
abbrev S4096x1 : Shape := ⟨2, ![4096, 1]⟩
abbrev S512x32 : Shape := ⟨2, ![512, 32]⟩
abbrev S4096x32 : Shape := ⟨2, ![4096, 32]⟩
abbrev S1x32 : Shape := ⟨2, ![1, 32]⟩

abbrev nBuf : Space → Nat
  | .hbm => 27
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .i32⟩
  | .hbm, ⟨3, _⟩ => ⟨S32x512, .f32⟩
  | .hbm, ⟨4, _⟩ => ⟨S32, .f32⟩
  | .hbm, ⟨5, _⟩ => ⟨S65536x512, .f32⟩
  | .hbm, ⟨6, _⟩ => ⟨S_, .f32⟩
  | .hbm, ⟨7, _⟩ => ⟨S4096x512, .f32⟩
  | .hbm, ⟨8, _⟩ => ⟨S65536x1, .i32⟩
  | .hbm, ⟨9, _⟩ => ⟨S4096x512, .f32⟩
  | .hbm, ⟨10, _⟩ => ⟨S_, .f32⟩
  | .hbm, ⟨11, _⟩ => ⟨S65536, .f32⟩
  | .hbm, ⟨12, _⟩ => ⟨S_, .f32⟩
  | .hbm, ⟨13, _⟩ => ⟨S4096, .f32⟩
  | .hbm, ⟨14, _⟩ => ⟨S65536x1, .i32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S512x32, .f32⟩
  | .hbm, ⟨23, _⟩ => ⟨S4096x32, .f32⟩
  | .hbm, ⟨24, _⟩ => ⟨S1x32, .f32⟩
  | .hbm, ⟨25, _⟩ => ⟨S4096x32, .f32⟩
  | .hbm, ⟨26, _⟩ => ⟨S4096x32, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  concatenates_S65536x256_S65536x256_S65536x512_d1 : Shape.Concatenates [S65536x256, S65536x256] S65536x512 1
  bcast_S_S4096x512 : S_.BroadcastsInDim S4096x512 (![] : Fin 0 → Fin S4096x512.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  scatter_S4096x512_S65536x1_S65536x512_1_0_0_1_wf : ScatterDims.WF S4096x512 S65536x1 S65536x512 [1] [0] [0] 1
  scatter_S4096_S65536x1_S65536_n_0_0_1_wf : ScatterDims.WF S4096 S65536x1 S65536 [] [0] [0] 1
  dot_S4096x512_S512x32_S4096x32_1_0_0_1_n_n_wf : DotDims.WF S4096x512 S512x32 S4096x32 [1] [0] [0] [1] [] []

variable [Facts₀]

def scatter_S4096x512_S65536x1_S65536x512_1_0_0_1 : ScatterDims S4096x512 S65536x1 S65536x512 where
  updateWindowDims := [1]
  insertedWindowDims := [0]
  scatterDimsToOperandDims := [0]
  indexVectorDim := 1
  wf := scatter_S4096x512_S65536x1_S65536x512_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf

class Facts : Prop extends Facts₀ where

variable [Facts]
-- ==== Proof.TableBounds.lean ====
/-
  The two per-tile tables bound every table-indexed block inside its array, whatever the segment words are.
  The first-block table ends in a minimum with 15 and the last-block table in a maximum with 0, so as signed words
  `first ≤ 15` and `0 ≤ last`; a grid coordinate `n` is between 0 and 15; hence `min(max(n, first), last)` is between 0
  and 15, and block `min(max(n, first), last)` of 4096 rows lies inside the 65536 rows.

  The tables are functions of the 65536 segment words alone. The words are read as 16 blocks of 4096; each block has a
  least and a greatest word (signed); tile q covers the segments 1024·q … 1024·q + 1023; block n overlaps tile q when its
  least word is at most the tile's last segment and its greatest at least the tile's first; the first-block entry of tile
  q is the least overlapping n (16 standing for none) capped at 15, the last-block entry the greatest overlapping n (-1
  standing for none) raised to 0. Each stage is named below, and the two tables' contents at the region's entry are
  these functions of the launch memory's segment words (`tbl_first`, `tbl_last`). A signed minimum over a set is carried by
  its universal property — at most every member — never computed.
-/
import proofs.«423303_j78640851190456_3_alg».proof.Proof.Gen.KernelIdeal.Frame.Runs
import Idealize.ShloMosaic.Lib.StableHlo.Run
import Idealize.ShloMosaic.Lib.ValueIdx
import Idealize.ShloMosaic.Lib.StableHlo.Predicate

set_option maxRecDepth 16384

noncomputable section

open scoped BigOperators

namespace Cert.KernelIdeal.TableBounds

open Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-! ## Signed words -/

/-- The signed minimum of two words is the minimum of their signed values. -/
theorem toInt_minsi {w : Nat} (x y : BitVec w) : (IntOp.minsi x y).toInt = min x.toInt y.toInt := by
  unfold IntOp.minsi
  simp only [BitVec.slt, decide_eq_true_eq]
  split_ifs <;> omega

/-- The signed maximum of two words is the maximum of their signed values. -/
theorem toInt_maxsi {w : Nat} (x y : BitVec w) : (IntOp.maxsi x y).toInt = max x.toInt y.toInt := by
  unfold IntOp.maxsi
  simp only [BitVec.slt, decide_eq_true_eq]
  split_ifs <;> omega

/-- A fold of signed minima is at most its starting word and at most every word folded. -/
theorem toInt_fold_minsi_le {ι : Type} [DecidableEq ι] {w : Nat} (S : Finset ι) (init : BitVec w) (x : ι → BitVec w) :
    (S.fold IntOp.minsi init x).toInt ≤ init.toInt ∧ ∀ i ∈ S, (S.fold IntOp.minsi init x).toInt ≤ (x i).toInt := by
  induction S using Finset.induction_on with
  | empty => exact ⟨le_refl _, fun i hi => absurd hi (Finset.notMem_empty i)⟩
  | insert a S ha ih =>
    rw [Finset.fold_insert ha, toInt_minsi]
    refine ⟨le_trans (min_le_right _ _) ih.1, fun i hi => ?_⟩
    rcases Finset.mem_insert.1 hi with rfl | hi
    · exact min_le_left _ _
    · exact le_trans (min_le_right _ _) (ih.2 i hi)

/-- A fold of signed maxima is at least its starting word and at least every word folded. -/
theorem le_toInt_fold_maxsi {ι : Type} [DecidableEq ι] {w : Nat} (S : Finset ι) (init : BitVec w) (x : ι → BitVec w) :
    init.toInt ≤ (S.fold IntOp.maxsi init x).toInt ∧ ∀ i ∈ S, (x i).toInt ≤ (S.fold IntOp.maxsi init x).toInt := by
  induction S using Finset.induction_on with
  | empty => exact ⟨le_refl _, fun i hi => absurd hi (Finset.notMem_empty i)⟩
  | insert a S ha ih =>
    rw [Finset.fold_insert ha, toInt_maxsi]
    refine ⟨le_trans ih.1 (le_max_right _ _), fun i hi => ?_⟩
    rcases Finset.mem_insert.1 hi with rfl | hi
    · exact le_max_left _ _
    · exact le_trans (ih.2 i hi) (le_max_right _ _)

/-- A 32-bit word whose signed value is not negative has that value as its unsigned one. -/
theorem toNat_eq_toInt_of_nonneg (x : BitVec 32) (h : 0 ≤ x.toInt) : (x.toNat : Int) = x.toInt := by
  have := x.isLt
  unfold BitVec.toInt at h ⊢
  split_ifs at h ⊢ <;> omega

/-- Dropping the second coordinate of a rank-2 index leaves the first. -/
theorem drop_ix2 {n k : Nat} (h : (⟨2, ![n, k]⟩ : Shape).ReducesTo [1] ⟨1, ![n]⟩) (p : Fin n) (q : Fin k) :
    h.drop (ix2 p q) = ix1 p := by
  funext b
  match b with
  | ⟨0, _⟩ => exact Fin.ext (h.drop_apply_val_of_eq (ix2 p q) 0 0 (by show 0 < ((List.finRange 2).filter (fun x => decide (x ∉ [(1 : Fin 2)]))).length; decide) rfl)

/-- The signed-minimum reduction of an [n × k] rectangle along its rows is, at row p, at most every word of the row. -/
theorem reduce_minsi_le {n k : Nat} {u : Shape} (h : (⟨2, ![n, k]⟩ : Shape).ReducesTo [1] ⟨1, ![n]⟩) (hu : 0 < u.numel)
    (x : (⟨2, ![n, k]⟩ : Shape).Idx → BitVec 32) (init : u.Idx → BitVec 32) (p : Fin n) (q : Fin k) :
    (Host.reduce IntOp.minsi x init h hu (ix1 p)).toInt ≤ (x (ix2 p q)).toInt := by
  rw [Host.reduce_eq_fold]
  exact (toInt_fold_minsi_le _ _ _).2 _ (Finset.mem_filter.2 ⟨Finset.mem_univ _, drop_ix2 h p q⟩)

/-- The signed-maximum reduction of an [n × k] rectangle along its rows is, at row p, at least every word of the row. -/
theorem le_reduce_maxsi {n k : Nat} {u : Shape} (h : (⟨2, ![n, k]⟩ : Shape).ReducesTo [1] ⟨1, ![n]⟩) (hu : 0 < u.numel)
    (x : (⟨2, ![n, k]⟩ : Shape).Idx → BitVec 32) (init : u.Idx → BitVec 32) (p : Fin n) (q : Fin k) :
    (x (ix2 p q)).toInt ≤ (Host.reduce IntOp.maxsi x init h hu (ix1 p)).toInt := by
  rw [Host.reduce_eq_fold]
  exact (le_toInt_fold_maxsi _ _ _).2 _ (Finset.mem_filter.2 ⟨Finset.mem_univ _, drop_ix2 h p q⟩)

/-- A flat array recast as [n × k] reads row-major. -/
theorem shapeCast_ix2 {α : Type} {n k N : Nat} (h : (⟨1, ![N]⟩ : Shape).ShapeCasts ⟨2, ![n, k]⟩) (x : (⟨1, ![N]⟩ : Shape).Idx → α)
    (p : Fin n) (q : Fin k) (hN : p.val * k + q.val < N) :
    shapeCast ⟨2, ![n, k]⟩ x h (ix2 p q) = x (ix1 ⟨p.val * k + q.val, hN⟩) := by
  unfold shapeCast
  refine congrArg x (Shape.reshapeEquiv_eq_of_rowMajor h ?_)
  rw [Shape.rowMajor_val_two, Shape.rowMajor_val_one]
  rfl

/-! ## The host program's stages, as functions of the segment words -/

/-- The segment words as 16 blocks of 4096. -/
def blockWords (x : S65536.Idx → BitVec 32) : S16x4096.Idx → BitVec 32 :=
  fun i => shapeCast S16x4096 x shapeCasts_S65536_S16x4096 i

/-- Each block's least word (signed). -/
def blockLeast (x : S65536.Idx → BitVec 32) : S16.Idx → BitVec 32 :=
  Host.reduce IntOp.minsi (blockWords x) (constantI S_ 32 2147483647#32) reducesTo_S16x4096_S16_d1 h_S_

/-- Each block's greatest word (signed). -/
def blockGreatest (x : S65536.Idx → BitVec 32) : S16.Idx → BitVec 32 :=
  Host.reduce IntOp.maxsi (blockWords x) (constantI S_ 32 2147483648#32) reducesTo_S16x4096_S16_d1 h_S_

/-- Each tile's first segment: 1024 times the tile. -/
def tileFirst : S4.Idx → BitVec 32 :=
  muli (iotaInDim S4 32 0) (broadcastInDim S4 ![] bcast_S_S4 (constantI S_ 32 1024#32))

/-- Each tile's last segment: its first plus 1023. -/
def tileLast : S4.Idx → BitVec 32 :=
  addi tileFirst (broadcastInDim S4 ![] bcast_S_S4 (constantI S_ 32 1023#32))

/-- Whether block n overlaps tile q: the block's least word is at most the tile's last segment and its greatest word
    at least the tile's first. -/
def overlaps (x : S65536.Idx → BitVec 32) : S4x16.Idx → BitVec 1 :=
  andi
    (cmpi CmpIPredicate.sle
      (broadcastInDim S4x16 ![0, 1] bcast_S1x16_S4x16_0_1 (broadcastInDim S1x16 ![1] bcast_S16_S1x16_1 (blockLeast x)))
      (broadcastInDim S4x16 ![0, 1] bcast_S4x1_S4x16_0_1 (broadcastInDim S4x1 ![0] bcast_S4_S4x1_0 tileLast)))
    (cmpi CmpIPredicate.sge
      (broadcastInDim S4x16 ![0, 1] bcast_S1x16_S4x16_0_1 (broadcastInDim S1x16 ![1] bcast_S16_S1x16_1 (blockGreatest x)))
      (broadcastInDim S4x16 ![0, 1] bcast_S4x1_S4x16_0_1 (broadcastInDim S4x1 ![0] bcast_S4_S4x1_0 tileFirst)))

/-- The block number n at (q, n). -/
def blockNumber : S4x16.Idx → BitVec 32 :=
  broadcastInDim S4x16 ![0, 1] bcast_S1x16_S4x16_0_1 (broadcastInDim S1x16 ![1] bcast_S16_S1x16_1 (iotaInDim S16 32 0))

/-- n where block n overlaps tile q, else 16. -/
def firstCandidate (x : S65536.Idx → BitVec 32) : S4x16.Idx → BitVec 32 :=
  select (overlaps x) blockNumber (broadcastInDim S4x16 ![] bcast_S_S4x16 (id (constantI S_ 32 16#32)))

/-- n where block n overlaps tile q, else -1. -/
def lastCandidate (x : S65536.Idx → BitVec 32) : S4x16.Idx → BitVec 32 :=
  select (overlaps x) blockNumber (broadcastInDim S4x16 ![] bcast_S_S4x16 (id (constantI S_ 32 4294967295#32)))

/-- The first-block table: per tile the least candidate, capped at 15. -/
def firstTable (x : S65536.Idx → BitVec 32) : S4.Idx → BitVec 32 :=
  minsi (Host.reduce IntOp.minsi (firstCandidate x) (constantI S_ 32 2147483647#32) reducesTo_S4x16_S4_d1 h_S_)
    (broadcastInDim S4 ![] bcast_S_S4 (constantI S_ 32 15#32))

/-- The last-block table: per tile the greatest candidate, raised to 0. -/
def lastTable (x : S65536.Idx → BitVec 32) : S4.Idx → BitVec 32 :=
  maxsi (Host.reduce IntOp.maxsi (lastCandidate x) (constantI S_ 32 2147483648#32) reducesTo_S4x16_S4_d1 h_S_)
    (broadcastInDim S4 ![] bcast_S_S4 (constantI S_ 32 0#32))

/-- The segment words the program is launched with. -/
abbrev ids : S65536.Idx → BitVec 32 := m (((0 : Dev nD).tc : Thread nD τ).loc main_arg2)

set_option maxHeartbeats 2000000 in
/-- The first-block table's contents when the region is entered. -/
theorem tbl_first : (tbl m 0 : S4.Idx → BitVec 32) = firstTable (ids m) := by
  unfold Gen.tbl
  show V m 0 main_v26 = _
  unfold V
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq]
  rfl

set_option maxHeartbeats 2000000 in
/-- The last-block table's contents when the region is entered. -/
theorem tbl_last : (tbl m 1 : S4.Idx → BitVec 32) = lastTable (ids m) := by
  unfold Gen.tbl
  show V m 0 main_v29 = _
  unfold V
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq]
  rfl

/-! ## The bounds -/

/-- Every entry of the first-block table is at most 15, as a signed word. -/
theorem first_le (j : S4.Idx) : ((tbl m 0 : S4.Idx → BitVec 32) j).toInt ≤ 15 := by
  rw [tbl_first]
  show (IntOp.minsi _ (15#32)).toInt ≤ 15
  rw [toInt_minsi]
  exact le_trans (min_le_right _ _) (by decide)

/-- Every entry of the last-block table is at least 0, as a signed word. -/
theorem last_nonneg (j : S4.Idx) : 0 ≤ ((tbl m 1 : S4.Idx → BitVec 32) j).toInt := by
  rw [tbl_last]
  show 0 ≤ (IntOp.maxsi _ (0#32)).toInt
  rw [toInt_maxsi]
  exact le_trans (by decide) (le_max_right _ _)

/-- A block coordinate raised to a word at most 15 and then capped by a word at least 0 is a block number: at most 15
    as an unsigned word. -/
theorem clamped_le (n : Nat) (hn : n < 16) (a b : BitVec 32) (ha : a.toInt ≤ 15) (hb : 0 ≤ b.toInt) :
    (Scalar.minsi (Scalar.maxsi (BitVec.ofNat 32 n) a) b).toNat ≤ 15 := by
  show (IntOp.minsi (IntOp.maxsi (BitVec.ofNat 32 n) a) b).toNat ≤ 15
  have hn' : (BitVec.ofNat 32 n).toInt = n := StableHlo.Predicate.toInt_ofNat_small n (by omega)
  have e : (IntOp.minsi (IntOp.maxsi (BitVec.ofNat 32 n) a) b).toInt = min (max (n : Int) a.toInt) b.toInt := by
    rw [toInt_minsi, toInt_maxsi, hn']
  have h0 : 0 ≤ (IntOp.minsi (IntOp.maxsi (BitVec.ofNat 32 n) a) b).toInt := by rw [e]; omega
  have h15 : (IntOp.minsi (IntOp.maxsi (BitVec.ofNat 32 n) a) b).toInt ≤ 15 := by rw [e]; omega
  have := toNat_eq_toInt_of_nonneg _ h0
  omega

/-- The pipeline's side condition holds of any tables whose first-block entries are at most 15 and whose last-block
    entries are at least 0. -/
theorem ok_of_bounds (pf : pre0.Contents (Elt F)) (h0 : ∀ j : S4.Idx, ((pf 0 : S4.Idx → BitVec 32) j).toInt ≤ 15)
    (h1 : ∀ j : S4.Idx, 0 ≤ ((pf 1 : S4.Idx → BitVec 32) j).toInt) : ok0 pf := by
  unfold ok0
  refine ⟨fun i => ?_, fun i => ?_, fun i => ?_⟩
  · obtain ⟨w, hw, e⟩ : ∃ w : BitVec 32, w.toNat ≤ 15 ∧ cc0_transform_0 k0_off1_inb numel1_S1 pf i = ![w.toNat, 0] :=
      ⟨_, clamped_le (i 1).val (i 1).isLt _ _ (h0 _) (h1 _), rfl⟩
    refine ⟨fun a => ?_, Or.inl rfl⟩
    rw [e]
    fin_cases a <;> simp [S4096x256, S65536x256] <;> omega
  · obtain ⟨w, hw, e⟩ : ∃ w : BitVec 32, w.toNat ≤ 15 ∧ cc0_transform_1 k0_off1_inb numel1_S1 pf i = ![w.toNat, 0] :=
      ⟨_, clamped_le (i 1).val (i 1).isLt _ _ (h0 _) (h1 _), rfl⟩
    refine ⟨fun a => ?_, Or.inl rfl⟩
    rw [e]
    fin_cases a <;> simp [S4096x256, S65536x256] <;> omega
  · obtain ⟨w, hw, e⟩ : ∃ w : BitVec 32, w.toNat ≤ 15 ∧ cc0_transform_2 k0_off1_inb numel1_S1 pf i = ![w.toNat] :=
      ⟨_, clamped_le (i 1).val (i 1).isLt _ _ (h0 _) (h1 _), rfl⟩
    refine ⟨fun a => ?_, Or.inl rfl⟩
    rw [e]
    fin_cases a <;> simp [S4096, S65536] <;> omega

/-- The pipeline's side condition on the tables holds for every launch memory. -/
theorem ok : Ok m := ok_of_bounds (tbl m) (first_le m) (last_nonneg m)

end Cert.KernelIdeal.TableBounds

end
-- ==== Proof.TableBoundsWords.lean ====
/-
  The two per-tile tables bound every table-indexed block inside its array, whatever the segment words are.
  The first-block table ends in a minimum with 15 and the last-block table in a maximum with 0, so as signed words
  `first ≤ 15` and `0 ≤ last`; a grid coordinate `n` is between 0 and 15; hence `min(max(n, first), last)` is between 0
  and 15, and block `min(max(n, first), last)` of 4096 rows lies inside the 65536 rows.

  The tables are functions of the 65536 segment words alone. The words are read as 16 blocks of 4096; each block has a
  least and a greatest word (signed); tile q covers the segments 1024·q … 1024·q + 1023; block n overlaps tile q when its
  least word is at most the tile's last segment and its greatest at least the tile's first; the first-block entry of tile
  q is the least overlapping n (16 standing for none) capped at 15, the last-block entry the greatest overlapping n (-1
  standing for none) raised to 0. Each stage is named below, and the two tables' contents at the region's entry are
  these functions of the launch memory's segment words (`tbl_first`, `tbl_last`). A signed minimum over a set is carried by
  its universal property — at most every member — never computed.
-/
import proofs.«423303_j78640851190456_3_alg».proof.Proof.Gen.Kernel.Frame.Runs
import Idealize.ShloMosaic.Lib.StableHlo.Run
import Idealize.ShloMosaic.Lib.ValueIdx
import Idealize.ShloMosaic.Lib.StableHlo.Predicate

set_option maxRecDepth 16384

noncomputable section

open scoped BigOperators

namespace Cert.Kernel.TableBounds

open Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.Kernel Cert.Kernel.Gen

variable {F : FTy → Type} [FloatOps F]
variable (m : (ℓ : Loc nD τ sig) → Buf (Elt F) ℓ)

/-! ## Signed words -/

/-- The signed minimum of two words is the minimum of their signed values. -/
theorem toInt_minsi {w : Nat} (x y : BitVec w) : (IntOp.minsi x y).toInt = min x.toInt y.toInt := by
  unfold IntOp.minsi
  simp only [BitVec.slt, decide_eq_true_eq]
  split_ifs <;> omega

/-- The signed maximum of two words is the maximum of their signed values. -/
theorem toInt_maxsi {w : Nat} (x y : BitVec w) : (IntOp.maxsi x y).toInt = max x.toInt y.toInt := by
  unfold IntOp.maxsi
  simp only [BitVec.slt, decide_eq_true_eq]
  split_ifs <;> omega

/-- A fold of signed minima is at most its starting word and at most every word folded. -/
theorem toInt_fold_minsi_le {ι : Type} [DecidableEq ι] {w : Nat} (S : Finset ι) (init : BitVec w) (x : ι → BitVec w) :
    (S.fold IntOp.minsi init x).toInt ≤ init.toInt ∧ ∀ i ∈ S, (S.fold IntOp.minsi init x).toInt ≤ (x i).toInt := by
  induction S using Finset.induction_on with
  | empty => exact ⟨le_refl _, fun i hi => absurd hi (Finset.notMem_empty i)⟩
  | insert a S ha ih =>
    rw [Finset.fold_insert ha, toInt_minsi]
    refine ⟨le_trans (min_le_right _ _) ih.1, fun i hi => ?_⟩
    rcases Finset.mem_insert.1 hi with rfl | hi
    · exact min_le_left _ _
    · exact le_trans (min_le_right _ _) (ih.2 i hi)

/-- A fold of signed maxima is at least its starting word and at least every word folded. -/
theorem le_toInt_fold_maxsi {ι : Type} [DecidableEq ι] {w : Nat} (S : Finset ι) (init : BitVec w) (x : ι → BitVec w) :
    init.toInt ≤ (S.fold IntOp.maxsi init x).toInt ∧ ∀ i ∈ S, (x i).toInt ≤ (S.fold IntOp.maxsi init x).toInt := by
  induction S using Finset.induction_on with
  | empty => exact ⟨le_refl _, fun i hi => absurd hi (Finset.notMem_empty i)⟩
  | insert a S ha ih =>
    rw [Finset.fold_insert ha, toInt_maxsi]
    refine ⟨le_trans ih.1 (le_max_right _ _), fun i hi => ?_⟩
    rcases Finset.mem_insert.1 hi with rfl | hi
    · exact le_max_left _ _
    · exact le_trans (ih.2 i hi) (le_max_right _ _)

/-- A 32-bit word whose signed value is not negative has that value as its unsigned one. -/
theorem toNat_eq_toInt_of_nonneg (x : BitVec 32) (h : 0 ≤ x.toInt) : (x.toNat : Int) = x.toInt := by
  have := x.isLt
  unfold BitVec.toInt at h ⊢
  split_ifs at h ⊢ <;> omega

/-- Dropping the second coordinate of a rank-2 index leaves the first. -/
theorem drop_ix2 {n k : Nat} (h : (⟨2, ![n, k]⟩ : Shape).ReducesTo [1] ⟨1, ![n]⟩) (p : Fin n) (q : Fin k) :
    h.drop (ix2 p q) = ix1 p := by
  funext b
  match b with
  | ⟨0, _⟩ => exact Fin.ext (h.drop_apply_val_of_eq (ix2 p q) 0 0 (by show 0 < ((List.finRange 2).filter (fun x => decide (x ∉ [(1 : Fin 2)]))).length; decide) rfl)

/-- The signed-minimum reduction of an [n × k] rectangle along its rows is, at row p, at most every word of the row. -/
theorem reduce_minsi_le {n k : Nat} {u : Shape} (h : (⟨2, ![n, k]⟩ : Shape).ReducesTo [1] ⟨1, ![n]⟩) (hu : 0 < u.numel)
    (x : (⟨2, ![n, k]⟩ : Shape).Idx → BitVec 32) (init : u.Idx → BitVec 32) (p : Fin n) (q : Fin k) :
    (Host.reduce IntOp.minsi x init h hu (ix1 p)).toInt ≤ (x (ix2 p q)).toInt := by
  rw [Host.reduce_eq_fold]
  exact (toInt_fold_minsi_le _ _ _).2 _ (Finset.mem_filter.2 ⟨Finset.mem_univ _, drop_ix2 h p q⟩)

/-- The signed-maximum reduction of an [n × k] rectangle along its rows is, at row p, at least every word of the row. -/
theorem le_reduce_maxsi {n k : Nat} {u : Shape} (h : (⟨2, ![n, k]⟩ : Shape).ReducesTo [1] ⟨1, ![n]⟩) (hu : 0 < u.numel)
    (x : (⟨2, ![n, k]⟩ : Shape).Idx → BitVec 32) (init : u.Idx → BitVec 32) (p : Fin n) (q : Fin k) :
    (x (ix2 p q)).toInt ≤ (Host.reduce IntOp.maxsi x init h hu (ix1 p)).toInt := by
  rw [Host.reduce_eq_fold]
  exact (le_toInt_fold_maxsi _ _ _).2 _ (Finset.mem_filter.2 ⟨Finset.mem_univ _, drop_ix2 h p q⟩)

/-- A flat array recast as [n × k] reads row-major. -/
theorem shapeCast_ix2 {α : Type} {n k N : Nat} (h : (⟨1, ![N]⟩ : Shape).ShapeCasts ⟨2, ![n, k]⟩) (x : (⟨1, ![N]⟩ : Shape).Idx → α)
    (p : Fin n) (q : Fin k) (hN : p.val * k + q.val < N) :
    shapeCast ⟨2, ![n, k]⟩ x h (ix2 p q) = x (ix1 ⟨p.val * k + q.val, hN⟩) := by
  unfold shapeCast
  refine congrArg x (Shape.reshapeEquiv_eq_of_rowMajor h ?_)
  rw [Shape.rowMajor_val_two, Shape.rowMajor_val_one]
  rfl

/-! ## The host program's stages, as functions of the segment words -/

/-- The segment words as 16 blocks of 4096. -/
def blockWords (x : S65536.Idx → BitVec 32) : S16x4096.Idx → BitVec 32 :=
  fun i => shapeCast S16x4096 x shapeCasts_S65536_S16x4096 i

/-- Each block's least word (signed). -/
def blockLeast (x : S65536.Idx → BitVec 32) : S16.Idx → BitVec 32 :=
  Host.reduce IntOp.minsi (blockWords x) (constantI S_ 32 2147483647#32) reducesTo_S16x4096_S16_d1 h_S_

/-- Each block's greatest word (signed). -/
def blockGreatest (x : S65536.Idx → BitVec 32) : S16.Idx → BitVec 32 :=
  Host.reduce IntOp.maxsi (blockWords x) (constantI S_ 32 2147483648#32) reducesTo_S16x4096_S16_d1 h_S_

/-- Each tile's first segment: 1024 times the tile. -/
def tileFirst : S4.Idx → BitVec 32 :=
  muli (iotaInDim S4 32 0) (broadcastInDim S4 ![] bcast_S_S4 (constantI S_ 32 1024#32))

/-- Each tile's last segment: its first plus 1023. -/
def tileLast : S4.Idx → BitVec 32 :=
  addi tileFirst (broadcastInDim S4 ![] bcast_S_S4 (constantI S_ 32 1023#32))

/-- Whether block n overlaps tile q: the block's least word is at most the tile's last segment and its greatest word
    at least the tile's first. -/
def overlaps (x : S65536.Idx → BitVec 32) : S4x16.Idx → BitVec 1 :=
  andi
    (cmpi CmpIPredicate.sle
      (broadcastInDim S4x16 ![0, 1] bcast_S1x16_S4x16_0_1 (broadcastInDim S1x16 ![1] bcast_S16_S1x16_1 (blockLeast x)))
      (broadcastInDim S4x16 ![0, 1] bcast_S4x1_S4x16_0_1 (broadcastInDim S4x1 ![0] bcast_S4_S4x1_0 tileLast)))
    (cmpi CmpIPredicate.sge
      (broadcastInDim S4x16 ![0, 1] bcast_S1x16_S4x16_0_1 (broadcastInDim S1x16 ![1] bcast_S16_S1x16_1 (blockGreatest x)))
      (broadcastInDim S4x16 ![0, 1] bcast_S4x1_S4x16_0_1 (broadcastInDim S4x1 ![0] bcast_S4_S4x1_0 tileFirst)))

/-- The block number n at (q, n). -/
def blockNumber : S4x16.Idx → BitVec 32 :=
  broadcastInDim S4x16 ![0, 1] bcast_S1x16_S4x16_0_1 (broadcastInDim S1x16 ![1] bcast_S16_S1x16_1 (iotaInDim S16 32 0))

/-- n where block n overlaps tile q, else 16. -/
def firstCandidate (x : S65536.Idx → BitVec 32) : S4x16.Idx → BitVec 32 :=
  select (overlaps x) blockNumber (broadcastInDim S4x16 ![] bcast_S_S4x16 (id (constantI S_ 32 16#32)))

/-- n where block n overlaps tile q, else -1. -/
def lastCandidate (x : S65536.Idx → BitVec 32) : S4x16.Idx → BitVec 32 :=
  select (overlaps x) blockNumber (broadcastInDim S4x16 ![] bcast_S_S4x16 (id (constantI S_ 32 4294967295#32)))

/-- The first-block table: per tile the least candidate, capped at 15. -/
def firstTable (x : S65536.Idx → BitVec 32) : S4.Idx → BitVec 32 :=
  minsi (Host.reduce IntOp.minsi (firstCandidate x) (constantI S_ 32 2147483647#32) reducesTo_S4x16_S4_d1 h_S_)
    (broadcastInDim S4 ![] bcast_S_S4 (constantI S_ 32 15#32))

/-- The last-block table: per tile the greatest candidate, raised to 0. -/
def lastTable (x : S65536.Idx → BitVec 32) : S4.Idx → BitVec 32 :=
  maxsi (Host.reduce IntOp.maxsi (lastCandidate x) (constantI S_ 32 2147483648#32) reducesTo_S4x16_S4_d1 h_S_)
    (broadcastInDim S4 ![] bcast_S_S4 (constantI S_ 32 0#32))

/-- The segment words the program is launched with. -/
abbrev ids : S65536.Idx → BitVec 32 := m (((0 : Dev nD).tc : Thread nD τ).loc main_arg2)

set_option maxHeartbeats 2000000 in
/-- The first-block table's contents when the region is entered. -/
theorem tbl_first : (tbl m 0 : S4.Idx → BitVec 32) = firstTable (ids m) := by
  unfold Gen.tbl
  show V m 0 main_v26 = _
  unfold V
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq]
  rfl

set_option maxHeartbeats 2000000 in
/-- The last-block table's contents when the region is entered. -/
theorem tbl_last : (tbl m 1 : S4.Idx → BitVec 32) = lastTable (ids m) := by
  unfold Gen.tbl
  show V m 0 main_v29 = _
  unfold V
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq]
  rfl

/-! ## The bounds -/

/-- Every entry of the first-block table is at most 15, as a signed word. -/
theorem first_le (j : S4.Idx) : ((tbl m 0 : S4.Idx → BitVec 32) j).toInt ≤ 15 := by
  rw [tbl_first]
  show (IntOp.minsi _ (15#32)).toInt ≤ 15
  rw [toInt_minsi]
  exact le_trans (min_le_right _ _) (by decide)

/-- Every entry of the last-block table is at least 0, as a signed word. -/
theorem last_nonneg (j : S4.Idx) : 0 ≤ ((tbl m 1 : S4.Idx → BitVec 32) j).toInt := by
  rw [tbl_last]
  show 0 ≤ (IntOp.maxsi _ (0#32)).toInt
  rw [toInt_maxsi]
  exact le_trans (by decide) (le_max_right _ _)

/-- A block coordinate raised to a word at most 15 and then capped by a word at least 0 is a block number: at most 15
    as an unsigned word. -/
theorem clamped_le (n : Nat) (hn : n < 16) (a b : BitVec 32) (ha : a.toInt ≤ 15) (hb : 0 ≤ b.toInt) :
    (Scalar.minsi (Scalar.maxsi (BitVec.ofNat 32 n) a) b).toNat ≤ 15 := by
  show (IntOp.minsi (IntOp.maxsi (BitVec.ofNat 32 n) a) b).toNat ≤ 15
  have hn' : (BitVec.ofNat 32 n).toInt = n := StableHlo.Predicate.toInt_ofNat_small n (by omega)
  have e : (IntOp.minsi (IntOp.maxsi (BitVec.ofNat 32 n) a) b).toInt = min (max (n : Int) a.toInt) b.toInt := by
    rw [toInt_minsi, toInt_maxsi, hn']
  have h0 : 0 ≤ (IntOp.minsi (IntOp.maxsi (BitVec.ofNat 32 n) a) b).toInt := by rw [e]; omega
  have h15 : (IntOp.minsi (IntOp.maxsi (BitVec.ofNat 32 n) a) b).toInt ≤ 15 := by rw [e]; omega
  have := toNat_eq_toInt_of_nonneg _ h0
  omega

/-- The pipeline's side condition holds of any tables whose first-block entries are at most 15 and whose last-block
    entries are at least 0. -/
theorem ok_of_bounds (pf : pre0.Contents (Elt F)) (h0 : ∀ j : S4.Idx, ((pf 0 : S4.Idx → BitVec 32) j).toInt ≤ 15)
    (h1 : ∀ j : S4.Idx, 0 ≤ ((pf 1 : S4.Idx → BitVec 32) j).toInt) : ok0 pf := by
  unfold ok0
  refine ⟨fun i => ?_, fun i => ?_, fun i => ?_⟩
  · obtain ⟨w, hw, e⟩ : ∃ w : BitVec 32, w.toNat ≤ 15 ∧ cc0_transform_0 k0_off1_inb numel1_S1 pf i = ![w.toNat, 0] :=
      ⟨_, clamped_le (i 1).val (i 1).isLt _ _ (h0 _) (h1 _), rfl⟩
    refine ⟨fun a => ?_, Or.inl rfl⟩
    rw [e]
    fin_cases a <;> simp [S4096x256, S65536x256] <;> omega
  · obtain ⟨w, hw, e⟩ : ∃ w : BitVec 32, w.toNat ≤ 15 ∧ cc0_transform_1 k0_off1_inb numel1_S1 pf i = ![w.toNat, 0] :=
      ⟨_, clamped_le (i 1).val (i 1).isLt _ _ (h0 _) (h1 _), rfl⟩
    refine ⟨fun a => ?_, Or.inl rfl⟩
    rw [e]
    fin_cases a <;> simp [S4096x256, S65536x256] <;> omega
  · obtain ⟨w, hw, e⟩ : ∃ w : BitVec 32, w.toNat ≤ 15 ∧ cc0_transform_2 k0_off1_inb numel1_S1 pf i = ![w.toNat] :=
      ⟨_, clamped_le (i 1).val (i 1).isLt _ _ (h0 _) (h1 _), rfl⟩
    refine ⟨fun a => ?_, Or.inl rfl⟩
    rw [e]
    fin_cases a <;> simp [S4096, S65536] <;> omega

/-- The pipeline's side condition on the tables holds for every launch memory. -/
theorem ok : Ok m := ok_of_bounds (tbl m) (first_le m) (last_nonneg m)

end Cert.Kernel.TableBounds

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.SegmentPool.lean ====
/-
  Segment mean pooling followed by a linear projection, as functions of the argument arrays over the extended reals.

  Rows `r < 65536` carry a 32-bit segment word `ids r`; segment `p < 4096` owns the rows whose word is `p`'s.
  `segSum x ids p k` is the sum of column `k` of `x` over the rows of segment `p`, `segCount ids p` their number.
  The rows come in 16 blocks of 4096; `headSum … n` restricts the sum to the first `n` blocks, so that adding block `n`'s
  share to the first `n` blocks' gives the first `n + 1` blocks' (`headSum_block`), no block gives zero (`headSum_zero`)
  and all sixteen give the whole sum (`headSum_all`). A block none of whose rows is in the segment adds zero.
  `pooled` is the result: per segment the two halves' column sums scaled by `1 / max(count, 1)`, contracted with the
  matching half of the weight's columns, the two contractions added, then the offset.
-/
import Idealize.ShloMosaic.PureOps.Ideal
import Idealize.ShloMosaic.Lib.ValueIdx
import proofs.«423303_j78640851190456_3_alg».proof.Proof.LibTileSum

noncomputable section

open scoped BigOperators

namespace Cert.SegmentPool

open Idealize.ShloMosaic Idealize.ShloMosaic.ValueIdx

abbrev Ids : Type := (⟨1, ![65536]⟩ : Shape).Idx → BitVec 32
abbrev Rows : Type := (⟨2, ![65536, 256]⟩ : Shape).Idx → EReal
abbrev Weights : Type := (⟨2, ![32, 512]⟩ : Shape).Idx → EReal
abbrev Offsets : Type := (⟨1, ![32]⟩ : Shape).Idx → EReal

/-- Row `r` belongs to segment `p`: its word is `p`'s. -/
def inSeg (ids : Ids) (p : Fin 4096) (r : Fin 65536) : Prop := ids (ix1 r) = BitVec.ofNat 32 p.val

instance (ids : Ids) (p : Fin 4096) : DecidablePred (inSeg ids p) := fun r =>
  inferInstanceAs (Decidable (ids (ix1 r) = BitVec.ofNat 32 p.val))

/-- Row `e` of block `n`. -/
def blockRow (n : Fin 16) (e : Fin 4096) : Fin 65536 := ⟨n.val * 4096 + e.val, by have := n.isLt; have := e.isLt; omega⟩

/-- Block `n`'s share of the column sum. -/
def blockSum (x : Rows) (ids : Ids) (p : Fin 4096) (k : Fin 256) (n : Fin 16) : EReal :=
  ∑ e : Fin 4096, if inSeg ids p (blockRow n e) then x (ix2 (blockRow n e) k) else 0

/-- Block `n`'s share of the count. -/
def blockCount (ids : Ids) (p : Fin 4096) (n : Fin 16) : EReal :=
  ∑ e : Fin 4096, if inSeg ids p (blockRow n e) then 1 else 0

/-- Column `k` of `x` summed over the rows of segment `p` in the first `n` blocks. -/
def headSum (x : Rows) (ids : Ids) (p : Fin 4096) (k : Fin 256) (n : ℕ) : EReal :=
  ∑ t : Fin 16, if t.val < n then blockSum x ids p k t else 0

/-- The rows of segment `p` in the first `n` blocks, counted. -/
def headCount (ids : Ids) (p : Fin 4096) (n : ℕ) : EReal :=
  ∑ t : Fin 16, if t.val < n then blockCount ids p t else 0

def segSum (x : Rows) (ids : Ids) (p : Fin 4096) (k : Fin 256) : EReal :=
  ∑ r : Fin 65536, if inSeg ids p r then x (ix2 r k) else 0

def segCount (ids : Ids) (p : Fin 4096) : EReal := ∑ r : Fin 65536, if inSeg ids p r then 1 else 0

/-- A sum over the first `n + 1` of sixteen terms is the sum over the first `n` plus term `n`. -/
theorem head_step (B : Fin 16 → EReal) (n : Fin 16) :
    (∑ t : Fin 16, if t.val < n.val + 1 then B t else 0) = (∑ t : Fin 16, if t.val < n.val then B t else 0) + B n := by
  have hn : B n = ∑ t : Fin 16, if t = n then B t else 0 := by
    rw [Finset.sum_ite_eq' Finset.univ n B, if_pos (Finset.mem_univ n)]
  rw [hn, ← Finset.sum_add_distrib]
  refine Finset.sum_congr rfl fun t _ => ?_
  by_cases h1 : t.val < n.val
  · have h2 : t ≠ n := fun h => by rw [h] at h1; exact lt_irrefl _ h1
    rw [if_pos (Nat.lt_succ_of_lt h1), if_pos h1, if_neg h2, add_zero]
  · by_cases h2 : t = n
    · subst h2
      rw [if_pos (Nat.lt_succ_self _), if_neg h1, if_pos rfl, zero_add]
    · have h3 : ¬t.val < n.val + 1 := fun h => h2 (Fin.ext (Nat.le_antisymm (Nat.lt_succ_iff.mp h) (Nat.le_of_not_lt h1)))
      rw [if_neg h3, if_neg h1, if_neg h2, add_zero]

/-- A sum over the 65536 rows is the sum over the sixteen blocks of the sums over each block's 4096 rows. -/
theorem sum_rows_eq_blocks (g : Fin 65536 → EReal) : ∑ r : Fin 65536, g r = ∑ t : Fin 16, ∑ e : Fin 4096, g (blockRow t e) :=
  Cert.Lib.TileSum.sum_tiles 16 4096 g

theorem headSum_zero (x : Rows) (ids : Ids) (p : Fin 4096) (k : Fin 256) : headSum x ids p k 0 = 0 :=
  Finset.sum_eq_zero fun t _ => if_neg (Nat.not_lt_zero _)

theorem headCount_zero (ids : Ids) (p : Fin 4096) : headCount ids p 0 = 0 :=
  Finset.sum_eq_zero fun t _ => if_neg (Nat.not_lt_zero _)

theorem headSum_block (x : Rows) (ids : Ids) (p : Fin 4096) (k : Fin 256) (n : Fin 16) :
    headSum x ids p k (n.val + 1) = headSum x ids p k n.val + blockSum x ids p k n :=
  head_step (blockSum x ids p k) n

theorem headCount_block (ids : Ids) (p : Fin 4096) (n : Fin 16) :
    headCount ids p (n.val + 1) = headCount ids p n.val + blockCount ids p n :=
  head_step (blockCount ids p) n

theorem headSum_all (x : Rows) (ids : Ids) (p : Fin 4096) (k : Fin 256) : headSum x ids p k 16 = segSum x ids p k := by
  unfold headSum segSum
  rw [sum_rows_eq_blocks]
  exact Finset.sum_congr rfl fun t _ => if_pos t.isLt

theorem headCount_all (ids : Ids) (p : Fin 4096) : headCount ids p 16 = segCount ids p := by
  unfold headCount segCount
  rw [sum_rows_eq_blocks]
  exact Finset.sum_congr rfl fun t _ => if_pos t.isLt

theorem blockSum_eq_zero (x : Rows) (ids : Ids) (p : Fin 4096) (k : Fin 256) (n : Fin 16)
    (h : ∀ e : Fin 4096, ¬inSeg ids p (blockRow n e)) : blockSum x ids p k n = 0 :=
  Finset.sum_eq_zero fun e _ => if_neg (h e)

theorem blockCount_eq_zero (ids : Ids) (p : Fin 4096) (n : Fin 16)
    (h : ∀ e : Fin 4096, ¬inSeg ids p (blockRow n e)) : blockCount ids p n = 0 :=
  Finset.sum_eq_zero fun e _ => if_neg (h e)

/-- The reciprocal the sums are scaled by: one over the count, the count raised to at least one. -/
def scale (ids : Ids) (p : Fin 4096) : EReal := Ideal.div 1 (max (segCount ids p) 1)

/-- The pooled projection: entry `(p, o)` is the scaled column sums of the two halves contracted with row `o` of the
    weight's left and right halves, plus offset `o`. -/
def pooled (a b : Rows) (ids : Ids) (W : Weights) (β : Offsets) : (⟨2, ![4096, 32]⟩ : Shape).Idx → EReal := fun i =>
  ((∑ k : Fin 256, (segSum a ids ⟨(i 0).val, idx2_lt0 i⟩ k * scale ids ⟨(i 0).val, idx2_lt0 i⟩)
        * W (ix2 (⟨(i 1).val, idx2_lt1 i⟩ : Fin 32) (Fin.castAdd 256 k)))
    + (∑ k : Fin 256, (segSum b ids ⟨(i 0).val, idx2_lt0 i⟩ k * scale ids ⟨(i 0).val, idx2_lt0 i⟩)
        * W (ix2 (⟨(i 1).val, idx2_lt1 i⟩ : Fin 32) (Fin.natAdd 256 k))))
  + β (ix1 (⟨(i 1).val, idx2_lt1 i⟩ : Fin 32))

end Cert.SegmentPool

end
-- ==== Proof.LibRowScatter.lean ====
/-
  The accumulating scatter of ROWS, read at an index.

  For an operand [N, C], a column [R, 1] of scatter indices and updates [R, C] (the update's axis 1 is the window axis,
  the operand's axis 0 the inserted one the scatter index names), update element (n, q') lands on operand element
  (p, q) exactly when the scatter index of row n, read signed, is p's number and q' = q; an index outside 0 … N - 1
  lands nowhere. So over the extended reals the accumulating scatter at (p, q) is the operand there plus the sum, over
  the update rows n whose scatter index is p, of the update at (n, q).
-/
import Idealize.ShloMosaic.PureOps.Ideal
import Idealize.ShloMosaic.PureOps.Contract
import Idealize.ShloMosaic.Lib.ValueIdx

noncomputable section

open scoped BigOperators

namespace Cert.Lib.RowScatter

open Idealize.ShloMosaic Idealize.ShloMosaic.ValueIdx

/-- A sum over the elements that satisfy a condition is the sum of the terms switched by an equivalent condition. -/
theorem sum_filter_of_iff {ι M : Type*} [AddCommMonoid M] (s : Finset ι) (P Q : ι → Prop) [DecidablePred P] [DecidablePred Q]
    (h : ∀ j, P j ↔ Q j) (f : ι → M) : ∑ j ∈ s.filter P, f j = ∑ j ∈ s, if Q j then f j else 0 := by
  rw [Finset.sum_filter]
  refine Finset.sum_congr rfl fun j _ => ?_
  by_cases hq : Q j
  · rw [if_pos hq, if_pos ((h j).mpr hq)]
  · rw [if_neg hq, if_neg (mt (h j).mp hq)]

/-- The dimension numbers of x.at[idx].add(u) for an operand [N, C], scatter indices [R, 1] and updates [R, C]. -/
abbrev putRowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the operand's row axis the window of update element j starts at the scatter index of j's row, read signed. -/
theorem putRow_start0 (j : (⟨2, ![R, C]⟩ : Shape).Idx) (idx : IVec ⟨2, ![R, 1]⟩ w) :
    (putRowDims N R C wf).start j idx 0 = (idx (ix2 (⟨(j 0).val, idx2_lt0 j⟩ : Fin R) (0 : Fin 1))).toInt := by
  unfold ScatterDims.start
  rw [dif_pos (show (0 : Fin 2) ∈ (putRowDims N R C wf).scatterDimsToOperandDims from List.mem_singleton.mpr rfl)]
  have hsi : (putRowDims N R C wf).siIdx j ⟨List.idxOf (0 : Fin 2) (putRowDims N R C wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

/-- On the operand's column axis the window starts at 0. -/
theorem putRow_start1 (j : (⟨2, ![R, C]⟩ : Shape).Idx) (idx : IVec ⟨2, ![R, 1]⟩ w) :
    (putRowDims N R C wf).start j idx 1 = 0 := by
  unfold ScatterDims.start
  rw [dif_neg]
  intro h
  exact absurd (List.mem_singleton.mp h) (show (1 : Fin 2) ≠ 0 by decide)

/-- The window has one row. -/
theorem putRow_window0 (j : (⟨2, ![R, C]⟩ : Shape).Idx) : (putRowDims N R C wf).window j 0 = 0 := by
  unfold ScatterDims.window
  rw [dif_neg]
  simp [ScatterDims.sKept, Shape.kept, List.mem_filter, List.mem_finRange]

/-- Across the columns the window coordinate is the update element's column. -/
theorem putRow_window1 (j : (⟨2, ![R, C]⟩ : Shape).Idx) : (putRowDims N R C wf).window j 1 = (j 1).val := by
  unfold ScatterDims.window
  have hm : (1 : Fin 2) ∈ (putRowDims N R C wf).sKept := by
    simp [ScatterDims.sKept, Shape.kept, List.mem_filter, List.mem_finRange]
  rw [dif_pos hm]
  rfl

/-- Update element j lands at operand element i exactly when the scatter index of j's row, read signed, is i's row
    number and the two are in the same column. -/
theorem putRow_resultIdx?_eq_some_iff (j : (⟨2, ![R, C]⟩ : Shape).Idx) (idx : IVec ⟨2, ![R, 1]⟩ w)
    (i : (⟨2, ![N, C]⟩ : Shape).Idx) :
    (putRowDims N R C wf).resultIdx? j idx = some i
      ↔ (idx (ix2 (⟨(j 0).val, idx2_lt0 j⟩ : Fin R) (0 : Fin 1))).toInt = ((i 0).val : ℤ) ∧ (j 1).val = (i 1).val := by
  have hi0 := idx2_lt0 i
  have hi1 := idx2_lt1 i
  have hj1 := idx2_lt1 j
  have hall : ∀ P : Fin 2 → Prop, (∀ a, P a) ↔ P 0 ∧ P 1 := fun P =>
    ⟨fun h => ⟨h 0, h 1⟩, fun h a => by
      match a with
      | ⟨0, _⟩ => exact h.1
      | ⟨1, _⟩ => exact h.2⟩
  have hs0 : (⟨2, ![N, C]⟩ : Shape).size 0 = N := rfl
  have hs1 : (⟨2, ![N, C]⟩ : Shape).size 1 = C := rfl
  unfold ScatterDims.resultIdx?
  by_cases h : ∀ a : Fin (⟨2, ![N, C]⟩ : Shape).rank, 0 ≤ (putRowDims N R C wf).start j idx a + (putRowDims N R C wf).window j a ∧
      (putRowDims N R C wf).start j idx a + (putRowDims N R C wf).window j a < (⟨2, ![N, C]⟩ : Shape).size a
  · rw [dif_pos h]
    have h0 := h 0
    have h1 := h 1
    rw [putRow_start0, putRow_window0] at h0
    rw [putRow_start1, putRow_window1] at h1
    constructor
    · intro he
      have e := Option.some.inj he
      have e0 := congrArg (fun k : (⟨2, ![N, C]⟩ : Shape).Idx => (k 0).val) e
      have e1 := congrArg (fun k : (⟨2, ![N, C]⟩ : Shape).Idx => (k 1).val) e
      simp only [putRow_start0, putRow_window0, putRow_start1, putRow_window1] at e0 e1
      constructor <;> omega
    · rintro ⟨he0, he1⟩
      congr 1
      funext a
      refine Fin.ext ?_
      match a with
      | ⟨0, _⟩ =>
        show ((putRowDims N R C wf).start j idx 0 + (putRowDims N R C wf).window j 0).toNat = (i 0).val
        rw [putRow_start0, putRow_window0]
        omega
      | ⟨1, _⟩ =>
        show ((putRowDims N R C wf).start j idx 1 + (putRowDims N R C wf).window j 1).toNat = (i 1).val
        rw [putRow_start1, putRow_window1]
        omega
  · rw [dif_neg h]
    constructor
    · intro he; exact absurd he (by simp)
    · rintro ⟨he0, he1⟩
      exfalso
      apply h
      rw [hall]
      rw [putRow_start0, putRow_window0, putRow_start1, putRow_window1, hs0, hs1]
      omega

/-- The accumulating scatter of rows over the extended reals, read at (p, q): the operand there plus the sum, over
    the update rows whose scatter index (read signed) is p, of the update at column q. -/
theorem hostScatterAdd_rows_apply (x : (⟨2, ![N, C]⟩ : Shape).Idx → EReal) (idx : IVec ⟨2, ![R, 1]⟩ w)
    (upd : (⟨2, ![R, C]⟩ : Shape).Idx → EReal) (p : Fin N) (q : Fin C) :
    Ideal.hostScatterAdd (putRowDims N R C wf) x idx upd (ix2 p q)
      = x (ix2 p q) + ∑ n : Fin R, if (idx (ix2 n (0 : Fin 1))).toInt = (p.val : ℤ) then upd (ix2 n q) else 0 := by
  unfold Ideal.hostScatterAdd
  congr 1
  rw [sum_filter_of_iff _ _ _ (fun j => putRow_resultIdx?_eq_some_iff wf j idx (ix2 p q)), sum_idx2]
  refine Finset.sum_congr rfl fun n _ => ?_
  by_cases hn : (idx (ix2 n (0 : Fin 1))).toInt = (p.val : ℤ)
  · rw [if_pos hn, Finset.sum_eq_single q]
    · exact if_pos ⟨hn, rfl⟩
    · intro b _ hb
      exact if_neg fun hc => hb (Fin.ext hc.2)
    · intro hq; exact absurd (Finset.mem_univ q) hq
  · rw [if_neg hn]
    exact Finset.sum_eq_zero fun b _ => if_neg fun hc => hn hc.1

end Cert.Lib.RowScatter

end
-- ==== Proof.LibHostIndex.lean ====
/-
  Index operations of a host program on a FLAT array, read at an index.

  A gather of a flat array at a column of start indices (what x[idx] of a flat array lowers to when idx is flat) is the
  array at the start index, read signed and clamped. A scatter into a flat array at a column of scatter indices lands
  update e at the index the e-th scatter index names, read signed, when that is inside the array. From the second:
  the integer scatter with an associative, commutative body is a fold per element; with the body + and every update 1
  over zeros it COUNTS the updates that land at the element; the accumulating float scatter over the extended reals is
  the operand plus the sum of the updates that land there, as a sum over the update positions.
-/
import Idealize.ShloMosaic.PureOps.Ideal
import Idealize.ShloMosaic.PureOps.Contract
import Idealize.ShloMosaic.Lib.ValueIdx

noncomputable section

open scoped BigOperators

namespace Cert.Lib.HostIndex

open Idealize.ShloMosaic Idealize.ShloMosaic.ValueIdx

/-- A rank-1 index's coordinate is below the extent. -/
theorem idx1_lt {n : Nat} (j : (⟨1, ![n]⟩ : Shape).Idx) : (j 0).val < n := (j 0).isLt

/-- A rank-1 index set is its coordinate range. -/
def idxEquiv1 {n : Nat} : (⟨1, ![n]⟩ : Shape).Idx ≃ Fin n where
  toFun i := ⟨(i 0).val, idx1_lt i⟩
  invFun a := ix1 a
  left_inv i := (eq_ix1 i).symm
  right_inv _ := rfl

/-- A sum over the positions of a flat array that satisfy a condition, as a sum over the coordinate. -/
theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  rw [Finset.sum_filter, Finset.sum_filter, ← Equiv.sum_comp (idxEquiv1 (n := n)).symm]
  rfl

/-- The number of positions of a flat array that satisfy a condition, counted over the coordinate. -/
theorem card_filter_idx1 {n : Nat} (p : (⟨1, ![n]⟩ : Shape).Idx → Prop) [DecidablePred p] :
    (Finset.univ.filter p).card = (Finset.univ.filter (fun e : Fin n => p (ix1 e))).card := by
  rw [Finset.card_eq_sum_ones, Finset.card_eq_sum_ones]
  exact sum_filter_idx1 p fun _ => 1

/-! ## The gather of a flat array at a column of start indices -/

section Take
variable {α : Type}

/-- The dimension numbers of x[idx] for a flat operand [N] and start indices [R, 1]: result [R]. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position y: the operand at the start index of row y, read signed and clamped into [0, N - 1]. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (⟨(y 0).val, idx1_lt y⟩ : Fin R) (0 : Fin 1))).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (⟨(y 0).val, idx1_lt y⟩ : Fin R) (0 : Fin 1) := by
    funext b; refine Fin.ext ?_
    match b with
    | ⟨0, _⟩ => rfl
    | ⟨1, _⟩ => rfl
  rw [hsi]
  rfl

end Take

/-! ## The scatter into a flat array at a column of scatter indices -/

section Put

/-- The dimension numbers of x.at[idx] for a flat operand [N], scatter indices [R, 1] and updates [R]. -/
abbrev put1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update j starts at the scatter index of row j, read signed. -/
theorem put1_start (j : (⟨1, ![R]⟩ : Shape).Idx) (idx : IVec ⟨2, ![R, 1]⟩ w) :
    (put1Dims N R wf).start j idx 0 = (idx (ix2 (⟨(j 0).val, idx1_lt j⟩ : Fin R) (0 : Fin 1))).toInt := by
  unfold ScatterDims.start
  rw [dif_pos (show (0 : Fin 1) ∈ (put1Dims N R wf).scatterDimsToOperandDims from List.mem_singleton.mpr rfl)]
  have hsi : (put1Dims N R wf).siIdx j ⟨List.idxOf (0 : Fin 1) (put1Dims N R wf).scatterDimsToOperandDims,
      List.idxOf_lt_length_iff.2 (List.mem_singleton.mpr rfl)⟩ = ix2 (⟨(j 0).val, idx1_lt j⟩ : Fin R) (0 : Fin 1) := by
    funext b; refine Fin.ext ?_
    match b with
    | ⟨0, _⟩ => rfl
    | ⟨1, _⟩ => rfl
  rw [hsi]

/-- The window has the one element. -/
theorem put1_window (j : (⟨1, ![R]⟩ : Shape).Idx) : (put1Dims N R wf).window j 0 = 0 := by
  unfold ScatterDims.window
  rw [dif_neg]
  simp [ScatterDims.sKept, Shape.kept, List.mem_filter, List.mem_finRange]

/-- Update j lands at position i exactly when the scatter index of row j, read signed, is i's coordinate. -/
theorem put1_resultIdx?_eq_some_iff (j : (⟨1, ![R]⟩ : Shape).Idx) (idx : IVec ⟨2, ![R, 1]⟩ w) (i : (⟨1, ![N]⟩ : Shape).Idx) :
    (put1Dims N R wf).resultIdx? j idx = some i
      ↔ (idx (ix2 (⟨(j 0).val, idx1_lt j⟩ : Fin R) (0 : Fin 1))).toInt = ((i 0).val : ℤ) := by
  have hi := idx1_lt i
  unfold ScatterDims.resultIdx?
  have hall : ∀ P : Fin 1 → Prop, (∀ a, P a) ↔ P 0 := fun P =>
    ⟨fun h => h 0, fun h a => by obtain rfl : a = 0 := Subsingleton.elim _ _; exact h⟩
  by_cases h : ∀ a : Fin (⟨1, ![N]⟩ : Shape).rank, 0 ≤ (put1Dims N R wf).start j idx a + (put1Dims N R wf).window j a ∧
      (put1Dims N R wf).start j idx a + (put1Dims N R wf).window j a < (⟨1, ![N]⟩ : Shape).size a
  · rw [dif_pos h]
    have h0 := h 0
    rw [put1_start, put1_window] at h0
    constructor
    · intro he
      have := congrArg (fun o : Option (⟨1, ![N]⟩ : Shape).Idx => o.map fun k => (k 0).val) he
      simp only [Option.map_some] at this
      have e := Option.some.inj this
      simp only [put1_start, put1_window] at e
      omega
    · intro he
      congr 1
      funext a
      obtain rfl : a = 0 := Subsingleton.elim _ _
      refine Fin.ext ?_
      show ((put1Dims N R wf).start j idx 0 + (put1Dims N R wf).window j 0).toNat = (i 0).val
      rw [put1_start, put1_window]
      omega
  · rw [dif_neg h]
    constructor
    · intro he; exact absurd he (by simp)
    · intro he
      exfalso
      apply h
      intro a
      obtain rfl : a = 0 := Subsingleton.elim _ _
      rw [put1_start, put1_window]
      have : (⟨1, ![N]⟩ : Shape).size 0 = N := rfl
      rw [this]
      omega

end Put

/-! ## The integer scatter as a fold per element, and as a count -/

section Fold
variable {α ι κ : Type} [DecidableEq ι]

/-- A fold of "update the element the step names" read at one element is the fold of the steps that name it. -/
theorem foldl_step_apply (step : (ι → α) → κ → ι → α) (g : κ → Option ι) (f : α → α → α) (upd : κ → α)
    (hstep : ∀ r n i, step r n i = if g n = some i then f (r i) (upd n) else r i) (i : ι) :
    ∀ (l : List κ) (x : ι → α),
      (l.foldl step x) i = l.foldl (fun a n => if g n = some i then f a (upd n) else a) (x i)
  | [], _ => rfl
  | n :: l, x => by
    rw [List.foldl_cons, List.foldl_cons, foldl_step_apply step g f upd hstep i l, hstep]

/-- Adding 1 at the steps that satisfy a condition counts them. -/
theorem foldl_count (p : κ → Prop) [DecidablePred p] :
    ∀ (l : List κ) (a : BitVec 32),
      l.foldl (fun a n => if p n then a + 1#32 else a) a = a + BitVec.ofNat 32 (l.countP fun n => decide (p n))
  | [], a => by simp
  | n :: l, a => by
    rw [List.foldl_cons, foldl_count p l, List.countP_cons]
    by_cases h : p n
    · simp only [h, if_true, decide_true]
      rw [BitVec.add_assoc]
      congr 1
      apply BitVec.eq_of_toNat_eq
      simp [BitVec.toNat_add, BitVec.toNat_ofNat, Nat.add_comm]
    · simp [h]

end Fold

/-- The steps of a list of all positions that satisfy a condition are as many as the positions that do. -/
theorem countP_finRange {n : Nat} (p : Fin n → Prop) [DecidablePred p] :
    (List.finRange n).countP (fun k => decide (p k)) = (Finset.univ.filter p).card := by
  rw [List.countP_eq_length_filter]
  have : (Finset.univ.filter p : Finset (Fin n)) = ((List.finRange n).filter fun k => decide (p k)).toFinset := by
    ext k; simp
  rw [this, List.toFinset_card_of_nodup ((List.nodup_finRange n).filter _)]

section IntScatter
variable {s si u : Shape} {w : Nat}

/-- The integer scatter read at an element: the fold, over the update positions in row-major order, of the updates that
    land there. -/
theorem scatter_apply (d : ScatterDims s si u) (f : BitVec 32 → BitVec 32 → BitVec 32) (x : s.Idx → BitVec 32)
    (idx : IVec si w) (upd : u.Idx → BitVec 32) (i : s.Idx) :
    Host.scatter d f x idx upd i
      = (List.finRange u.numel).foldl (fun a n => if d.resultIdx? (u.rowMajor.symm n) idx = some i
          then f a (upd (u.rowMajor.symm n)) else a) (x i) := by
  unfold Host.scatter
  refine foldl_step_apply _ (fun n => d.resultIdx? (u.rowMajor.symm n) idx) f (fun n => upd (u.rowMajor.symm n)) ?_ i _ x
  intro r n i'
  cases hg : d.resultIdx? (u.rowMajor.symm n) idx with
  | none => simp
  | some i₀ =>
    by_cases h : i' = i₀
    · subst h; simp
    · have h' : ¬ (i₀ = i') := fun e => h e.symm
      simp [h, h']

/-- The scatter of ones into zeros with the body + counts, at each element, the updates that land there. -/
theorem scatter_ones_apply (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  rw [scatter_apply]
  show (List.finRange u.numel).foldl (fun a n => if d.resultIdx? (u.rowMajor.symm n) idx = some i then a + 1#32 else a) 0#32 = _
  rw [foldl_count (fun n => d.resultIdx? (u.rowMajor.symm n) idx = some i), countP_finRange, BitVec.zero_add]
  congr 1
  exact Finset.card_bij (fun n _ => u.rowMajor.symm n) (fun n hn => by simpa using hn)
    (fun a _ b _ h => u.rowMajor.symm.injective h)
    (fun j hj => ⟨u.rowMajor j, by simpa using hj, by simp⟩)

end IntScatter

end Cert.Lib.HostIndex

end
-- ==== Proof.LibMatLayout.lean ====
/-
  Three layout operations on matrices read at an entry: two matrices laid side by side (joined along the second axis),
  read in the columns of the first and of the second; the upper and the lower band of rows of a matrix (unit-stride
  slices at row offset 0 and at row offset K₁); and the transpose.
-/
import Idealize.ShloMosaic.Lib.Pipeline.Value
import Idealize.ShloMosaic.Lib.ValueIdx

noncomputable section

namespace Cert.Lib.MatLayout

open Idealize.ShloMosaic Idealize.ShloMosaic.ValueIdx

variable {α : Type} {M K₁ K₂ N : Nat}

/-- Side by side, in the first matrix's columns: entry (r, k) with k < K₁ is x₁[r, k]. -/
theorem concat_cols_left (x₁ : (⟨2, ![M, K₁]⟩ : Shape).Idx → α) (x₂ : (⟨2, ![M, K₂]⟩ : Shape).Idx → α)
    (h : Shape.Concatenates [⟨2, ![M, K₁]⟩, ⟨2, ![M, K₂]⟩] ⟨2, ![M, K₁ + K₂]⟩ 1) (r : Fin M) (k : Fin K₁) :
    concatenate ⟨2, ![M, K₁ + K₂]⟩ 1 [⟨⟨2, ![M, K₁]⟩, x₁⟩, ⟨⟨2, ![M, K₂]⟩, x₂⟩] h (ix2 r (Fin.castAdd K₂ k)) = x₁ (ix2 r k) :=
  concatenate_pair_apply_left 1 x₁ x₂ h _ rfl (ix2 r k) fun b => by
    match b with
    | ⟨0, _⟩ => rfl
    | ⟨1, _⟩ => rfl

/-- Side by side, in the second matrix's columns: entry (r, K₁ + k) is x₂[r, k]. -/
theorem concat_cols_right (x₁ : (⟨2, ![M, K₁]⟩ : Shape).Idx → α) (x₂ : (⟨2, ![M, K₂]⟩ : Shape).Idx → α)
    (h : Shape.Concatenates [⟨2, ![M, K₁]⟩, ⟨2, ![M, K₂]⟩] ⟨2, ![M, K₁ + K₂]⟩ 1) (r : Fin M) (k : Fin K₂) :
    concatenate ⟨2, ![M, K₁ + K₂]⟩ 1 [⟨⟨2, ![M, K₁]⟩, x₁⟩, ⟨⟨2, ![M, K₂]⟩, x₂⟩] h (ix2 r (Fin.natAdd K₁ k)) = x₂ (ix2 r k) :=
  concatenate_pair_apply_right 1 x₁ x₂ h _ rfl rfl (ix2 r k)
    (fun b hb => by
      match b, hb with
      | ⟨0, _⟩, _ => rfl
      | ⟨1, _⟩, hb => exact absurd rfl hb)
    (Nat.add_comm _ _)

/-- The upper band: row k of the first K₁ rows is row k of the matrix. -/
theorem slice_upper_rows (w : (⟨2, ![K₁ + K₂, N]⟩ : Shape).Idx → α)
    (h : (⟨2, ![K₁ + K₂, N]⟩ : Shape).Slices ![0, 0] ⟨2, ![K₁, N]⟩) (k : Fin K₁) (b : Fin N) :
    extractStridedSlice ⟨2, ![K₁, N]⟩ ![0, 0] w h (ix2 k b) = w (ix2 (Fin.castAdd K₂ k) b) :=
  extractStridedSlice_apply _ w h _ _ fun a => by
    match a with
    | ⟨0, _⟩ => exact (Nat.zero_add _).symm
    | ⟨1, _⟩ => exact (Nat.zero_add _).symm

/-- The lower band: row k of the last K₂ rows is row K₁ + k of the matrix. -/
theorem slice_lower_rows (w : (⟨2, ![K₁ + K₂, N]⟩ : Shape).Idx → α)
    (h : (⟨2, ![K₁ + K₂, N]⟩ : Shape).Slices ![K₁, 0] ⟨2, ![K₂, N]⟩) (k : Fin K₂) (b : Fin N) :
    extractStridedSlice ⟨2, ![K₂, N]⟩ ![K₁, 0] w h (ix2 k b) = w (ix2 (Fin.natAdd K₁ k) b) :=
  extractStridedSlice_apply _ w h _ _ fun a => by
    match a with
    | ⟨0, _⟩ => rfl
    | ⟨1, _⟩ => exact (Nat.zero_add _).symm

/-- The transpose: entry (c, b) is entry (b, c) of the matrix. -/
theorem transpose_swap (z : (⟨2, ![M, N]⟩ : Shape).Idx → α) (h : (⟨2, ![M, N]⟩ : Shape).Transposes [1, 0] ⟨2, ![N, M]⟩)
    (c : Fin N) (b : Fin M) : transpose ⟨2, ![N, M]⟩ [1, 0] z h (ix2 c b) = z (ix2 b c) :=
  transpose_apply [1, 0] z h _ _ fun t => by
    match t with
    | ⟨0, _⟩ => rfl
    | ⟨1, _⟩ => rfl

end Cert.Lib.MatLayout

end
-- ==== Proof.ReferencePooled.lean ====
/-
  The reference, read at an index over the extended reals, is the pooled projection of its arguments.
  Its accumulating scatter of the joined rows at `(p, k)` is zero plus the sum of column `k` over the rows whose word,
  read signed, is `p` — for `p < 4096` exactly the rows whose word is `p`'s —; the scatter of ones is their number, a
  natural number, so `max(count, 1)` is a nonzero real and dividing by it is multiplying by its reciprocal; the
  contraction over the 512 joined columns splits into the left 256 and the right 256, which are the two halves'
  columns against the two halves of the weight's columns (the weight enters transposed); the offset is broadcast.
-/
import proofs.«423303_j78640851190456_3_alg».proof.Proof.Gen.ReferenceIdeal.Read
import proofs.«423303_j78640851190456_3_alg».proof.Proof.SegmentPool
import proofs.«423303_j78640851190456_3_alg».proof.Proof.LibRowScatter
import proofs.«423303_j78640851190456_3_alg».proof.Proof.LibHostIndex
import proofs.«423303_j78640851190456_3_alg».proof.Proof.LibMatLayout
import proofs.«423303_j78640851190456_3_alg».proof.Proof.LibTileSum
import Idealize.ShloMosaic.Lib.ValueIdx
import Idealize.ShloMosaic.Lib.IdealHost
import Idealize.ShloMosaic.PureOps.Ideal.Laws
import Mathlib.Algebra.BigOperators.Fin

set_option maxRecDepth 16384

noncomputable section

open scoped BigOperators

namespace Cert.ReferenceIdeal.Pooled

open Idealize.ShloMosaic Idealize.ShloMosaic.TcCoe Idealize.ShloMosaic.ValueIdx Idealize.SL.Sem
open Cert.ReferenceIdeal Cert.ReferenceIdeal.Gen

/-! ## A segment word read signed -/

/-- The word of a number below 4096, read signed, is that number: it is far below 2³¹. -/
theorem toInt_ofNat_small (p : Nat) (hp : p < 4096) : (BitVec.ofNat 32 p).toInt = (p : ℤ) := by
  rw [BitVec.toInt_eq_toNat_cond, BitVec.toNat_ofNat]
  have : p % 2 ^ 32 = p := Nat.mod_eq_of_lt (by omega)
  rw [this]
  split <;> omega

/-- A 32-bit word read signed is `p < 4096` exactly when it is `p`'s word. -/
theorem toInt_eq_iff (w : BitVec 32) (p : Fin 4096) : w.toInt = (p.val : ℤ) ↔ w = BitVec.ofNat 32 p.val := by
  constructor
  · intro h
    apply BitVec.eq_of_toInt_eq
    rw [h, toInt_ofNat_small _ p.isLt]
  · rintro rfl
    exact toInt_ofNat_small _ p.isLt

/-! ## The accumulating scatter into a flat array, read at an index -/

/-- The accumulating scatter of a flat array of updates over the extended reals, read at `p`: the operand there plus
    the sum, over the updates whose scatter index (read signed) is `p`, of the update. -/
theorem hostScatterAdd_flat_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (p : Fin N) :
    Ideal.hostScatterAdd (Cert.Lib.HostIndex.put1Dims N R wf) x idx upd (ix1 p)
      = x (ix1 p) + ∑ n : Fin R, if (idx (ix2 n (0 : Fin 1))).toInt = (p.val : ℤ) then upd (ix1 n) else 0 := by
  unfold Ideal.hostScatterAdd
  congr 1
  rw [Cert.Lib.RowScatter.sum_filter_of_iff _ _ _
    (fun j => Cert.Lib.HostIndex.put1_resultIdx?_eq_some_iff wf j idx (ix1 p)),
    ← Equiv.sum_comp (Cert.Lib.HostIndex.idxEquiv1 (n := R)).symm]
  rfl

/-! ## The reference's two scatters, read at an index -/

/-- The joined rows scattered by segment word: entry `(p, k)` is the sum of column `k` of the joined rows over the
    rows of segment `p`. -/
theorem joinedScatter_apply (x0 x1 : (⟨S65536x256, .f32⟩ : BufTy).Contents (Elt Ideal))
    (x2 : (⟨S65536, .i32⟩ : BufTy).Contents (Elt Ideal)) (p : Fin 4096) (k : Fin 512) :
    Read.val_main_v3 (F := Ideal) x0 x1 x2 (ix2 p k)
      = ∑ r : Fin 65536, if Cert.SegmentPool.inSeg x2 p r then Read.val_main_v0 (F := Ideal) x0 x1 (ix2 r k) else 0 := by
  show Ideal.hostScatterAdd (Cert.Lib.RowScatter.putRowDims 4096 65536 512
      Facts₀.scatter_S4096x512_S65536x1_S65536x512_1_0_0_1_wf)
    (Read.val_main_v1 (F := Ideal)) (Read.val_main_v2 (F := Ideal) x2) (Read.val_main_v0 (F := Ideal) x0 x1) (ix2 p k) = _
  rw [Cert.Lib.RowScatter.hostScatterAdd_rows_apply, Read.val_main_v1_apply, Read.val_main_cst_apply, Ideal.ofBits_def,
    Ideal.ofBits_zero_f32, zero_add]
  refine Finset.sum_congr rfl fun r _ => ?_
  rw [Read.val_main_v2_apply]
  have hr : Read.idx_main_v2 (ix2 r (0 : Fin 1)) = ix1 r := by
    funext a
    match a with
    | ⟨0, _⟩ => rfl
  rw [hr]
  exact if_congr (toInt_eq_iff _ p) rfl rfl

/-- The ones scattered by segment word: entry `p` is the number of rows of segment `p`. -/
theorem onesScatter_apply (x2 : (⟨S65536, .i32⟩ : BufTy).Contents (Elt Ideal)) (p : Fin 4096) :
    Read.val_main_v7 (F := Ideal) x2 (ix1 p) = Cert.SegmentPool.segCount x2 p := by
  show Ideal.hostScatterAdd (Cert.Lib.HostIndex.put1Dims 4096 65536 Facts₀.scatter_S4096_S65536x1_S65536_n_0_0_1_wf)
    (Read.val_main_v5 (F := Ideal)) (Read.val_main_v6 (F := Ideal) x2) (Read.val_main_v4 (F := Ideal)) (ix1 p) = _
  rw [hostScatterAdd_flat_apply, Read.val_main_v5_apply, Read.val_main_cst_1_apply, Ideal.ofBits_def,
    Ideal.ofBits_zero_f32, zero_add]
  unfold Cert.SegmentPool.segCount
  refine Finset.sum_congr rfl fun r _ => ?_
  rw [Read.val_main_v6_apply, Read.val_main_v4_apply, Read.val_main_cst_0_apply, Ideal.ofBits_def, Ideal.ofBits_one_f32]
  have hr : Read.idx_main_v6 (ix2 r (0 : Fin 1)) = ix1 r := by
    funext a
    match a with
    | ⟨0, _⟩ => rfl
  rw [hr]
  exact if_congr (toInt_eq_iff _ p) rfl rfl

/-- The divisor at `(p, k)`: the count of segment `p` raised to at least one. -/
theorem divisor_apply (x2 : (⟨S65536, .i32⟩ : BufTy).Contents (Elt Ideal)) (p : Fin 4096) (k : Fin 512) :
    Read.val_main_v11 (F := Ideal) x2 (ix2 p k) = max (Cert.SegmentPool.segCount x2 p) 1 := by
  rw [Read.val_main_v11_apply, Read.val_main_v10_apply, Read.val_main_v9_apply, Read.val_main_v8_apply,
    Read.val_main_cst_2_apply, Ideal.ofBits_def, Ideal.ofBits_one_f32, Ideal.maximumf_def]
  have hp : Read.idx_main_v10 (Read.idx_main_v11 (ix2 p k)) = ix1 p := by
    funext a
    match a with
    | ⟨0, _⟩ => rfl
  rw [hp, onesScatter_apply]

/-- The scaled sums at `(p, k)`: the joined rows' column sum over segment `p` times the segment's reciprocal. -/
theorem scaled_apply (x0 x1 : (⟨S65536x256, .f32⟩ : BufTy).Contents (Elt Ideal))
    (x2 : (⟨S65536, .i32⟩ : BufTy).Contents (Elt Ideal)) (p : Fin 4096) (k : Fin 512) :
    Read.val_main_v12 (F := Ideal) x0 x1 x2 (ix2 p k)
      = (∑ r : Fin 65536, if Cert.SegmentPool.inSeg x2 p r then Read.val_main_v0 (F := Ideal) x0 x1 (ix2 r k) else 0)
        * Cert.SegmentPool.scale x2 p := by
  rw [Read.val_main_v12_apply, Ideal.hostDivf_def, joinedScatter_apply, divisor_apply]
  unfold Cert.SegmentPool.scale
  have h : max (Cert.SegmentPool.segCount x2 p) 1 ≠ 0 :=
    ne_of_gt (lt_of_lt_of_le zero_lt_one (le_max_right _ 1))
  exact (Ideal.mul_one_div h).symm

/-- The left 256 joined columns are the first argument's: the scaled sums there are its segment sums, scaled. -/
theorem scaled_left (x0 x1 : (⟨S65536x256, .f32⟩ : BufTy).Contents (Elt Ideal))
    (x2 : (⟨S65536, .i32⟩ : BufTy).Contents (Elt Ideal)) (p : Fin 4096) (k : Fin 256) :
    Read.val_main_v12 (F := Ideal) x0 x1 x2 (ix2 p (Fin.castAdd 256 k))
      = Cert.SegmentPool.segSum x0 x2 p k * Cert.SegmentPool.scale x2 p := by
  rw [scaled_apply]
  unfold Cert.SegmentPool.segSum
  refine congrArg (· * Cert.SegmentPool.scale x2 p) ?_
  refine Finset.sum_congr rfl fun r _ => ?_
  have h : Read.val_main_v0 (F := Ideal) x0 x1 (ix2 r (Fin.castAdd 256 k)) = x0 (ix2 r k) :=
    Cert.Lib.MatLayout.concat_cols_left x0 x1 _ r k
  rw [h]

/-- The right 256 joined columns are the second argument's. -/
theorem scaled_right (x0 x1 : (⟨S65536x256, .f32⟩ : BufTy).Contents (Elt Ideal))
    (x2 : (⟨S65536, .i32⟩ : BufTy).Contents (Elt Ideal)) (p : Fin 4096) (k : Fin 256) :
    Read.val_main_v12 (F := Ideal) x0 x1 x2 (ix2 p (Fin.natAdd 256 k))
      = Cert.SegmentPool.segSum x1 x2 p k * Cert.SegmentPool.scale x2 p := by
  rw [scaled_apply]
  unfold Cert.SegmentPool.segSum
  refine congrArg (· * Cert.SegmentPool.scale x2 p) ?_
  refine Finset.sum_congr rfl fun r _ => ?_
  have h : Read.val_main_v0 (F := Ideal) x0 x1 (ix2 r (Fin.natAdd 256 k)) = x1 (ix2 r k) :=
    Cert.Lib.MatLayout.concat_cols_right x0 x1 _ r k
  rw [h]

/-! ## The contraction -/

/-- A sum over the 512 joined columns is the sum over the left 256 plus the sum over the right 256. -/
theorem sum_halves (f : Fin 512 → EReal) :
    ∑ k : Fin 512, f k = ∑ k : Fin 256, f (Fin.castAdd 256 k) + ∑ k : Fin 256, f (Fin.natAdd 256 k) :=
  Fin.sum_univ_add (a := 256) (b := 256) f

/-- The contraction reads the scaled sums at `(p, k)`. -/
theorem lidx_eq (p : Fin 4096) (o : Fin 32) (k : Fin 512) : Read.lidx_main_v14 (ix2 p o) k = ix2 p k := by
  funext a
  match a with
  | ⟨0, _⟩ => rfl
  | ⟨1, _⟩ => rfl

/-- The contraction reads the transposed weight at `(k, o)`, which is the weight at `(o, k)`. -/
theorem ridx_eq (p : Fin 4096) (o : Fin 32) (k : Fin 512) :
    Read.idx_main_v13 (Read.ridx_main_v14 (ix2 p o) k) = ix2 o k := by
  funext a
  match a with
  | ⟨0, _⟩ => rfl
  | ⟨1, _⟩ => rfl

/-- The offset broadcast over the segments reads the offset at `o`. -/
theorem oidx_eq (p : Fin 4096) (o : Fin 32) : Read.idx_main_v15 (Read.idx_main_v16 (ix2 p o)) = ix1 o := by
  funext a
  match a with
  | ⟨0, _⟩ => rfl

/-- The reference's result stage is the pooled projection. -/
theorem stage_eq_pooled (x0 x1 : (⟨S65536x256, .f32⟩ : BufTy).Contents (Elt Ideal)) (x2 : (⟨S65536, .i32⟩ : BufTy).Contents (Elt Ideal))
    (x3 : (⟨S32x512, .f32⟩ : BufTy).Contents (Elt Ideal)) (x4 : (⟨S32, .f32⟩ : BufTy).Contents (Elt Ideal)) :
    Cert.ReferenceIdeal.Read.val_main_v17 (F := Ideal) x0 x1 x2 x3 x4 = Cert.SegmentPool.pooled x0 x1 x2 x3 x4 := by
  funext i
  obtain ⟨p, o, rfl⟩ : ∃ (p : Fin 4096) (o : Fin 32), i = ix2 p o := ⟨i 0, i 1, eq_ix2 i⟩
  rw [Read.val_main_v17_apply, Ideal.addf_def, Read.val_main_v14_apply, Read.val_main_v16_apply, Read.val_main_v15_apply,
    oidx_eq, sum_halves]
  show _ = ((∑ k : Fin 256, (Cert.SegmentPool.segSum x0 x2 p k * Cert.SegmentPool.scale x2 p) * x3 (ix2 o (Fin.castAdd 256 k)))
      + (∑ k : Fin 256, (Cert.SegmentPool.segSum x1 x2 p k * Cert.SegmentPool.scale x2 p) * x3 (ix2 o (Fin.natAdd 256 k))))
    + x4 (ix1 o)
  refine congrArg₂ (· + ·) (congrArg₂ (· + ·) ?_ ?_) rfl
  · refine Finset.sum_congr rfl fun k _ => ?_
    rw [lidx_eq, scaled_left, Read.val_main_v13_apply, ridx_eq]
  · refine Finset.sum_congr rfl fun k _ => ?_
    rw [lidx_eq, scaled_right, Read.val_main_v13_apply, ridx_eq]

end Cert.ReferenceIdeal.Pooled

end
-- ==== Proof.ScratchPieces.lean ====
/-
  What each kind of grid point leaves in the three carried accumulators and in the output block, as the body's
  arithmetic applied to the point's input blocks and to what the point before left.
  A tile's first point resets the accumulators to zero; a point whose block lies between the tile's first and last
  block then adds the block's share (to the zero just stored, at the first point; to the carried contents later); a
  point outside leaves them; the tile's last point finally stores the projection of the accumulators as they then
  stand. Each statement reads one buffer's contents back from the stores that cover it.
-/
import proofs.«423303_j78640851190456_3_alg».proof.Proof.FrameKernelIdeal
import Idealize.ShloMosaic.Lib.Pipeline.Value
import Idealize.ShloMosaic.Lib.Tactic
import Idealize.ShloMosaic.Lib.ValueIdx

set_option maxRecDepth 16384

noncomputable section

open scoped BigOperators

namespace Cert.KernelIdeal.Pieces

open Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

variable (c : Dev nD) (i : grid0.Coords)
  (arg4 : Memref sig .tc .vmem S4096x256 .f32) (harg4 : arg4.IsWhole) (arg5 : Memref sig .tc .vmem S4096x256 .f32) (harg5 : arg5.IsWhole)
  (arg6 : Memref sig .tc .vmem S4096 .i32) (harg6 : arg6.IsWhole) (arg7 : Memref sig .tc .vmem S32x512 .f32) (harg7 : arg7.IsWhole)
  (arg8 : Memref sig .tc .vmem S32 .f32) (harg8 : arg8.IsWhole) (arg9 : Memref sig .tc .vmem S1024x32 .f32) (harg9 : arg9.IsWhole)
  (arg10 : Memref sig .tc .vmem S1024x256 .f32) (harg10 : arg10.IsWhole) (arg11 : Memref sig .tc .vmem S1024x256 .f32) (harg11 : arg11.IsWhole)
  (arg12 : Memref sig .tc .vmem S1024x1 .f32) (harg12 : arg12.IsWhole)
  (x0 x1 : Vec F S4096x256 .f32) (x2 : Vec F S4096 .i32) (x3 : Vec F S32x512 .f32) (x4 : Vec F S32 .f32)
  (xt0 : TbBuf0 (F := F) c tbM0_0) (xt1 : TbBuf0 (F := F) c tbM0_1)

theorem hz1 : (![0] : Fin 1 → Nat) = fun _ => 0 := funext fun a => by fin_cases a; rfl

theorem hz2 : (![0, 0] : Fin 2 → Nat) = fun _ => 0 := funext fun a => by fin_cases a <;> rfl

/-! ## A tile's first point -/

/-- Between the tile's first and last block: accumulator A is reset, then the block's share is added to the zero read back. -/
theorem first_in_A (hc0 : cond0_0 i) (hc2 : ¬cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_A_0 c i arg4 harg4 arg5 harg5 arg6 harg6 arg7 harg7 arg8 harg8 arg9 harg9 arg10 harg10 arg11 harg11 arg12 harg12 hc0 hc2 x0 x1 x2 x3 x4 xt0 xt1 hc1
      = k0_pay7 (BitVec.ofNat 32 (i 0).val) x2 x0 k0_pay1 := by
  unfold sout0_A_0
  rw [View.read_writes_eq_canon _ _ _ (scover0_A_0 c i arg4 harg4 arg5 harg5 arg6 harg6 arg7 harg7 arg8 harg8 arg9 harg9 arg10 harg10 arg11 harg11 arg12 harg12 hc0 hc2 x0 x1 x2 x3 x4 xt0 xt1 hc1)]
  unfold kernelRun0_A
  dsimp only
  sl_unfold_words
  rw [View.canon_cons_unit_zero (S := S1024x256) hz2, View.readCov_unit_zero (S := S1024x256) _ hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- Accumulator B likewise. -/
theorem first_in_B (hc0 : cond0_0 i) (hc2 : ¬cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_A_1 c i arg4 harg4 arg5 harg5 arg6 harg6 arg7 harg7 arg8 harg8 arg9 harg9 arg10 harg10 arg11 harg11 arg12 harg12 hc0 hc2 x0 x1 x2 x3 x4 xt0 xt1 hc1
      = k0_pay8 (BitVec.ofNat 32 (i 0).val) x2 x1 k0_pay2 := by
  unfold sout0_A_1
  rw [View.read_writes_eq_canon _ _ _ (scover0_A_1 c i arg4 harg4 arg5 harg5 arg6 harg6 arg7 harg7 arg8 harg8 arg9 harg9 arg10 harg10 arg11 harg11 arg12 harg12 hc0 hc2 x0 x1 x2 x3 x4 xt0 xt1 hc1)]
  unfold kernelRun0_A
  dsimp only
  sl_unfold_words
  rw [View.canon_cons_unit_zero (S := S1024x256) hz2, View.readCov_unit_zero (S := S1024x256) _ hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- The count likewise. -/
theorem first_in_count (hc0 : cond0_0 i) (hc2 : ¬cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_A_2 c i arg4 harg4 arg5 harg5 arg6 harg6 arg7 harg7 arg8 harg8 arg9 harg9 arg10 harg10 arg11 harg11 arg12 harg12 hc0 hc2 x0 x1 x2 x3 x4 xt0 xt1 hc1
      = k0_pay9 (BitVec.ofNat 32 (i 0).val) x2 k0_pay3 := by
  unfold sout0_A_2
  rw [View.read_writes_eq_canon _ _ _ (scover0_A_2 c i arg4 harg4 arg5 harg5 arg6 harg6 arg7 harg7 arg8 harg8 arg9 harg9 arg10 harg10 arg11 harg11 arg12 harg12 hc0 hc2 x0 x1 x2 x3 x4 xt0 xt1 hc1)]
  unfold kernelRun0_A
  dsimp only
  sl_unfold_words
  rw [View.canon_cons_unit_zero (S := S1024x1) hz2, View.readCov_unit_zero (S := S1024x1) _ hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- Outside the tile's block range: accumulator A is reset and left at zero. -/
theorem first_out_A (hc0 : cond0_0 i) (hc2 : ¬cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_B_0 c i arg4 harg4 arg5 harg5 arg6 harg6 arg7 harg7 arg8 harg8 arg9 harg9 arg10 harg10 arg11 harg11 arg12 harg12 hc0 hc2 x0 x1 x2 x3 x4 xt0 xt1 hc1
      = k0_pay1 := by
  unfold sout0_B_0
  rw [View.read_writes_eq_canon _ _ _ (scover0_B_0 c i arg4 harg4 arg5 harg5 arg6 harg6 arg7 harg7 arg8 harg8 arg9 harg9 arg10 harg10 arg11 harg11 arg12 harg12 hc0 hc2 x0 x1 x2 x3 x4 xt0 xt1 hc1)]
  unfold kernelRun0_B
  dsimp only
  sl_unfold_words
  rw [View.canon_unit_zero hz2]

/-- Accumulator B likewise. -/
theorem first_out_B (hc0 : cond0_0 i) (hc2 : ¬cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_B_1 c i arg4 harg4 arg5 harg5 arg6 harg6 arg7 harg7 arg8 harg8 arg9 harg9 arg10 harg10 arg11 harg11 arg12 harg12 hc0 hc2 x0 x1 x2 x3 x4 xt0 xt1 hc1
      = k0_pay2 := by
  unfold sout0_B_1
  rw [View.read_writes_eq_canon _ _ _ (scover0_B_1 c i arg4 harg4 arg5 harg5 arg6 harg6 arg7 harg7 arg8 harg8 arg9 harg9 arg10 harg10 arg11 harg11 arg12 harg12 hc0 hc2 x0 x1 x2 x3 x4 xt0 xt1 hc1)]
  unfold kernelRun0_B
  dsimp only
  sl_unfold_words
  rw [View.canon_unit_zero hz2]

/-- The count likewise. -/
theorem first_out_count (hc0 : cond0_0 i) (hc2 : ¬cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_B_2 c i arg4 harg4 arg5 harg5 arg6 harg6 arg7 harg7 arg8 harg8 arg9 harg9 arg10 harg10 arg11 harg11 arg12 harg12 hc0 hc2 x0 x1 x2 x3 x4 xt0 xt1 hc1
      = k0_pay3 := by
  unfold sout0_B_2
  rw [View.read_writes_eq_canon _ _ _ (scover0_B_2 c i arg4 harg4 arg5 harg5 arg6 harg6 arg7 harg7 arg8 harg8 arg9 harg9 arg10 harg10 arg11 harg11 arg12 harg12 hc0 hc2 x0 x1 x2 x3 x4 xt0 xt1 hc1)]
  unfold kernelRun0_B
  dsimp only
  sl_unfold_words
  rw [View.canon_unit_zero hz2]

/-! ## The later points, over what the point before left (`xs0`, `xs1`, `xs2`) -/

section carried
variable (xs0 xs1 : Vec F S1024x256 .f32) (xs2 : Vec F S1024x1 .f32)

/-- A middle point between the tile's first and last block adds its block's share to accumulator A. -/
theorem mid_in_A (hc0 : ¬cond0_0 i) (hc2 : ¬cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_C_0 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay7 (BitVec.ofNat 32 (i 0).val) x2 x0 xs0 := by
  unfold sout0_C_0
  rw [View.read_writes_eq_canon _ _ _ (scover0_C_0 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_C
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- Accumulator B likewise. -/
theorem mid_in_B (hc0 : ¬cond0_0 i) (hc2 : ¬cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_C_1 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay8 (BitVec.ofNat 32 (i 0).val) x2 x1 xs1 := by
  unfold sout0_C_1
  rw [View.read_writes_eq_canon _ _ _ (scover0_C_1 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_C
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- The count likewise. -/
theorem mid_in_count (hc0 : ¬cond0_0 i) (hc2 : ¬cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_C_2 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay9 (BitVec.ofNat 32 (i 0).val) x2 xs2 := by
  unfold sout0_C_2
  rw [View.read_writes_eq_canon _ _ _ (scover0_C_2 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_C
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- A middle point outside the tile's block range leaves the three accumulators as it found them. -/
theorem mid_out_A (hc0 : ¬cond0_0 i) (hc2 : ¬cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) : sout0_D_0 c i arg4 harg4 arg5 harg5 arg6 harg6 arg7 harg7 arg8 harg8 arg9 harg9 arg10 harg10 arg11 harg11 arg12 harg12 hc0 hc2 x0 x1 x2 x3 x4 xt0 xt1 xs0 xs1 xs2 hc1 = xs0 := rfl
theorem mid_out_B (hc0 : ¬cond0_0 i) (hc2 : ¬cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) : sout0_D_1 c i arg4 harg4 arg5 harg5 arg6 harg6 arg7 harg7 arg8 harg8 arg9 harg9 arg10 harg10 arg11 harg11 arg12 harg12 hc0 hc2 x0 x1 x2 x3 x4 xt0 xt1 xs0 xs1 xs2 hc1 = xs1 := rfl
theorem mid_out_count (hc0 : ¬cond0_0 i) (hc2 : ¬cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) : sout0_D_2 c i arg4 harg4 arg5 harg5 arg6 harg6 arg7 harg7 arg8 harg8 arg9 harg9 arg10 harg10 arg11 harg11 arg12 harg12 hc0 hc2 x0 x1 x2 x3 x4 xt0 xt1 xs0 xs1 xs2 hc1 = xs2 := rfl

/-- The tile's last point, between its first and last block, adds its block's share to accumulator A. -/
theorem last_in_A (hc0 : ¬cond0_0 i) (hc2 : cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_E_0 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay7 (BitVec.ofNat 32 (i 0).val) x2 x0 xs0 := by
  unfold sout0_E_0
  rw [View.read_writes_eq_canon _ _ _ (scover0_E_0 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_E
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- Accumulator B likewise. -/
theorem last_in_B (hc0 : ¬cond0_0 i) (hc2 : cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_E_1 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay8 (BitVec.ofNat 32 (i 0).val) x2 x1 xs1 := by
  unfold sout0_E_1
  rw [View.read_writes_eq_canon _ _ _ (scover0_E_1 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_E
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- The count likewise. -/
theorem last_in_count (hc0 : ¬cond0_0 i) (hc2 : cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    sout0_E_2 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay9 (BitVec.ofNat 32 (i 0).val) x2 xs2 := by
  unfold sout0_E_2
  rw [View.read_writes_eq_canon _ _ _ (scover0_E_2 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_E
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- and stores the projection of the accumulators it has just updated. -/
theorem last_in_block (hc0 : ¬cond0_0 i) (hc2 : cond0_2 i) (hc1 : (cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    out0_E_5 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay4 (k0_pay9 (BitVec.ofNat 32 (i 0).val) x2 xs2) (k0_pay7 (BitVec.ofNat 32 (i 0).val) x2 x0 xs0) (k0_pay8 (BitVec.ofNat 32 (i 0).val) x2 x1 xs1) x3 x4 := by
  unfold out0_E_5
  rw [View.read_writes_eq_canon _ _ _ (cover0_E_5 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_E
  dsimp only
  sl_unfold_words
  rw [View.canon_unit_zero hz2]
  simp only [View.readCov_unit_zero (S := S1024x1) _ hz2, View.readCov_unit_zero (S := S1024x256) _ hz2, View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

/-- The tile's last point outside its block range leaves the accumulators as it found them -/
theorem last_out_A (hc0 : ¬cond0_0 i) (hc2 : cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) : sout0_F_0 c i arg4 harg4 arg5 harg5 arg6 harg6 arg7 harg7 arg8 harg8 arg9 harg9 arg10 harg10 arg11 harg11 arg12 harg12 hc0 hc2 x0 x1 x2 x3 x4 xt0 xt1 xs0 xs1 xs2 hc1 = xs0 := rfl
theorem last_out_B (hc0 : ¬cond0_0 i) (hc2 : cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) : sout0_F_1 c i arg4 harg4 arg5 harg5 arg6 harg6 arg7 harg7 arg8 harg8 arg9 harg9 arg10 harg10 arg11 harg11 arg12 harg12 hc0 hc2 x0 x1 x2 x3 x4 xt0 xt1 xs0 xs1 xs2 hc1 = xs1 := rfl
theorem last_out_count (hc0 : ¬cond0_0 i) (hc2 : cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) : sout0_F_2 c i arg4 harg4 arg5 harg5 arg6 harg6 arg7 harg7 arg8 harg8 arg9 harg9 arg10 harg10 arg11 harg11 arg12 harg12 hc0 hc2 x0 x1 x2 x3 x4 xt0 xt1 xs0 xs1 xs2 hc1 = xs2 := rfl

/-- and stores their projection. -/
theorem last_out_block (hc0 : ¬cond0_0 i) (hc2 : cond0_2 i) (hc1 : ¬(cond0_1 i (tbM0_0.view.readAt (Elt F) (Rect.unit (s := S4) (k0_off1 i) S1.size (k0_off1_inb i)).toLoadRect xt0 (Shape.Idx.first (numel1_S1.symm ▸ Nat.one_pos))) (tbM0_1.view.readAt (Elt F) (Rect.unit (s := S4) (k0_off1 i) S1.size (k0_off1_inb i)).toLoadRect xt1 (Shape.Idx.first (numel1_S1.symm ▸ Nat.one_pos))))) :
    out0_F_5 c i arg4 harg4 arg5 harg5 arg6 harg6 arg7 harg7 arg8 harg8 arg9 harg9 arg10 harg10 arg11 harg11 arg12 harg12 hc0 hc2 x0 x1 x2 x3 x4 xt0 xt1 xs0 xs1 xs2 hc1
      = k0_pay4 xs2 xs0 xs1 x3 x4 := by
  unfold out0_F_5
  rw [View.read_writes_eq_canon _ _ _ (cover0_F_5 c i arg4 harg4 arg5 harg5 arg6 harg6 arg7 harg7 arg8 harg8 arg9 harg9 arg10 harg10 arg11 harg11 arg12 harg12 hc0 hc2 x0 x1 x2 x3 x4 xt0 xt1 xs0 xs1 xs2 hc1)]
  unfold kernelRun0_F
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread, View.ld_unit_zero (S := S4096x256) hz2, View.ld_unit_zero (S := S1024x256) hz2, View.ld_unit_zero (S := S1024x1) hz2, View.ld_unit_zero (S := S32x512) hz2, View.ld_unit_zero (S := S1024x32) hz2, View.ld_unit_zero (S := S4096) hz1, View.ld_unit_zero (S := S32) hz1]

end carried

end Cert.KernelIdeal.Pieces

end
-- ==== Proof.BlockValues.lean ====
/-
  What one grid point's body computes, entry by entry, over the extended reals.
  The reset stores zero. An in-range point adds to each accumulator the product of the block's membership matrix
  (entry `(s, e)` is one when row `e` of the block carries the word of segment `1024·tile + s`, else zero) with the
  block's rows — at entry `(s, k)` the sum of column `k` over the block's rows of that segment — and to the count the
  matrix's row sums. The last point scales both accumulators by `1 / max(count, 1)`, contracts each with its half
  of the weight's columns, adds the two and the offset.

  Every operation of a payload is read at an entry: the pointwise ones by definition; a column `[a, 1]` spread over
  `[a, b]`, a row `[1, b]` spread over `[a, b]`, a vector viewed as a row or as a column, and a band of columns of a
  matrix, each by the coordinates it reads from; a sum along the second axis as the sum over that axis's coordinates;
  and a matrix product added to the zero matrix as the sum over the one contracted coordinate of the operands' products
  (rows by columns for the accumulators, rows by rows for the projection). The membership entry is the comparison of
  two words; widened to a word and read as a signed integer it is 1 or 0, so a product with it keeps or drops the other
  factor.
-/
import proofs.«423303_j78640851190456_3_alg».proof.Proof.Gen.KernelIdeal.Skeleton
import proofs.«423303_j78640851190456_3_alg».proof.Proof.SegmentPool
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.BlockValues

open Idealize.ShloMosaic Idealize.ShloMosaic.TcCoe Idealize.ShloMosaic.ValueIdx Idealize.SL.Sem

open Cert.KernelIdeal Cert.KernelIdeal.Gen

/-! ## Layout operations read at an entry -/

section Layout
variable {α : Type}

/-- A column `[a, 1]` spread over `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Constants and words -/

/-- The pattern of `1.0` denotes `1`. -/
theorem ofBits_one_f32 : Ideal.ofBits .f32 0x3F800000#32 = 1 := by
  simp [Ideal.ofBits, Ideal.ieee, -EReal.coe_mul]; norm_num

/-- Equality of two words as one bit, widened to a word and read as a signed integer, is `1` or `0`. -/
theorem eqWord_val (x y : BitVec 32) :
    (FloatOps.sitofp (F := Ideal) .f32 ((IntOp.cmpi .eq x y).setWidth 32) : Ideal .f32) = if y = x then (1 : EReal) else 0 := by
  show (((((IntOp.cmpi .eq x y).setWidth 32).toInt : ℤ) : ℝ) : EReal) = _
  by_cases h : y = x
  · subst h
    have e : IntOp.cmpi .eq y y = 1#1 := by
      show BitVec.ofBool (y == y) = 1#1
      rw [beq_self_eq_true]; rfl
    have e1 : ((1#1 : BitVec 1).setWidth 32).toInt = 1 := by decide
    rw [e, e1, if_pos rfl]; norm_num
  · have e : IntOp.cmpi .eq x y = 0#1 := by
      have hb : (x == y) = false := beq_eq_false_iff_ne.mpr fun h' => h h'.symm
      show BitVec.ofBool (x == y) = 0#1
      rw [hb]; rfl
    have e0 : ((0#1 : BitVec 1).setWidth 32).toInt = 0 := by decide
    rw [e, e0, if_neg h]; norm_num

/-- The word of tile `t`'s segment `s`: `t · 1024 + s`, computed in 32-bit words. -/
theorem segWord (t s : ℕ) : BitVec.ofNat 32 t * 1024#32 + BitVec.ofNat 32 s = BitVec.ofNat 32 (t * 1024 + s) := by
  rw [BitVec.ofNat_add, BitVec.ofNat_mul]

/-! ## A sum along the second axis -/

/-- The source index over row `j` at column `k`. -/
theorem lift_axis1 {A B : ℕ} (h : (⟨2, ![A, B]⟩ : Shape).Reduces [1] ⟨1, ![A]⟩) (j : Fin A) (k : Fin B) :
    h.lift (ix1 j) k = ix2 j k :=
  funext fun c => Fin.ext (by
    match c with
    | ⟨0, _⟩ => rfl
    | ⟨1, _⟩ => rfl)

/-- A float add-reduction over the columns of a matrix, at the ideal values: at row `j`, the sum of the row. -/
theorem rowSum_apply {A B : ℕ} (src : FVec Ideal ⟨2, ![A, B]⟩ .f32) (h : (⟨2, ![A, B]⟩ : Shape).Reduces [1] ⟨1, ![A]⟩)
    (hφ : FKind.Formats .f32) (hacc : (0x00000000#32 : BitVec 32) = 0x00000000#32) (j : Fin A) :
    multiReduction (F := Ideal) .add [1] ⟨1, ![A]⟩ src 0x00000000#32 h hφ hacc (ix1 j) = ∑ k : Fin B, src (ix2 j k) := by
  refine (Ideal.multiReduction_add_single src 0x00000000#32 h hφ hacc (ix1 j)).trans ?_
  exact Finset.sum_congr rfl fun k _ => congrArg src (lift_axis1 h j k)

/-! ## The two matrix products -/

/-! Rows by columns, `[1024, 4096]` by `[4096, 256]`: the operands' indices at result index `i` and contraction index `q`. -/

theorem lhs_rowsCols_0 (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
theorem lhs_rowsCols_1 (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
theorem rhs_rowsCols_0 (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
theorem rhs_rowsCols_1 (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- The product of rows by columns added to the zero matrix, at the ideal values: entry `(s, k)` is the sum over `e` of
    `l[s, e] · r[e, k]`. -/
theorem matmul_rowsCols_apply (l : FVec Ideal S1024x4096 .bf16) (r : FVec Ideal S4096x256 .bf16) (s : Fin 1024) (k : Fin 256) :
    matmul dot_S1024x4096_S4096x256_S1024x256_1_0_0_1_n_n none l r (constant (F := Ideal) S1024x256 .f32 0x00000000#32) (ix2 s k)
      = ∑ e : Fin 4096, l (ix2 s e) * r (ix2 e k) := by
  simp only [matmul]
  rw [Ideal.matmul_constant_zero_apply, ← Equiv.sum_comp (ValueIdx.contrEquiv1 dot_S1024x4096_S4096x256_S1024x256_1_0_0_1_n_n 4096 rfl rfl).symm]
  refine Finset.sum_congr rfl fun e _ => ?_
  have he := ValueIdx.contrEquiv1_symm_val dot_S1024x4096_S4096x256_S1024x256_1_0_0_1_n_n 4096 rfl rfl e
  have el : dot_S1024x4096_S4096x256_S1024x256_1_0_0_1_n_n.lhsIdx (ix2 s k) ((ValueIdx.contrEquiv1 dot_S1024x4096_S4096x256_S1024x256_1_0_0_1_n_n 4096 rfl rfl).symm e) = ix2 s e := funext fun a => Fin.ext (by
    match a with
    | ⟨0, _⟩ => exact lhs_rowsCols_0 _ _
    | ⟨1, _⟩ => exact (lhs_rowsCols_1 _ _).trans he)
  have er : dot_S1024x4096_S4096x256_S1024x256_1_0_0_1_n_n.rhsIdx (ix2 s k) ((ValueIdx.contrEquiv1 dot_S1024x4096_S4096x256_S1024x256_1_0_0_1_n_n 4096 rfl rfl).symm e) = ix2 e k := funext fun a => Fin.ext (by
    match a with
    | ⟨0, _⟩ => exact (rhs_rowsCols_0 _ _).trans he
    | ⟨1, _⟩ => exact rhs_rowsCols_1 _ _)
  rw [el, er]

/-! Rows by rows, `[1024, 256]` by `[32, 256]`: both operands contracted on their second axis. -/

theorem lhs_rowsRows_0 (i : S1024x32.Idx) (q : dot_S1024x256_S32x256_S1024x32_1_1_0_0_n_n.contr.Idx) :
    (dot_S1024x256_S32x256_S1024x32_1_1_0_0_n_n.lhsIdx i q 0).val = (i 0).val := by
  unfold DotDims.lhsIdx
  rw [dif_neg (show ¬(0 : Fin S1024x256.rank) ∈ dot_S1024x256_S32x256_S1024x32_1_1_0_0_n_n.lhsBatch by decide), dif_pos (show (0 : Fin S1024x256.rank) ∈ dot_S1024x256_S32x256_S1024x32_1_1_0_0_n_n.lhsNonContracting by decide)]
  rfl
theorem lhs_rowsRows_1 (i : S1024x32.Idx) (q : dot_S1024x256_S32x256_S1024x32_1_1_0_0_n_n.contr.Idx) :
    (dot_S1024x256_S32x256_S1024x32_1_1_0_0_n_n.lhsIdx i q 1).val = (q ⟨0, by decide⟩).val :=
  dot_S1024x256_S32x256_S1024x32_1_1_0_0_n_n.lhsIdx_val_of_single rfl i q
theorem rhs_rowsRows_0 (i : S1024x32.Idx) (q : dot_S1024x256_S32x256_S1024x32_1_1_0_0_n_n.contr.Idx) :
    (dot_S1024x256_S32x256_S1024x32_1_1_0_0_n_n.rhsIdx i q 0).val = (i 1).val := by
  unfold DotDims.rhsIdx
  rw [dif_neg (show ¬(0 : Fin S32x256.rank) ∈ dot_S1024x256_S32x256_S1024x32_1_1_0_0_n_n.rhsBatch by decide), dif_pos (show (0 : Fin S32x256.rank) ∈ dot_S1024x256_S32x256_S1024x32_1_1_0_0_n_n.rhsNonContracting by decide)]
  rfl
theorem rhs_rowsRows_1 (i : S1024x32.Idx) (q : dot_S1024x256_S32x256_S1024x32_1_1_0_0_n_n.contr.Idx) :
    (dot_S1024x256_S32x256_S1024x32_1_1_0_0_n_n.rhsIdx i q 1).val = (q ⟨0, by decide⟩).val :=
  dot_S1024x256_S32x256_S1024x32_1_1_0_0_n_n.rhsIdx_val_of_single rfl i q

/-- The product of rows by rows added to the zero matrix, at the ideal values: entry `(s, o)` is the sum over `k` of
    `l[s, k] · r[o, k]`. -/
theorem matmul_rowsRows_apply (l : FVec Ideal S1024x256 .bf16) (r : FVec Ideal S32x256 .bf16) (s : Fin 1024) (o : Fin 32) :
    matmul dot_S1024x256_S32x256_S1024x32_1_1_0_0_n_n none l r (constant (F := Ideal) S1024x32 .f32 0x00000000#32) (ix2 s o)
      = ∑ k : Fin 256, l (ix2 s k) * r (ix2 o k) := by
  simp only [matmul]
  rw [Ideal.matmul_constant_zero_apply, ← Equiv.sum_comp (ValueIdx.contrEquiv1 dot_S1024x256_S32x256_S1024x32_1_1_0_0_n_n 256 rfl rfl).symm]
  refine Finset.sum_congr rfl fun k _ => ?_
  have hk := ValueIdx.contrEquiv1_symm_val dot_S1024x256_S32x256_S1024x32_1_1_0_0_n_n 256 rfl rfl k
  have el : dot_S1024x256_S32x256_S1024x32_1_1_0_0_n_n.lhsIdx (ix2 s o) ((ValueIdx.contrEquiv1 dot_S1024x256_S32x256_S1024x32_1_1_0_0_n_n 256 rfl rfl).symm k) = ix2 s k := funext fun a => Fin.ext (by
    match a with
    | ⟨0, _⟩ => exact lhs_rowsRows_0 _ _
    | ⟨1, _⟩ => exact (lhs_rowsRows_1 _ _).trans hk)
  have er : dot_S1024x256_S32x256_S1024x32_1_1_0_0_n_n.rhsIdx (ix2 s o) ((ValueIdx.contrEquiv1 dot_S1024x256_S32x256_S1024x32_1_1_0_0_n_n 256 rfl rfl).symm k) = ix2 o k := funext fun a => Fin.ext (by
    match a with
    | ⟨0, _⟩ => exact rhs_rowsRows_0 _ _
    | ⟨1, _⟩ => exact (rhs_rowsRows_1 _ _).trans hk)
  rw [el, er]

/-! ## The reset -/

theorem zeroA_apply (j : S1024x256.Idx) : (k0_pay1 (F := Ideal)) j = 0 :=
  (congrFun (shapeCast_self (broadcast S1024x256 (Scalar.ofBits (F := Ideal) .f32 0x00000000#32)) shapeCasts_S1024x256_S1024x256) j).trans
    Ideal.ofBits_zero_f32

theorem zeroB_apply (j : S1024x256.Idx) : (k0_pay2 (F := Ideal)) j = 0 :=
  (congrFun (shapeCast_self (broadcast S1024x256 (Scalar.ofBits (F := Ideal) .f32 0x00000000#32)) shapeCasts_S1024x256_S1024x256) j).trans
    Ideal.ofBits_zero_f32

theorem zeroCount_apply (j : S1024x1.Idx) : (k0_pay3 (F := Ideal)) j = 0 :=
  (congrFun (shapeCast_self (broadcast S1024x1 (Scalar.ofBits (F := Ideal) .f32 0x00000000#32)) shapeCasts_S1024x1_S1024x1) j).trans
    Ideal.ofBits_zero_f32

/-! ## The membership matrix -/

/-- Entry `(s, e)` of the membership matrix: the comparison of the word `a0 · 1024 + s` with the block's word at row `e`. -/
theorem member_apply (a0 : BitVec 32) (idb : Vec Ideal S4096 .i32) (s : Fin 1024) (e : Fin 4096) :
    k0_pay5 (F := Ideal) a0 idb (ix2 s e) = IntOp.cmpi .eq (a0 * 1024#32 + BitVec.ofNat 32 s.val) (idb (ix1 e)) := by
  have h1 := broadcastTo_a1_ab_apply (addi (broadcast S1024x1 (Scalar.muli a0 1024#32)) (iota .tc S1024x1 32 [0] iota_S1024x1_d0_w32))
    broadcasts_S1024x1_S1024x4096 s e
  have h2 := broadcastTo_1b_ab_apply (shapeCast S1x4096 idb shapeCasts_S4096_S1x4096) broadcasts_S1x4096_S1024x4096 s e
  have h3 := shapeCast_a_1a_apply idb shapeCasts_S4096_S1x4096 (0 : Fin 1) e
  have h4 := iota_single_apply .tc S1024x1 32 0 iota_S1024x1_d0_w32 (ix2 s (0 : Fin 1))
  unfold k0_pay5
  show IntOp.cmpi .eq
      (broadcastTo S1024x4096 (addi (broadcast S1024x1 (Scalar.muli a0 1024#32)) (iota .tc S1024x1 32 [0] iota_S1024x1_d0_w32))
        broadcasts_S1024x1_S1024x4096 (ix2 s e))
      (broadcastTo S1024x4096 (shapeCast S1x4096 idb shapeCasts_S4096_S1x4096) broadcasts_S1x4096_S1024x4096 (ix2 s e)) = _
  rw [h1, h2, h3]
  show IntOp.cmpi .eq (IntOp.addi (Scalar.muli a0 1024#32) (iota .tc S1024x1 32 [0] iota_S1024x1_d0_w32 (ix2 s (0 : Fin 1)))) _ = _
  rw [h4]
  rfl

/-- The same entry as a number: `1` when the block's word at row `e` is the segment's, else `0`. -/
theorem memberVal_apply (a0 : BitVec 32) (idb : Vec Ideal S4096 .i32) (s : Fin 1024) (e : Fin 4096) :
    (sitofp .f32 (extui 32 (k0_pay5 (F := Ideal) a0 idb) natLt_1_32) : FVec Ideal S1024x4096 .f32) (ix2 s e)
      = if idb (ix1 e) = a0 * 1024#32 + BitVec.ofNat 32 s.val then (1 : EReal) else 0 := by
  show FloatOps.sitofp (F := Ideal) .f32 ((k0_pay5 (F := Ideal) a0 idb (ix2 s e)).setWidth 32) = _
  rw [member_apply]
  exact eqWord_val _ _

/-- A product with a number that is `1` or `0` keeps or drops the other factor. -/
theorem ite_one_zero_mul (p : Prop) [Decidable p] (x : EReal) : (if p then (1 : EReal) else 0) * x = if p then x else 0 := by
  split
  · exact one_mul x
  · exact zero_mul x

/-! ## An in-range point -/

/-- Accumulator A after an in-range point, at `(s, k)`: what it held plus column `k` of the block summed over the
    block's rows whose word is segment `1024·tile + s`'s. -/
theorem accA_apply (tile : Fin 4) (idb : Vec Ideal S4096 .i32) (xb : Vec Ideal S4096x256 .f32) (old : Vec Ideal S1024x256 .f32)
    (s : Fin 1024) (k : Fin 256) :
    k0_pay7 (F := Ideal) (BitVec.ofNat 32 tile.val) idb xb old (ix2 s k)
      = old (ix2 s k) + ∑ e : Fin 4096, if idb (ix1 e) = BitVec.ofNat 32 (tile.val * 1024 + s.val) then xb (ix2 e k) else 0 := by
  unfold k0_pay7
  refine (congrFun (shapeCast_self _ shapeCasts_S1024x256_S1024x256) (ix2 s k)).trans ?_
  refine congrArg (old (ix2 s k) + ·) ?_
  refine (matmul_rowsCols_apply (k0_pay6 (F := Ideal) (BitVec.ofNat 32 tile.val) idb) (truncf .bf16 xb bitsLt_bf16_f32) s k).trans ?_
  refine Finset.sum_congr rfl fun e _ => ?_
  show (sitofp .f32 (extui 32 (k0_pay5 (F := Ideal) (BitVec.ofNat 32 tile.val) idb) natLt_1_32) : FVec Ideal S1024x4096 .f32) (ix2 s e)
      * xb (ix2 e k) = _
  rw [memberVal_apply, segWord, ite_one_zero_mul]

/-- Accumulator B likewise. -/
theorem accB_apply (tile : Fin 4) (idb : Vec Ideal S4096 .i32) (xb : Vec Ideal S4096x256 .f32) (old : Vec Ideal S1024x256 .f32)
    (s : Fin 1024) (k : Fin 256) :
    k0_pay8 (F := Ideal) (BitVec.ofNat 32 tile.val) idb xb old (ix2 s k)
      = old (ix2 s k) + ∑ e : Fin 4096, if idb (ix1 e) = BitVec.ofNat 32 (tile.val * 1024 + s.val) then xb (ix2 e k) else 0 := by
  unfold k0_pay8
  refine (congrFun (shapeCast_self _ shapeCasts_S1024x256_S1024x256) (ix2 s k)).trans ?_
  refine congrArg (old (ix2 s k) + ·) ?_
  refine (matmul_rowsCols_apply (k0_pay6 (F := Ideal) (BitVec.ofNat 32 tile.val) idb) (truncf .bf16 xb bitsLt_bf16_f32) s k).trans ?_
  refine Finset.sum_congr rfl fun e _ => ?_
  show (sitofp .f32 (extui 32 (k0_pay5 (F := Ideal) (BitVec.ofNat 32 tile.val) idb) natLt_1_32) : FVec Ideal S1024x4096 .f32) (ix2 s e)
      * xb (ix2 e k) = _
  rw [memberVal_apply, segWord, ite_one_zero_mul]

/-- The count after an in-range point, at row `s`: what it held plus the number of the block's rows of that segment. -/
theorem accCount_apply (tile : Fin 4) (idb : Vec Ideal S4096 .i32) (old : Vec Ideal S1024x1 .f32) (s : Fin 1024) :
    k0_pay9 (F := Ideal) (BitVec.ofNat 32 tile.val) idb old (ix2 s (0 : Fin 1))
      = old (ix2 s (0 : Fin 1)) + ∑ e : Fin 4096, if idb (ix1 e) = BitVec.ofNat 32 (tile.val * 1024 + s.val) then (1 : EReal) else 0 := by
  unfold k0_pay9
  refine (congrFun (shapeCast_self _ shapeCasts_S1024x1_S1024x1) (ix2 s (0 : Fin 1))).trans ?_
  refine congrArg (old (ix2 s (0 : Fin 1)) + ·) ?_
  refine (shapeCast_a_a1_apply _ shapeCasts_S1024_S1024x1 s (0 : Fin 1)).trans ?_
  refine (rowSum_apply (sitofp .f32 (extui 32 (k0_pay5 (F := Ideal) (BitVec.ofNat 32 tile.val) idb) natLt_1_32))
    reduces_S1024x4096_S1024 (.inl rfl) rfl s).trans ?_
  refine Finset.sum_congr rfl fun e _ => ?_
  rw [memberVal_apply, segWord]

/-! ## The last point -/

/-- The reciprocal of the count floored at one, at an entry. -/
theorem recip_apply (cnt : FVec Ideal S1024x1 .f32) (j : S1024x1.Idx) :
    divf (broadcast S1024x1 (Scalar.ofBits (F := Ideal) .f32 0x3F800000#32))
        (maximumf cnt (broadcast S1024x1 (Scalar.ofBits (F := Ideal) .f32 0x3F800000#32))) j
      = Ideal.div 1 (max (cnt j) 1) := by
  show Ideal.div (Ideal.ofBits .f32 0x3F800000#32) (max (cnt j) (Ideal.ofBits .f32 0x3F800000#32)) = _
  rw [ofBits_one_f32]

/-- A matrix scaled row by row by a column, at `(s, k)`. -/
theorem scaled_apply (x : FVec Ideal S1024x256 .f32) (c : FVec Ideal S1024x1 .f32) (s : Fin 1024) (k : Fin 256) :
    (truncf .bf16 (mulf x (broadcastTo S1024x256 c broadcasts_S1024x1_S1024x256)) bitsLt_bf16_f32 : FVec Ideal S1024x256 .bf16) (ix2 s k)
      = x (ix2 s k) * c (ix2 s (0 : Fin 1)) := by
  show x (ix2 s k) * broadcastTo S1024x256 c broadcasts_S1024x1_S1024x256 (ix2 s k) = _
  rw [broadcastTo_a1_ab_apply]

/-- The left band of the weight's columns, at `(o, k)`. -/
theorem leftBand_apply (w : FVec Ideal S32x512 .f32) (o : Fin 32) (k : Fin 256) :
    extractStridedSlice S32x256 ![0, 0] (truncf .bf16 w bitsLt_bf16_f32 : FVec Ideal S32x512 .bf16) slices_S32x512_o0_0_S32x256 (ix2 o k)
      = w (ix2 o (Fin.castAdd 256 k)) :=
  slice2_axis1_apply 0 (truncf .bf16 w bitsLt_bf16_f32 : FVec Ideal S32x512 .bf16) slices_S32x512_o0_0_S32x256 o k (Fin.castAdd 256 k)
    (Nat.zero_add _).symm

/-- The right band of the weight's columns, at `(o, k)`. -/
theorem rightBand_apply (w : FVec Ideal S32x512 .f32) (o : Fin 32) (k : Fin 256) :
    extractStridedSlice S32x256 ![0, 256] (truncf .bf16 w bitsLt_bf16_f32 : FVec Ideal S32x512 .bf16) slices_S32x512_o0_256_S32x256 (ix2 o k)
      = w (ix2 o (Fin.natAdd 256 k)) :=
  slice2_axis1_apply 256 (truncf .bf16 w bitsLt_bf16_f32 : FVec Ideal S32x512 .bf16) slices_S32x512_o0_256_S32x256 o k (Fin.natAdd 256 k) rfl

/-- The offset spread over the rows, at `(s, o)`. -/
theorem offset_apply (β : Vec Ideal S32 .f32) (s : Fin 1024) (o : Fin 32) :
    broadcastTo S1024x32 (shapeCast S1x32 β shapeCasts_S32_S1x32) broadcasts_S1x32_S1024x32 (ix2 s o) = β (ix1 o) :=
  (broadcastTo_1b_ab_apply (shapeCast S1x32 β shapeCasts_S32_S1x32) broadcasts_S1x32_S1024x32 s o).trans
    (shapeCast_a_1a_apply β shapeCasts_S32_S1x32 (0 : Fin 1) o)

/-- The last point's output block at `(s, o)`. -/
theorem project_apply (cnt : Vec Ideal S1024x1 .f32) (sa sb : Vec Ideal S1024x256 .f32) (w : Vec Ideal S32x512 .f32)
    (β : Vec Ideal S32 .f32) (s : Fin 1024) (o : Fin 32) :
    k0_pay4 (F := Ideal) cnt sa sb w β (ix2 s o)
      = ((∑ k : Fin 256, (sa (ix2 s k) * Ideal.div 1 (max (cnt (ix2 s (0 : Fin 1))) 1)) * w (ix2 o (Fin.castAdd 256 k)))
          + (∑ k : Fin 256, (sb (ix2 s k) * Ideal.div 1 (max (cnt (ix2 s (0 : Fin 1))) 1)) * w (ix2 o (Fin.natAdd 256 k))))
        + β (ix1 o) := by
  unfold k0_pay4
  refine (addf_apply _ _ (ix2 s o)).trans ?_
  refine congrArg₂ (· + ·) ((addf_apply _ _ (ix2 s o)).trans (congrArg₂ (· + ·) ?_ ?_)) (offset_apply β s o)
  · refine (matmul_rowsRows_apply _ _ s o).trans (Finset.sum_congr rfl fun k _ => ?_)
    rw [scaled_apply, recip_apply, leftBand_apply]
  · refine (matmul_rowsRows_apply _ _ s o).trans (Finset.sum_congr rfl fun k _ => ?_)
    rw [scaled_apply, recip_apply, rightBand_apply]

end Cert.KernelIdeal.BlockValues

end
-- ==== Proof.BlockRange.lean ====
/-
  A block outside a tile's block range holds no row of the tile.
  Block `n` overlaps tile `q` when the block's least word is at most the tile's last segment `1024·q + 1023` and its
  greatest word at least the tile's first segment `1024·q` (signed). The tile's first-block entry is the least
  overlapping block (or 15 when there is none), its last-block entry the greatest (or 0). So a block `n` that is not
  between the two does not overlap the tile; and every word of a block lies between the block's least and greatest,
  so none of them is a segment of the tile.
-/
import proofs.«423303_j78640851190456_3_alg».proof.Proof.Gen.KernelIdeal.Frame.Runs
import proofs.«423303_j78640851190456_3_alg».proof.Proof.TableBounds
import proofs.«423303_j78640851190456_3_alg».proof.Proof.SegmentPool
import Idealize.ShloMosaic.Lib.StableHlo.Run
import Idealize.ShloMosaic.Lib.StableHlo.Predicate

set_option maxRecDepth 16384

noncomputable section

open scoped BigOperators

namespace Cert.KernelIdeal.BlockRange

open Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen
open Cert.KernelIdeal.TableBounds

variable {F : FTy → Type} [FloatOps F]
variable (m : (ℓ : Loc nD τ sig) → Buf (Elt F) ℓ)

/-! ## Reading the stages at one tile and one block -/

/-- The rank-1 index at coordinate p, in either spelling. -/
theorem ofFin_eq_ix1 {n : Nat} (p : Fin n) : Shape.Idx.ofFin p = ix1 p := by
  funext d; match d with | ⟨0, _⟩ => rfl

/-- A per-block vector laid along the tiles reads, at (q, n), the vector at n. -/
theorem perBlock_apply {α : Type} (v : S16.Idx → α) (q : Fin 4) (n : Fin 16) :
    broadcastInDim S4x16 ![0, 1] bcast_S1x16_S4x16_0_1 (broadcastInDim S1x16 ![1] bcast_S16_S1x16_1 v) (ix2 q n) = v (ix1 n) :=
  (StableHlo.Predicate.bcast_cols bcast_S16_S1x16_1 bcast_S1x16_S4x16_0_1 v q n).trans (congrArg v (ofFin_eq_ix1 n))

/-- A per-tile vector laid along the blocks reads, at (q, n), the vector at q. -/
theorem perTile_apply {α : Type} (v : S4.Idx → α) (q : Fin 4) (n : Fin 16) :
    broadcastInDim S4x16 ![0, 1] bcast_S4x1_S4x16_0_1 (broadcastInDim S4x1 ![0] bcast_S4_S4x1_0 v) (ix2 q n) = v (ix1 q) :=
  (StableHlo.Predicate.bcast_rows bcast_S4_S4x1_0 bcast_S4x1_S4x16_0_1 v q n).trans (congrArg v (ofFin_eq_ix1 q))

/-- A signed at-most comparison's bit is set exactly when the signed values compare so. -/
theorem cmpi_sle_iff {w : Nat} (x y : BitVec w) : IntOp.cmpi .sle x y = 1#1 ↔ x.toInt ≤ y.toInt := by
  simp only [IntOp.cmpi, StableHlo.Predicate.ofBool_eq_one_iff, BitVec.sle, decide_eq_true_eq]

/-- Likewise for signed at-least. -/
theorem cmpi_sge_iff {w : Nat} (x y : BitVec w) : IntOp.cmpi .sge x y = 1#1 ↔ y.toInt ≤ x.toInt := by
  simp only [IntOp.cmpi, StableHlo.Predicate.ofBool_eq_one_iff, BitVec.sle, decide_eq_true_eq]

/-- The conjunction of two bits is set exactly when both are. -/
theorem andi_eq_one_iff : ∀ (a b : BitVec 1), IntOp.andi a b = 1#1 ↔ a = 1#1 ∧ b = 1#1 := by decide

/-- A bit widened to a word differs from zero exactly when the bit is set. -/
theorem cmpi_ne_setWidth_iff : ∀ (b : BitVec 1), IntOp.cmpi .ne (b.setWidth 32) 0#32 = 1#1 ↔ b = 1#1 := by decide

/-- Tile q's first segment is 1024 q. -/
theorem toInt_tileFirst (q : Fin 4) : (tileFirst (ix1 q)).toInt = 1024 * (q.val : Int) := by
  show (IntOp.muli (BitVec.ofNat 32 q.val) 1024#32).toInt = _
  revert q; decide

/-- Tile q's last segment is 1024 q + 1023. -/
theorem toInt_tileLast (q : Fin 4) : (tileLast (ix1 q)).toInt = 1024 * (q.val : Int) + 1023 := by
  show (IntOp.addi (IntOp.muli (BitVec.ofNat 32 q.val) 1024#32) 1023#32).toInt = _
  revert q; decide

/-- Word e of block n is segment word 4096 n + e. -/
theorem blockWords_apply (x : S65536.Idx → BitVec 32) (n : Fin 16) (e : Fin 4096) :
    blockWords x (ix2 n e) = x (ix1 ⟨n.val * 4096 + e.val, by omega⟩) :=
  shapeCast_ix2 shapeCasts_S65536_S16x4096 x n e (by omega)

/-- A block's least word is at most each of its words. -/
theorem blockLeast_le (x : S65536.Idx → BitVec 32) (n : Fin 16) (e : Fin 4096) :
    (blockLeast x (ix1 n)).toInt ≤ (x (ix1 ⟨n.val * 4096 + e.val, by omega⟩)).toInt := by
  rw [← blockWords_apply x n e]; exact reduce_minsi_le _ _ _ _ n e

/-- A block's greatest word is at least each of its words. -/
theorem le_blockGreatest (x : S65536.Idx → BitVec 32) (n : Fin 16) (e : Fin 4096) :
    (x (ix1 ⟨n.val * 4096 + e.val, by omega⟩)).toInt ≤ (blockGreatest x (ix1 n)).toInt := by
  rw [← blockWords_apply x n e]; exact le_reduce_maxsi _ _ _ _ n e

/-- Block n overlaps tile q exactly when its least word is at most 1024 q + 1023 and its greatest at least 1024 q. -/
theorem overlaps_iff (x : S65536.Idx → BitVec 32) (q : Fin 4) (n : Fin 16) :
    overlaps x (ix2 q n) = 1#1 ↔ (blockLeast x (ix1 n)).toInt ≤ 1024 * (q.val : Int) + 1023 ∧ 1024 * (q.val : Int) ≤ (blockGreatest x (ix1 n)).toInt := by
  show IntOp.andi (IntOp.cmpi .sle _ _) (IntOp.cmpi .sge _ _) = 1#1 ↔ _
  rw [andi_eq_one_iff, cmpi_sle_iff, cmpi_sge_iff, perBlock_apply, perTile_apply, perBlock_apply, perTile_apply, toInt_tileFirst, toInt_tileLast]

/-- The block number at (q, n) is n. -/
theorem blockNumber_apply (q : Fin 4) (n : Fin 16) : blockNumber (ix2 q n) = BitVec.ofNat 32 n.val := by
  unfold blockNumber; rw [perBlock_apply]; rfl

/-- Where block n overlaps tile q both candidates are n. -/
theorem firstCandidate_of_overlaps (x : S65536.Idx → BitVec 32) (q : Fin 4) (n : Fin 16) (h : overlaps x (ix2 q n) = 1#1) :
    firstCandidate x (ix2 q n) = BitVec.ofNat 32 n.val := by
  show Scalar.select (overlaps x (ix2 q n)) (blockNumber (ix2 q n)) _ = _
  rw [h, blockNumber_apply]; rfl

/-- The same for the last-block candidate. -/
theorem lastCandidate_of_overlaps (x : S65536.Idx → BitVec 32) (q : Fin 4) (n : Fin 16) (h : overlaps x (ix2 q n) = 1#1) :
    lastCandidate x (ix2 q n) = BitVec.ofNat 32 n.val := by
  show Scalar.select (overlaps x (ix2 q n)) (blockNumber (ix2 q n)) _ = _
  rw [h, blockNumber_apply]; rfl

/-- A tile's first-block entry is at most every block that overlaps the tile. -/
theorem firstTable_le_of_overlaps (x : S65536.Idx → BitVec 32) (q : Fin 4) (n : Fin 16) (h : overlaps x (ix2 q n) = 1#1) :
    (firstTable x (ix1 q)).toInt ≤ n.val := by
  show (IntOp.minsi (Host.reduce IntOp.minsi (firstCandidate x) _ _ _ (ix1 q)) _).toInt ≤ _
  rw [toInt_minsi]
  refine le_trans (min_le_left _ _) (le_trans (reduce_minsi_le _ _ _ _ q n) ?_)
  rw [firstCandidate_of_overlaps x q n h, StableHlo.Predicate.toInt_ofNat_small _ (by omega)]

/-- A tile's last-block entry is at least every block that overlaps the tile. -/
theorem le_lastTable_of_overlaps (x : S65536.Idx → BitVec 32) (q : Fin 4) (n : Fin 16) (h : overlaps x (ix2 q n) = 1#1) :
    (n.val : Int) ≤ (lastTable x (ix1 q)).toInt := by
  show _ ≤ (IntOp.maxsi (Host.reduce IntOp.maxsi (lastCandidate x) _ _ _ (ix1 q)) _).toInt
  rw [toInt_maxsi]
  refine le_trans ?_ (le_trans (le_reduce_maxsi _ _ _ _ q n) (le_max_left _ _))
  rw [lastCandidate_of_overlaps x q n h, StableHlo.Predicate.toInt_ofNat_small _ (by omega)]

/-- A block one of whose words is a segment of tile q overlaps tile q. -/
theorem overlaps_of_word (x : S65536.Idx → BitVec 32) (q : Fin 4) (n : Fin 16) (e : Fin 4096) (s : Fin 1024)
    (hw : x (ix1 ⟨n.val * 4096 + e.val, by omega⟩) = BitVec.ofNat 32 (q.val * 1024 + s.val)) : overlaps x (ix2 q n) = 1#1 := by
  rw [overlaps_iff]
  have h1 := blockLeast_le x n e
  have h2 := le_blockGreatest x n e
  rw [hw, StableHlo.Predicate.toInt_ofNat_small _ (by omega)] at h1 h2
  constructor <;> push_cast at h1 h2 ⊢ <;> omega

/-- The body's branch condition says the block coordinate is between the two table words, signed. -/
theorem cond_iff (n : Nat) (hn : n < 16) (v4 v6 : BitVec 32) :
    (Scalar.cmpi .ne (Scalar.extui (Scalar.andi (Scalar.cmpi .sge (BitVec.ofNat 32 n) v4) (Scalar.cmpi .sle (BitVec.ofNat 32 n) v6))) 0#32) = 1#1
      ↔ v4.toInt ≤ n ∧ (n : Int) ≤ v6.toInt := by
  show IntOp.cmpi .ne ((IntOp.andi (IntOp.cmpi .sge (BitVec.ofNat 32 n) v4) (IntOp.cmpi .sle (BitVec.ofNat 32 n) v6)).setWidth 32) 0#32 = 1#1 ↔ _
  rw [cmpi_ne_setWidth_iff, andi_eq_one_iff, cmpi_sge_iff, cmpi_sle_iff, StableHlo.Predicate.toInt_ofNat_small n (by omega)]

/-- A unit rectangle's index at offset k of a [4] table is index k. -/
theorem unit_idx (k : Fin 4) (off : Fin 1 → Nat) (hoff : off 0 = k.val) (inb : ∀ a, off a + S1.size a ≤ S4.size a) (h1 : 0 < S1.numel) :
    (Rect.unit (s := S4) off S1.size inb).idx (Shape.Idx.first h1) = ix1 k := by
  funext a
  apply Fin.ext
  match a with
  | ⟨0, _⟩ =>
    show off 0 + 1 * (Shape.Idx.first h1 (0 : Fin 1)).val = k.val
    have : (Shape.Idx.first h1 (0 : Fin 1)).val = 0 := rfl
    rw [this, hoff]; omega

/-- The tile coordinate as an index of the tables. -/
abbrev tileOf (i : grid0.Coords) : Fin 4 := ⟨(i 0).val, (i 0).isLt⟩
/-- The block coordinate as a block number. -/
abbrev blockOf (i : grid0.Coords) : Fin 16 := ⟨(i 1).val, (i 1).isLt⟩

/-- The word the body reads through the first-block table at grid coordinates i is the table's entry for tile i₀. -/
theorem read_first (pf : S4.Idx → BitVec 32) (i : grid0.Coords) :
    tbM0_0.view.readAt (Elt F) (Rect.unit (s := S4) (k0_off1 i) S1.size (k0_off1_inb i)).toLoadRect pf (Shape.Idx.first (numel1_S1.symm ▸ Nat.one_pos))
      = pf (ix1 (tileOf i)) :=
  congrArg pf (unit_idx (tileOf i) _ (by rw [k0_off1_eq i]; rfl) _ _)

/-- The same through the last-block table. -/
theorem read_last (pf : S4.Idx → BitVec 32) (i : grid0.Coords) :
    tbM0_1.view.readAt (Elt F) (Rect.unit (s := S4) (k0_off1 i) S1.size (k0_off1_inb i)).toLoadRect pf (Shape.Idx.first (numel1_S1.symm ▸ Nat.one_pos))
      = pf (ix1 (tileOf i)) :=
  congrArg pf (unit_idx (tileOf i) _ (by rw [k0_off1_eq i]; rfl) _ _)

/-- The tile's first-block word, as the body reads it at grid coordinates `i`. -/
abbrev firstBlock (i : grid0.Coords) : BitVec 32 :=
  tbM0_0.view.readAt (Elt F) (Rect.unit (s := S4) (k0_off1 i) S1.size (k0_off1_inb i)).toLoadRect (tbl m 0) (Shape.Idx.first (numel1_S1.symm ▸ Nat.one_pos))

/-- The tile's last-block word, as the body reads it at grid coordinates `i`. -/
abbrev lastBlock (i : grid0.Coords) : BitVec 32 :=
  tbM0_1.view.readAt (Elt F) (Rect.unit (s := S4) (k0_off1 i) S1.size (k0_off1_inb i)).toLoadRect (tbl m 1) (Shape.Idx.first (numel1_S1.symm ▸ Nat.one_pos))

/-- The first-block word the body reads is the first-block table's entry for the point's tile. -/
theorem firstBlock_eq (i : grid0.Coords) : firstBlock m i = firstTable (ids m) (ix1 (tileOf i)) := by
  unfold firstBlock
  rw [tbl_first]
  exact read_first (F := F) _ i

/-- The last-block word the body reads is the last-block table's entry for the point's tile. -/
theorem lastBlock_eq (i : grid0.Coords) : lastBlock m i = lastTable (ids m) (ix1 (tileOf i)) := by
  unfold lastBlock
  rw [tbl_last]
  exact read_last (F := F) _ i

/-- At a point whose block coordinate is not between the tile's first and last block, no row of the block carries the
    word of a segment of the tile. -/
theorem no_row (c : Dev nD) (i : grid0.Coords) (h : ¬cond0_1 i (firstBlock m i) (lastBlock m i)) (s : Fin 1024) (e : Fin 4096) :
    (m ((c.tc : Thread nD τ).loc main_arg2) : S65536.Idx → BitVec 32)
        (ix1 (⟨(i 1).val * 4096 + e.val, by have := (i 1).isLt; have := e.isLt; (try simp at *); omega⟩ : Fin 65536))
      ≠ BitVec.ofNat 32 ((i 0).val * 1024 + s.val) := by
  obtain rfl : c = 0 := Subsingleton.elim _ _
  intro hw
  apply h
  have ho : overlaps (ids m) (ix2 (tileOf i) (blockOf i)) = 1#1 := overlaps_of_word (ids m) (tileOf i) (blockOf i) e s hw
  rw [firstBlock_eq, lastBlock_eq]
  exact (cond_iff (i 1).val (i 1).isLt _ _).2 ⟨firstTable_le_of_overlaps _ _ _ ho, le_lastTable_of_overlaps _ _ _ ho⟩

/-- At a point whose block coordinate is between the two, the table-indexed block is the point's own. -/
theorem own_block (i : grid0.Coords) (h : cond0_1 i (firstBlock m i) (lastBlock m i)) :
    (Scalar.minsi (Scalar.maxsi (BitVec.ofNat 32 (i 1).val) (firstBlock m i)) (lastBlock m i)).toNat = (i 1).val := by
  have hn : (i 1).val < 16 := (i 1).isLt
  obtain ⟨h1, h2⟩ := (cond_iff (i 1).val hn _ _).1 h
  generalize firstBlock m i = a at h1 ⊢
  generalize lastBlock m i = b at h2 ⊢
  show (IntOp.minsi (IntOp.maxsi (BitVec.ofNat 32 (i 1).val) a) b).toNat = _
  have hn' : (BitVec.ofNat 32 (i 1).val).toInt = (i 1).val := StableHlo.Predicate.toInt_ofNat_small _ (by omega)
  have e : (IntOp.minsi (IntOp.maxsi (BitVec.ofNat 32 (i 1).val) a) b).toInt = (i 1).val := by
    rw [toInt_minsi, toInt_maxsi, hn']; omega
  have := toNat_eq_toInt_of_nonneg _ (by rw [e]; omega)
  omega

end Cert.KernelIdeal.BlockRange

end
-- ==== Proof.BlockReads.lean ====
/-
  What a grid point's input blocks are, read off the argument arrays.
  At a point whose block coordinate `n` lies between its tile's first and last block the table-indexed block is block
  `n` itself: row `e` of the two row blocks is row `4096·n + e` of the two row arrays, word `e` of the word block is word
  `4096·n + e`. The weight and the offset are one block each: the whole arrays, at every point. No host operation
  before the region writes an argument array, so the region finds them as launched.
-/
import proofs.«423303_j78640851190456_3_alg».proof.Proof.Gen.KernelIdeal.Frame.Runs
import proofs.«423303_j78640851190456_3_alg».proof.Proof.BlockRange
import proofs.«423303_j78640851190456_3_alg».proof.Proof.SegmentPool
import Idealize.ShloMosaic.Lib.Pipeline.Value
import Idealize.ShloMosaic.Lib.ValueIdx

set_option maxRecDepth 16384

noncomputable section

open scoped BigOperators

namespace Cert.KernelIdeal.BlockReads

open Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen Cert.KernelIdeal.BlockRange

variable {F : FTy → Type} [FloatOps F]
variable (m : (ℓ : Loc nD τ sig) → Buf (Elt F) ℓ)

/-- The point's blocks at their literal types. -/
abbrev rowsA (hO : Ok m) (c : Dev nD) (t : Fin (cfgM m hO).N) : Vec F S4096x256 .f32 := iblk m hO c 0 t
abbrev rowsB (hO : Ok m) (c : Dev nD) (t : Fin (cfgM m hO).N) : Vec F S4096x256 .f32 := iblk m hO c 1 t
abbrev words (hO : Ok m) (c : Dev nD) (t : Fin (cfgM m hO).N) : Vec F S4096 .i32 := iblk m hO c 2 t
abbrev weight (hO : Ok m) (c : Dev nD) (t : Fin (cfgM m hO).N) : Vec F S32x512 .f32 := iblk m hO c 3 t
abbrev offset (hO : Ok m) (c : Dev nD) (t : Fin (cfgM m hO).N) : Vec F S32 .f32 := iblk m hO c 4 t

/-! ## Where a block's entry sits in its array

  With the tables' contents a variable: the entry `y` of the block at a point sits in the array, on each axis, at the
  block index times the block's extent plus `y`'s coordinate. The three table-indexed windows move along the first
  axis only; the weight's and the offset's block index is zero on every axis. -/

/-- A point's block coordinate `n ≤ 15` and a row `e` of a block give a row of the array. -/
theorem row_lt (i : grid0.Coords) (e : Fin 4096) : (i 1).val * 4096 + e.val < 65536 := by
  have h1 : (i 1).val < 16 := (i 1).isLt
  have := e.isLt
  omega

/-- Row block of the first row array: entry `(e, k)` is the array's entry `(index · 4096 + e, k)`. -/
theorem read_rows0 (a : (pcfg0 (F := F)).Adm) (c : Dev nD) (t : Fin (cfg0 a).N) (pf : pre0.Contents (Elt F)) (hpf : a.1 = pf)
    (A : Buf (Elt F) ((c : Thread nD τ).loc main_arg0)) (e : Fin 4096) (k : Fin 256) (r : Fin 65536)
    (hr : r.val = cc0_transform_0 k0_off1_inb numel1_S1 pf (grid0.coords t) 0 * 4096 + e.val) :
    ((((cfg0 a).win 0).blk t).view.read (Elt F) A : Vec F S4096x256 .f32) (ix2 e k) = (A : Vec F S65536x256 .f32) (ix2 r k) := by
  subst hpf
  show (A : Vec F S65536x256 .f32) ((((cfg0 a).win 0).blk t).view.emb (ix2 e k)) = (A : Vec F S65536x256 .f32) (ix2 r k)
  refine congrArg (A : Vec F S65536x256 .f32) ?_
  funext ax
  apply Fin.ext
  match ax with
  | ⟨0, _⟩ => show cc0_transform_0 k0_off1_inb numel1_S1 a.1 (grid0.coords t) 0 * 4096 + 1 * e.val = r.val; omega
  | ⟨1, _⟩ => show 0 * 256 + 1 * k.val = k.val; omega

/-- Row block of the second row array, likewise. -/
theorem read_rows1 (a : (pcfg0 (F := F)).Adm) (c : Dev nD) (t : Fin (cfg0 a).N) (pf : pre0.Contents (Elt F)) (hpf : a.1 = pf)
    (A : Buf (Elt F) ((c : Thread nD τ).loc main_arg1)) (e : Fin 4096) (k : Fin 256) (r : Fin 65536)
    (hr : r.val = cc0_transform_1 k0_off1_inb numel1_S1 pf (grid0.coords t) 0 * 4096 + e.val) :
    ((((cfg0 a).win 1).blk t).view.read (Elt F) A : Vec F S4096x256 .f32) (ix2 e k) = (A : Vec F S65536x256 .f32) (ix2 r k) := by
  subst hpf
  show (A : Vec F S65536x256 .f32) ((((cfg0 a).win 1).blk t).view.emb (ix2 e k)) = (A : Vec F S65536x256 .f32) (ix2 r k)
  refine congrArg (A : Vec F S65536x256 .f32) ?_
  funext ax
  apply Fin.ext
  match ax with
  | ⟨0, _⟩ => show cc0_transform_1 k0_off1_inb numel1_S1 a.1 (grid0.coords t) 0 * 4096 + 1 * e.val = r.val; omega
  | ⟨1, _⟩ => show 0 * 256 + 1 * k.val = k.val; omega

/-- Word block: entry `e` is the word array's entry `index · 4096 + e`. -/
theorem read_words2 (a : (pcfg0 (F := F)).Adm) (c : Dev nD) (t : Fin (cfg0 a).N) (pf : pre0.Contents (Elt F)) (hpf : a.1 = pf)
    (A : Buf (Elt F) ((c : Thread nD τ).loc main_arg2)) (e : Fin 4096) (r : Fin 65536)
    (hr : r.val = cc0_transform_2 k0_off1_inb numel1_S1 pf (grid0.coords t) 0 * 4096 + e.val) :
    ((((cfg0 a).win 2).blk t).view.read (Elt F) A : Vec F S4096 .i32) (ix1 e) = (A : Vec F S65536 .i32) (ix1 r) := by
  subst hpf
  show (A : Vec F S65536 .i32) ((((cfg0 a).win 2).blk t).view.emb (ix1 e)) = (A : Vec F S65536 .i32) (ix1 r)
  refine congrArg (A : Vec F S65536 .i32) ?_
  funext ax
  apply Fin.ext
  match ax with
  | ⟨0, _⟩ => show cc0_transform_2 k0_off1_inb numel1_S1 a.1 (grid0.coords t) 0 * 4096 + 1 * e.val = r.val; omega

/-- The weight's one block is the whole array. -/
theorem read_whole3_apply (a : (pcfg0 (F := F)).Adm) (c : Dev nD) (t : Fin (cfg0 a).N)
    (A : Buf (Elt F) ((c : Thread nD τ).loc main_arg3)) (y : S32x512.Idx) :
    ((((cfg0 a).win 3).blk t).view.read (Elt F) A : Vec F S32x512 .f32) y = (A : Vec F S32x512 .f32) y := by
  show (A : Vec F S32x512 .f32) ((((cfg0 a).win 3).blk t).view.emb y) = (A : Vec F S32x512 .f32) y
  refine congrArg (A : Vec F S32x512 .f32) ?_
  funext ax
  apply Fin.ext
  match ax with
  | ⟨0, _⟩ => show 0 * 32 + 1 * (y 0).val = (y 0).val; omega
  | ⟨1, _⟩ => show 0 * 512 + 1 * (y 1).val = (y 1).val; omega

/-- The offset's one block is the whole array. -/
theorem read_whole4_apply (a : (pcfg0 (F := F)).Adm) (c : Dev nD) (t : Fin (cfg0 a).N)
    (A : Buf (Elt F) ((c : Thread nD τ).loc main_arg4)) (y : S32.Idx) :
    ((((cfg0 a).win 4).blk t).view.read (Elt F) A : Vec F S32 .f32) y = (A : Vec F S32 .f32) y := by
  show (A : Vec F S32 .f32) ((((cfg0 a).win 4).blk t).view.emb y) = (A : Vec F S32 .f32) y
  refine congrArg (A : Vec F S32 .f32) ?_
  funext ax
  apply Fin.ext
  match ax with
  | ⟨0, _⟩ => show 0 * 32 + 1 * (y 0).val = (y 0).val; omega

/-! ## The table-indexed block index

  With the tables' contents a variable `pf`: the three index maps' first coordinate is the point's block coordinate
  clamped between the tile's two table words, each word read as the body reads it. So wherever that clamp is known to be
  `n`, the block index is `n`. -/

theorem transform0_of_clamp (pf : pre0.Contents (Elt F)) (i : grid0.Coords) (n : ℕ)
    (h : (Scalar.minsi (Scalar.maxsi (BitVec.ofNat 32 (i 1).val)
          (tbM0_0.view.readAt (Elt F) (Rect.unit (s := S4) (k0_off1 i) S1.size (k0_off1_inb i)).toLoadRect (pf 0)
            (Shape.Idx.first (numel1_S1.symm ▸ Nat.one_pos))))
          (tbM0_1.view.readAt (Elt F) (Rect.unit (s := S4) (k0_off1 i) S1.size (k0_off1_inb i)).toLoadRect (pf 1)
            (Shape.Idx.first (numel1_S1.symm ▸ Nat.one_pos)))).toNat = n) :
    cc0_transform_0 k0_off1_inb numel1_S1 pf i 0 = n := h

theorem transform1_of_clamp (pf : pre0.Contents (Elt F)) (i : grid0.Coords) (n : ℕ)
    (h : (Scalar.minsi (Scalar.maxsi (BitVec.ofNat 32 (i 1).val)
          (tbM0_0.view.readAt (Elt F) (Rect.unit (s := S4) (k0_off1 i) S1.size (k0_off1_inb i)).toLoadRect (pf 0)
            (Shape.Idx.first (numel1_S1.symm ▸ Nat.one_pos))))
          (tbM0_1.view.readAt (Elt F) (Rect.unit (s := S4) (k0_off1 i) S1.size (k0_off1_inb i)).toLoadRect (pf 1)
            (Shape.Idx.first (numel1_S1.symm ▸ Nat.one_pos)))).toNat = n) :
    cc0_transform_1 k0_off1_inb numel1_S1 pf i 0 = n := h

theorem transform2_of_clamp (pf : pre0.Contents (Elt F)) (i : grid0.Coords) (n : ℕ)
    (h : (Scalar.minsi (Scalar.maxsi (BitVec.ofNat 32 (i 1).val)
          (tbM0_0.view.readAt (Elt F) (Rect.unit (s := S4) (k0_off1 i) S1.size (k0_off1_inb i)).toLoadRect (pf 0)
            (Shape.Idx.first (numel1_S1.symm ▸ Nat.one_pos))))
          (tbM0_1.view.readAt (Elt F) (Rect.unit (s := S4) (k0_off1 i) S1.size (k0_off1_inb i)).toLoadRect (pf 1)
            (Shape.Idx.first (numel1_S1.symm ▸ Nat.one_pos)))).toNat = n) :
    cc0_transform_2 k0_off1_inb numel1_S1 pf i 0 = n := h

/-! ## The blocks of a point -/

theorem rowsA_apply (hO : Ok m) (c : Dev nD) (t : Fin (cfgM m hO).N) (h : cond0_1 (grid0.coords t) (firstBlock m (grid0.coords t)) (lastBlock m (grid0.coords t))) (e : Fin 4096) (k : Fin 256) :
    rowsA m hO c t (ix2 e k)
      = (m ((c.tc : Thread nD τ).loc main_arg0) : Vec F S65536x256 .f32) (ix2 (⟨(grid0.coords t 1).val * 4096 + e.val, by have := (grid0.coords t 1).isLt; have := e.isLt; (try simp at *); omega⟩ : Fin 65536) k) := by
  have hb : cc0_transform_0 k0_off1_inb numel1_S1 (tbl m) (grid0.coords t) 0 = (grid0.coords t 1).val :=
    transform0_of_clamp (tbl m) (grid0.coords t) _ (own_block m (grid0.coords t) h)
  have hr : (⟨(grid0.coords t 1).val * 4096 + e.val, row_lt (grid0.coords t) e⟩ : Fin 65536).val
      = cc0_transform_0 k0_off1_inb numel1_S1 (tbl m) (grid0.coords t) 0 * 4096 + e.val := by rw [hb]
  unfold rowsA iblk
  exact (read_rows0 (adm m hO) c t (tbl m) rfl (V m c (Pipeline.arrRef spec0 0)) e k _ hr).trans
    (congrFun (V_main_arg0 m c) _)

theorem rowsB_apply (hO : Ok m) (c : Dev nD) (t : Fin (cfgM m hO).N) (h : cond0_1 (grid0.coords t) (firstBlock m (grid0.coords t)) (lastBlock m (grid0.coords t))) (e : Fin 4096) (k : Fin 256) :
    rowsB m hO c t (ix2 e k)
      = (m ((c.tc : Thread nD τ).loc main_arg1) : Vec F S65536x256 .f32) (ix2 (⟨(grid0.coords t 1).val * 4096 + e.val, by have := (grid0.coords t 1).isLt; have := e.isLt; (try simp at *); omega⟩ : Fin 65536) k) := by
  have hb : cc0_transform_1 k0_off1_inb numel1_S1 (tbl m) (grid0.coords t) 0 = (grid0.coords t 1).val :=
    transform1_of_clamp (tbl m) (grid0.coords t) _ (own_block m (grid0.coords t) h)
  have hr : (⟨(grid0.coords t 1).val * 4096 + e.val, row_lt (grid0.coords t) e⟩ : Fin 65536).val
      = cc0_transform_1 k0_off1_inb numel1_S1 (tbl m) (grid0.coords t) 0 * 4096 + e.val := by rw [hb]
  unfold rowsB iblk
  exact (read_rows1 (adm m hO) c t (tbl m) rfl (V m c (Pipeline.arrRef spec0 1)) e k _ hr).trans
    (congrFun (V_main_arg1 m c) _)

theorem words_apply (hO : Ok m) (c : Dev nD) (t : Fin (cfgM m hO).N) (h : cond0_1 (grid0.coords t) (firstBlock m (grid0.coords t)) (lastBlock m (grid0.coords t))) (e : Fin 4096) :
    words m hO c t (ix1 e)
      = (m ((c.tc : Thread nD τ).loc main_arg2) : Vec F S65536 .i32) (ix1 (⟨(grid0.coords t 1).val * 4096 + e.val, by have := (grid0.coords t 1).isLt; have := e.isLt; (try simp at *); omega⟩ : Fin 65536)) := by
  have hb : cc0_transform_2 k0_off1_inb numel1_S1 (tbl m) (grid0.coords t) 0 = (grid0.coords t 1).val :=
    transform2_of_clamp (tbl m) (grid0.coords t) _ (own_block m (grid0.coords t) h)
  have hr : (⟨(grid0.coords t 1).val * 4096 + e.val, row_lt (grid0.coords t) e⟩ : Fin 65536).val
      = cc0_transform_2 k0_off1_inb numel1_S1 (tbl m) (grid0.coords t) 0 * 4096 + e.val := by rw [hb]
  unfold words iblk
  exact (read_words2 (adm m hO) c t (tbl m) rfl (V m c (Pipeline.arrRef spec0 2)) e _ hr).trans
    (congrFun (V_main_arg2 m c) _)

theorem weight_eq (hO : Ok m) (c : Dev nD) (t : Fin (cfgM m hO).N) :
    weight m hO c t = (m ((c.tc : Thread nD τ).loc main_arg3) : Vec F S32x512 .f32) := by
  funext y
  unfold weight iblk
  exact (read_whole3_apply (adm m hO) c t (V m c (Pipeline.arrRef spec0 3)) y).trans (congrFun (V_main_arg3 m c) y)

theorem offset_eq (hO : Ok m) (c : Dev nD) (t : Fin (cfgM m hO).N) :
    offset m hO c t = (m ((c.tc : Thread nD τ).loc main_arg4) : Vec F S32 .f32) := by
  funext y
  unfold offset iblk
  exact (read_whole4_apply (adm m hO) c t (V m c (Pipeline.arrRef spec0 4)) y).trans (congrFun (V_main_arg4 m c) y)

end Cert.KernelIdeal.BlockReads

end
-- ==== Proof.CarriedSums.lean ====
/-
  What the three carried accumulators hold after each grid point, and the block the last point of a tile writes back.
  The 64 points run tile by tile, sixteen block positions each. After the point at block position `n` of tile `q`,
  accumulator A holds at `(s, k)` the sum of column `k` of the first row array over the rows of segment `1024·q + s`
  in blocks `0 … n`, accumulator B the same of the second row array, the count their number: the tile's first point
  starts from zero; a point between the tile's first and last block adds its block's share; a point outside adds
  nothing, and its block holds no row of the tile, so its share is zero. After position 15 these are the whole
  segment sums and count, and the block the point stores is the pooled projection's rows `1024·q … 1024·q + 1023`.
-/
import proofs.«423303_j78640851190456_3_alg».proof.Proof.FrameKernelIdeal
import proofs.«423303_j78640851190456_3_alg».proof.Proof.ScratchPieces
import proofs.«423303_j78640851190456_3_alg».proof.Proof.BlockValues
import proofs.«423303_j78640851190456_3_alg».proof.Proof.BlockReads
import proofs.«423303_j78640851190456_3_alg».proof.Proof.BlockRange
import proofs.«423303_j78640851190456_3_alg».proof.Proof.SegmentPool

set_option maxRecDepth 16384

noncomputable section

open scoped BigOperators

namespace Cert.KernelIdeal.Carried

open Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen Cert.KernelIdeal.GenP Cert.SegmentPool
open Cert.KernelIdeal.Pieces Cert.KernelIdeal.BlockValues Cert.KernelIdeal.BlockRange
open Cert.KernelIdeal.BlockReads (rowsA rowsB words weight offset rowsA_apply rowsB_apply words_apply weight_eq offset_eq)

variable (m : (ℓ : Loc nD τ sig) → Buf (Elt Ideal) ℓ)

/-- The argument arrays as launched, at the specification's types. -/
abbrev argA (c : Dev nD) : Rows := m ((c.tc : Thread nD τ).loc main_arg0)
abbrev argB (c : Dev nD) : Rows := m ((c.tc : Thread nD τ).loc main_arg1)
abbrev argIds (c : Dev nD) : Ids := m ((c.tc : Thread nD τ).loc main_arg2)
abbrev argW (c : Dev nD) : Weights := m ((c.tc : Thread nD τ).loc main_arg3)
abbrev argβ (c : Dev nD) : Offsets := m ((c.tc : Thread nD τ).loc main_arg4)

/-- Row `s` of the tile that position `n` belongs to, as a segment. -/
abbrev segOf (n : ℕ) (hn : n < 64) (s : Fin 1024) : Fin 4096 := ⟨n / 16 * 1024 + s.val, by have := s.isLt; omega⟩

variable (hO : Ok m) (c : Dev nD)

/-- The point's block coordinate lies between its tile's first and last block. -/
abbrev between (t : Fin (cfgM m hO).N) : Prop :=
  cond0_1 (grid0.coords t) (firstBlock m (grid0.coords t)) (lastBlock m (grid0.coords t))

/-- Position `t` is block `t mod 16` of tile `t / 16`. -/
theorem coords_tile : ∀ t : Fin (cfgM m hO).N, (grid0.coords t 0).val = t.val / 16 :=
  (by decide +kernel : ∀ t : Fin grid0.N, (grid0.coords t 0).val = t.val / 16)
theorem coords_block : ∀ t : Fin (cfgM m hO).N, (grid0.coords t 1).val = t.val % 16 :=
  (by decide +kernel : ∀ t : Fin grid0.N, (grid0.coords t 1).val = t.val % 16)

/-! ## What each kind of point leaves, at the point's own blocks -/

theorem atA_A (t : Fin (cfgM m hO).N) (h0 : t.val % 16 = 0) (h1 : between m hO t) (h2 : ¬t.val % 16 = 15) :
    (outsAt0 m hO c t.val t.isLt).2.1 = k0_pay7 (BitVec.ofNat 32 (grid0.coords t 0).val) (words m hO c t) (rowsA m hO c t) (k0_pay1 (F := Ideal)) := by
  conv_lhs => rw [outsAt0_A m hO c t h0 h1 h2]
  dsimp only
  exact first_in_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

theorem atA_B (t : Fin (cfgM m hO).N) (h0 : t.val % 16 = 0) (h1 : between m hO t) (h2 : ¬t.val % 16 = 15) :
    (outsAt0 m hO c t.val t.isLt).2.2.1 = k0_pay8 (BitVec.ofNat 32 (grid0.coords t 0).val) (words m hO c t) (rowsB m hO c t) (k0_pay2 (F := Ideal)) := by
  conv_lhs => rw [outsAt0_A m hO c t h0 h1 h2]
  dsimp only
  exact first_in_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

theorem atA_count (t : Fin (cfgM m hO).N) (h0 : t.val % 16 = 0) (h1 : between m hO t) (h2 : ¬t.val % 16 = 15) :
    (outsAt0 m hO c t.val t.isLt).2.2.2 = k0_pay9 (BitVec.ofNat 32 (grid0.coords t 0).val) (words m hO c t) (k0_pay3 (F := Ideal)) := by
  conv_lhs => rw [outsAt0_A m hO c t h0 h1 h2]
  dsimp only
  exact first_in_count (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

theorem atB_A (t : Fin (cfgM m hO).N) (h0 : t.val % 16 = 0) (h1 : ¬between m hO t) (h2 : ¬t.val % 16 = 15) :
    (outsAt0 m hO c t.val t.isLt).2.1 = (k0_pay1 (F := Ideal)) := by
  conv_lhs => rw [outsAt0_B m hO c t h0 h1 h2]
  dsimp only
  exact first_out_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

theorem atB_B (t : Fin (cfgM m hO).N) (h0 : t.val % 16 = 0) (h1 : ¬between m hO t) (h2 : ¬t.val % 16 = 15) :
    (outsAt0 m hO c t.val t.isLt).2.2.1 = (k0_pay2 (F := Ideal)) := by
  conv_lhs => rw [outsAt0_B m hO c t h0 h1 h2]
  dsimp only
  exact first_out_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

theorem atB_count (t : Fin (cfgM m hO).N) (h0 : t.val % 16 = 0) (h1 : ¬between m hO t) (h2 : ¬t.val % 16 = 15) :
    (outsAt0 m hO c t.val t.isLt).2.2.2 = (k0_pay3 (F := Ideal)) := by
  conv_lhs => rw [outsAt0_B m hO c t h0 h1 h2]
  dsimp only
  exact first_out_count (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) ((hcond0_0 t).mpr h0) (fun h => h2 ((hcond0_2 t).mp h)) h1

theorem atC_A (t : Fin (cfgM m hO).N) (h0 : ¬t.val % 16 = 0) (h1 : between m hO t) (h2 : ¬t.val % 16 = 15) :
    (outsAt0 m hO c t.val t.isLt).2.1 = k0_pay7 (BitVec.ofNat 32 (grid0.coords t 0).val) (words m hO c t) (rowsA m hO c t) (outsAt0 m hO c (t.val - 1) (Nat.lt_of_le_of_lt (Nat.sub_le _ _) t.isLt)).2.1 := by
  conv_lhs => rw [outsAt0_C m hO c t h0 h1 h2]
  dsimp only
  exact mid_in_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1

theorem atC_B (t : Fin (cfgM m hO).N) (h0 : ¬t.val % 16 = 0) (h1 : between m hO t) (h2 : ¬t.val % 16 = 15) :
    (outsAt0 m hO c t.val t.isLt).2.2.1 = k0_pay8 (BitVec.ofNat 32 (grid0.coords t 0).val) (words m hO c t) (rowsB m hO c t) (outsAt0 m hO c (t.val - 1) (Nat.lt_of_le_of_lt (Nat.sub_le _ _) t.isLt)).2.2.1 := by
  conv_lhs => rw [outsAt0_C m hO c t h0 h1 h2]
  dsimp only
  exact mid_in_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1

theorem atC_count (t : Fin (cfgM m hO).N) (h0 : ¬t.val % 16 = 0) (h1 : between m hO t) (h2 : ¬t.val % 16 = 15) :
    (outsAt0 m hO c t.val t.isLt).2.2.2 = k0_pay9 (BitVec.ofNat 32 (grid0.coords t 0).val) (words m hO c t) (outsAt0 m hO c (t.val - 1) (Nat.lt_of_le_of_lt (Nat.sub_le _ _) t.isLt)).2.2.2 := by
  conv_lhs => rw [outsAt0_C m hO c t h0 h1 h2]
  dsimp only
  exact mid_in_count (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1

theorem atD_A (t : Fin (cfgM m hO).N) (h0 : ¬t.val % 16 = 0) (h1 : ¬between m hO t) (h2 : ¬t.val % 16 = 15) :
    (outsAt0 m hO c t.val t.isLt).2.1 = (outsAt0 m hO c (t.val - 1) (Nat.lt_of_le_of_lt (Nat.sub_le _ _) t.isLt)).2.1 := by
  conv_lhs => rw [outsAt0_D m hO c t h0 h1 h2]
  dsimp only
  exact mid_out_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1

theorem atD_B (t : Fin (cfgM m hO).N) (h0 : ¬t.val % 16 = 0) (h1 : ¬between m hO t) (h2 : ¬t.val % 16 = 15) :
    (outsAt0 m hO c t.val t.isLt).2.2.1 = (outsAt0 m hO c (t.val - 1) (Nat.lt_of_le_of_lt (Nat.sub_le _ _) t.isLt)).2.2.1 := by
  conv_lhs => rw [outsAt0_D m hO c t h0 h1 h2]
  dsimp only
  exact mid_out_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1

theorem atD_count (t : Fin (cfgM m hO).N) (h0 : ¬t.val % 16 = 0) (h1 : ¬between m hO t) (h2 : ¬t.val % 16 = 15) :
    (outsAt0 m hO c t.val t.isLt).2.2.2 = (outsAt0 m hO c (t.val - 1) (Nat.lt_of_le_of_lt (Nat.sub_le _ _) t.isLt)).2.2.2 := by
  conv_lhs => rw [outsAt0_D m hO c t h0 h1 h2]
  dsimp only
  exact mid_out_count (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h2 ((hcond0_2 t).mp h)) h1

theorem atE_A (t : Fin (cfgM m hO).N) (h0 : ¬t.val % 16 = 0) (h1 : between m hO t) (h2 : t.val % 16 = 15) :
    (outsAt0 m hO c t.val t.isLt).2.1 = k0_pay7 (BitVec.ofNat 32 (grid0.coords t 0).val) (words m hO c t) (rowsA m hO c t) (outsAt0 m hO c (t.val - 1) (Nat.lt_of_le_of_lt (Nat.sub_le _ _) t.isLt)).2.1 := by
  conv_lhs => rw [outsAt0_E m hO c t h0 h1 h2]
  dsimp only
  exact last_in_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

theorem atE_B (t : Fin (cfgM m hO).N) (h0 : ¬t.val % 16 = 0) (h1 : between m hO t) (h2 : t.val % 16 = 15) :
    (outsAt0 m hO c t.val t.isLt).2.2.1 = k0_pay8 (BitVec.ofNat 32 (grid0.coords t 0).val) (words m hO c t) (rowsB m hO c t) (outsAt0 m hO c (t.val - 1) (Nat.lt_of_le_of_lt (Nat.sub_le _ _) t.isLt)).2.2.1 := by
  conv_lhs => rw [outsAt0_E m hO c t h0 h1 h2]
  dsimp only
  exact last_in_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

theorem atE_count (t : Fin (cfgM m hO).N) (h0 : ¬t.val % 16 = 0) (h1 : between m hO t) (h2 : t.val % 16 = 15) :
    (outsAt0 m hO c t.val t.isLt).2.2.2 = k0_pay9 (BitVec.ofNat 32 (grid0.coords t 0).val) (words m hO c t) (outsAt0 m hO c (t.val - 1) (Nat.lt_of_le_of_lt (Nat.sub_le _ _) t.isLt)).2.2.2 := by
  conv_lhs => rw [outsAt0_E m hO c t h0 h1 h2]
  dsimp only
  exact last_in_count (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

theorem atF_A (t : Fin (cfgM m hO).N) (h0 : ¬t.val % 16 = 0) (h1 : ¬between m hO t) (h2 : t.val % 16 = 15) :
    (outsAt0 m hO c t.val t.isLt).2.1 = (outsAt0 m hO c (t.val - 1) (Nat.lt_of_le_of_lt (Nat.sub_le _ _) t.isLt)).2.1 := by
  conv_lhs => rw [outsAt0_F m hO c t h0 h1 h2]
  dsimp only
  exact last_out_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

theorem atF_B (t : Fin (cfgM m hO).N) (h0 : ¬t.val % 16 = 0) (h1 : ¬between m hO t) (h2 : t.val % 16 = 15) :
    (outsAt0 m hO c t.val t.isLt).2.2.1 = (outsAt0 m hO c (t.val - 1) (Nat.lt_of_le_of_lt (Nat.sub_le _ _) t.isLt)).2.2.1 := by
  conv_lhs => rw [outsAt0_F m hO c t h0 h1 h2]
  dsimp only
  exact last_out_B (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

theorem atF_count (t : Fin (cfgM m hO).N) (h0 : ¬t.val % 16 = 0) (h1 : ¬between m hO t) (h2 : t.val % 16 = 15) :
    (outsAt0 m hO c t.val t.isLt).2.2.2 = (outsAt0 m hO c (t.val - 1) (Nat.lt_of_le_of_lt (Nat.sub_le _ _) t.isLt)).2.2.2 := by
  conv_lhs => rw [outsAt0_F m hO c t h0 h1 h2]
  dsimp only
  exact last_out_count (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

theorem atE_block (t : Fin (cfgM m hO).N) (h0 : ¬t.val % 16 = 0) (h1 : between m hO t) (h2 : t.val % 16 = 15) :
    (outsAt0 m hO c t.val t.isLt).1 = k0_pay4 (k0_pay9 (BitVec.ofNat 32 (grid0.coords t 0).val) (words m hO c t) (outsAt0 m hO c (t.val - 1) (Nat.lt_of_le_of_lt (Nat.sub_le _ _) t.isLt)).2.2.2) (k0_pay7 (BitVec.ofNat 32 (grid0.coords t 0).val) (words m hO c t) (rowsA m hO c t) (outsAt0 m hO c (t.val - 1) (Nat.lt_of_le_of_lt (Nat.sub_le _ _) t.isLt)).2.1) (k0_pay8 (BitVec.ofNat 32 (grid0.coords t 0).val) (words m hO c t) (rowsB m hO c t) (outsAt0 m hO c (t.val - 1) (Nat.lt_of_le_of_lt (Nat.sub_le _ _) t.isLt)).2.2.1) (weight m hO c t) (offset m hO c t) := by
  conv_lhs => rw [outsAt0_E m hO c t h0 h1 h2]
  dsimp only
  exact last_in_block (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

theorem atF_block (t : Fin (cfgM m hO).N) (h0 : ¬t.val % 16 = 0) (h1 : ¬between m hO t) (h2 : t.val % 16 = 15) :
    (outsAt0 m hO c t.val t.isLt).1 = k0_pay4 (outsAt0 m hO c (t.val - 1) (Nat.lt_of_le_of_lt (Nat.sub_le _ _) t.isLt)).2.2.2 (outsAt0 m hO c (t.val - 1) (Nat.lt_of_le_of_lt (Nat.sub_le _ _) t.isLt)).2.1 (outsAt0 m hO c (t.val - 1) (Nat.lt_of_le_of_lt (Nat.sub_le _ _) t.isLt)).2.2.1 (weight m hO c t) (offset m hO c t) := by
  conv_lhs => rw [outsAt0_F m hO c t h0 h1 h2]
  dsimp only
  exact last_out_block (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_2 t).mpr h2) h1

/-! ## A block's share -/

theorem row_eq (t : Fin (cfgM m hO).N) (e : Fin 4096) (h : (grid0.coords t 1).val * 4096 + e.val < 65536) :
    (⟨(grid0.coords t 1).val * 4096 + e.val, h⟩ : Fin 65536) = blockRow (⟨t.val % 16, Nat.mod_lt _ (by norm_num)⟩ : Fin 16) e :=
  Fin.ext (by show (grid0.coords t 1).val * 4096 + e.val = t.val % 16 * 4096 + e.val; rw [coords_block m hO t])

theorem word_eq (t : Fin (cfgM m hO).N) (s : Fin 1024) :
    BitVec.ofNat 32 ((grid0.coords t 0).val * 1024 + s.val) = BitVec.ofNat 32 (segOf t.val (lt_of_lt_of_eq t.isLt N_0) s).val := by
  show BitVec.ofNat 32 ((grid0.coords t 0).val * 1024 + s.val) = BitVec.ofNat 32 (t.val / 16 * 1024 + s.val)
  rw [coords_tile m hO t]

/-- Between the tile's first and last block the point adds to accumulator A its block's share of the segment sum. -/
theorem share_A (t : Fin (cfgM m hO).N) (h1 : between m hO t) (old : Vec Ideal S1024x256 .f32) (s : Fin 1024) (k : Fin 256) :
    k0_pay7 (F := Ideal) (BitVec.ofNat 32 (grid0.coords t 0).val) (words m hO c t) (rowsA m hO c t) old (ix2 s k)
      = old (ix2 s k) + blockSum (argA m c) (argIds m c) (segOf t.val (lt_of_lt_of_eq t.isLt N_0) s) k (⟨t.val % 16, Nat.mod_lt _ (by norm_num)⟩ : Fin 16) := by
  refine (accA_apply (⟨(grid0.coords t 0).val, (grid0.coords t 0).isLt⟩ : Fin 4) (words m hO c t) (rowsA m hO c t) old s k).trans ?_
  refine congrArg (old (ix2 s k) + ·) ?_
  unfold blockSum
  refine Finset.sum_congr rfl fun e _ => ?_
  rw [words_apply m hO c t h1 e, rowsA_apply m hO c t h1 e k, row_eq m hO t e, word_eq m hO t s]
  rfl

theorem share_B (t : Fin (cfgM m hO).N) (h1 : between m hO t) (old : Vec Ideal S1024x256 .f32) (s : Fin 1024) (k : Fin 256) :
    k0_pay8 (F := Ideal) (BitVec.ofNat 32 (grid0.coords t 0).val) (words m hO c t) (rowsB m hO c t) old (ix2 s k)
      = old (ix2 s k) + blockSum (argB m c) (argIds m c) (segOf t.val (lt_of_lt_of_eq t.isLt N_0) s) k (⟨t.val % 16, Nat.mod_lt _ (by norm_num)⟩ : Fin 16) := by
  refine (accB_apply (⟨(grid0.coords t 0).val, (grid0.coords t 0).isLt⟩ : Fin 4) (words m hO c t) (rowsB m hO c t) old s k).trans ?_
  refine congrArg (old (ix2 s k) + ·) ?_
  unfold blockSum
  refine Finset.sum_congr rfl fun e _ => ?_
  rw [words_apply m hO c t h1 e, rowsB_apply m hO c t h1 e k, row_eq m hO t e, word_eq m hO t s]
  rfl

theorem share_count (t : Fin (cfgM m hO).N) (h1 : between m hO t) (old : Vec Ideal S1024x1 .f32) (s : Fin 1024) :
    k0_pay9 (F := Ideal) (BitVec.ofNat 32 (grid0.coords t 0).val) (words m hO c t) old (ix2 s (0 : Fin 1))
      = old (ix2 s (0 : Fin 1)) + blockCount (argIds m c) (segOf t.val (lt_of_lt_of_eq t.isLt N_0) s) (⟨t.val % 16, Nat.mod_lt _ (by norm_num)⟩ : Fin 16) := by
  refine (accCount_apply (⟨(grid0.coords t 0).val, (grid0.coords t 0).isLt⟩ : Fin 4) (words m hO c t) old s).trans ?_
  refine congrArg (old (ix2 s (0 : Fin 1)) + ·) ?_
  unfold blockCount
  refine Finset.sum_congr rfl fun e _ => ?_
  rw [words_apply m hO c t h1 e, row_eq m hO t e, word_eq m hO t s]
  rfl

/-- Outside the tile's block range the point's block holds no row of the tile's segments. -/
theorem none_in_block (t : Fin (cfgM m hO).N) (h1 : ¬between m hO t) (s : Fin 1024) (e : Fin 4096) :
    ¬inSeg (argIds m c) (segOf t.val (lt_of_lt_of_eq t.isLt N_0) s) (blockRow (⟨t.val % 16, Nat.mod_lt _ (by norm_num)⟩ : Fin 16) e) := by
  intro he
  refine no_row m c (grid0.coords t) h1 s e ?_
  rw [row_eq m hO t e, word_eq m hO t s]
  exact he

/-! ## The accumulators after each point -/

/-- One point: from what the point before left (when the point is not its tile's first) to what this one leaves. -/
theorem step (t : Fin (cfgM m hO).N) (s : Fin 1024)
    (prev : ¬t.val % 16 = 0 →
      (∀ k : Fin 256, (outsAt0 m hO c (t.val - 1) (Nat.lt_of_le_of_lt (Nat.sub_le _ _) t.isLt)).2.1 (ix2 s k) = headSum (argA m c) (argIds m c) (segOf t.val (lt_of_lt_of_eq t.isLt N_0) s) k (t.val % 16))
      ∧ (∀ k : Fin 256, (outsAt0 m hO c (t.val - 1) (Nat.lt_of_le_of_lt (Nat.sub_le _ _) t.isLt)).2.2.1 (ix2 s k) = headSum (argB m c) (argIds m c) (segOf t.val (lt_of_lt_of_eq t.isLt N_0) s) k (t.val % 16))
      ∧ (outsAt0 m hO c (t.val - 1) (Nat.lt_of_le_of_lt (Nat.sub_le _ _) t.isLt)).2.2.2 (ix2 s (0 : Fin 1)) = headCount (argIds m c) (segOf t.val (lt_of_lt_of_eq t.isLt N_0) s) (t.val % 16)) :
    (∀ k : Fin 256, (outsAt0 m hO c t.val t.isLt).2.1 (ix2 s k) = headSum (argA m c) (argIds m c) (segOf t.val (lt_of_lt_of_eq t.isLt N_0) s) k (t.val % 16 + 1))
    ∧ (∀ k : Fin 256, (outsAt0 m hO c t.val t.isLt).2.2.1 (ix2 s k) = headSum (argB m c) (argIds m c) (segOf t.val (lt_of_lt_of_eq t.isLt N_0) s) k (t.val % 16 + 1))
    ∧ (outsAt0 m hO c t.val t.isLt).2.2.2 (ix2 s (0 : Fin 1)) = headCount (argIds m c) (segOf t.val (lt_of_lt_of_eq t.isLt N_0) s) (t.val % 16 + 1) := by
  have hsA := fun k => headSum_block (argA m c) (argIds m c) (segOf t.val (lt_of_lt_of_eq t.isLt N_0) s) k (⟨t.val % 16, Nat.mod_lt _ (by norm_num)⟩ : Fin 16)
  have hsB := fun k => headSum_block (argB m c) (argIds m c) (segOf t.val (lt_of_lt_of_eq t.isLt N_0) s) k (⟨t.val % 16, Nat.mod_lt _ (by norm_num)⟩ : Fin 16)
  have hsC := headCount_block (argIds m c) (segOf t.val (lt_of_lt_of_eq t.isLt N_0) s) (⟨t.val % 16, Nat.mod_lt _ (by norm_num)⟩ : Fin 16)
  by_cases h0 : t.val % 16 = 0
  · have h2 : ¬t.val % 16 = 15 := by omega
    have hzA : ∀ k, headSum (argA m c) (argIds m c) (segOf t.val (lt_of_lt_of_eq t.isLt N_0) s) k (t.val % 16) = 0 := fun k => by rw [h0]; exact headSum_zero _ _ _ _
    have hzB : ∀ k, headSum (argB m c) (argIds m c) (segOf t.val (lt_of_lt_of_eq t.isLt N_0) s) k (t.val % 16) = 0 := fun k => by rw [h0]; exact headSum_zero _ _ _ _
    have hzC : headCount (argIds m c) (segOf t.val (lt_of_lt_of_eq t.isLt N_0) s) (t.val % 16) = 0 := by rw [h0]; exact headCount_zero _ _
    by_cases h1 : between m hO t
    · refine ⟨fun k => ?_, fun k => ?_, ?_⟩
      · rw [atA_A m hO c t h0 h1 h2, share_A m hO c t h1, zeroA_apply]; exact ((hsA k).trans (by rw [hzA k])).symm
      · rw [atA_B m hO c t h0 h1 h2, share_B m hO c t h1, zeroB_apply]; exact ((hsB k).trans (by rw [hzB k])).symm
      · rw [atA_count m hO c t h0 h1 h2, share_count m hO c t h1, zeroCount_apply]; exact (hsC.trans (by rw [hzC])).symm
    · have hn := none_in_block m hO c t h1 s
      refine ⟨fun k => ?_, fun k => ?_, ?_⟩
      · rw [atB_A m hO c t h0 h1 h2, zeroA_apply]
        exact ((hsA k).trans (by rw [hzA k, blockSum_eq_zero _ _ _ _ _ hn, add_zero])).symm
      · rw [atB_B m hO c t h0 h1 h2, zeroB_apply]
        exact ((hsB k).trans (by rw [hzB k, blockSum_eq_zero _ _ _ _ _ hn, add_zero])).symm
      · rw [atB_count m hO c t h0 h1 h2, zeroCount_apply]
        exact (hsC.trans (by rw [hzC, blockCount_eq_zero _ _ _ hn, add_zero])).symm
  · obtain ⟨pA, pB, pC⟩ := prev h0
    by_cases h1 : between m hO t
    · by_cases h2 : t.val % 16 = 15
      · refine ⟨fun k => ?_, fun k => ?_, ?_⟩
        · rw [atE_A m hO c t h0 h1 h2, share_A m hO c t h1, pA k]; exact (hsA k).symm
        · rw [atE_B m hO c t h0 h1 h2, share_B m hO c t h1, pB k]; exact (hsB k).symm
        · rw [atE_count m hO c t h0 h1 h2, share_count m hO c t h1, pC]; exact hsC.symm
      · refine ⟨fun k => ?_, fun k => ?_, ?_⟩
        · rw [atC_A m hO c t h0 h1 h2, share_A m hO c t h1, pA k]; exact (hsA k).symm
        · rw [atC_B m hO c t h0 h1 h2, share_B m hO c t h1, pB k]; exact (hsB k).symm
        · rw [atC_count m hO c t h0 h1 h2, share_count m hO c t h1, pC]; exact hsC.symm
    · have hn := none_in_block m hO c t h1 s
      by_cases h2 : t.val % 16 = 15
      · refine ⟨fun k => ?_, fun k => ?_, ?_⟩
        · rw [atF_A m hO c t h0 h1 h2, pA k]; exact ((hsA k).trans (by rw [blockSum_eq_zero _ _ _ _ _ hn, add_zero])).symm
        · rw [atF_B m hO c t h0 h1 h2, pB k]; exact ((hsB k).trans (by rw [blockSum_eq_zero _ _ _ _ _ hn, add_zero])).symm
        · rw [atF_count m hO c t h0 h1 h2, pC]; exact (hsC.trans (by rw [blockCount_eq_zero _ _ _ hn, add_zero])).symm
      · refine ⟨fun k => ?_, fun k => ?_, ?_⟩
        · rw [atD_A m hO c t h0 h1 h2, pA k]; exact ((hsA k).trans (by rw [blockSum_eq_zero _ _ _ _ _ hn, add_zero])).symm
        · rw [atD_B m hO c t h0 h1 h2, pB k]; exact ((hsB k).trans (by rw [blockSum_eq_zero _ _ _ _ _ hn, add_zero])).symm
        · rw [atD_count m hO c t h0 h1 h2, pC]; exact (hsC.trans (by rw [blockCount_eq_zero _ _ _ hn, add_zero])).symm

/-- The accumulators after every position, by induction on the position. -/
theorem carried_at : ∀ (j : ℕ) (t : Fin (cfgM m hO).N), t.val = j → ∀ s : Fin 1024,
    (∀ k : Fin 256, (outsAt0 m hO c t.val t.isLt).2.1 (ix2 s k) = headSum (argA m c) (argIds m c) (segOf t.val (lt_of_lt_of_eq t.isLt N_0) s) k (t.val % 16 + 1))
    ∧ (∀ k : Fin 256, (outsAt0 m hO c t.val t.isLt).2.2.1 (ix2 s k) = headSum (argB m c) (argIds m c) (segOf t.val (lt_of_lt_of_eq t.isLt N_0) s) k (t.val % 16 + 1))
    ∧ (outsAt0 m hO c t.val t.isLt).2.2.2 (ix2 s (0 : Fin 1)) = headCount (argIds m c) (segOf t.val (lt_of_lt_of_eq t.isLt N_0) s) (t.val % 16 + 1) := by
  intro j
  induction j with
  | zero =>
    intro t ht s
    exact step m hO c t s (fun h => absurd (by rw [ht]) h)
  | succ j ih =>
    intro t ht s
    refine step m hO c t s (fun h0 => ?_)
    have hN : t.val < 64 := lt_of_lt_of_eq t.isLt N_0
    have hj : t.val - 1 = j := by omega
    have ih' := ih ⟨t.val - 1, Nat.lt_of_le_of_lt (Nat.sub_le _ _) t.isLt⟩ hj s
    have e1 : segOf (t.val - 1) (lt_of_lt_of_eq (Nat.lt_of_le_of_lt (Nat.sub_le _ _) t.isLt) N_0) s = (segOf t.val (lt_of_lt_of_eq t.isLt N_0) s) :=
      Fin.ext (by show (t.val - 1) / 16 * 1024 + s.val = t.val / 16 * 1024 + s.val; omega)
    have e2 : (t.val - 1) % 16 + 1 = t.val % 16 := by omega
    dsimp only at ih'
    rw [e1, e2] at ih'
    exact ih'

theorem carried (t : Fin (cfgM m hO).N) (s : Fin 1024) :
    (∀ k : Fin 256, (outsAt0 m hO c t.val t.isLt).2.1 (ix2 s k) = headSum (argA m c) (argIds m c) (segOf t.val (lt_of_lt_of_eq t.isLt N_0) s) k (t.val % 16 + 1))
    ∧ (∀ k : Fin 256, (outsAt0 m hO c t.val t.isLt).2.2.1 (ix2 s k) = headSum (argB m c) (argIds m c) (segOf t.val (lt_of_lt_of_eq t.isLt N_0) s) k (t.val % 16 + 1))
    ∧ (outsAt0 m hO c t.val t.isLt).2.2.2 (ix2 s (0 : Fin 1)) = headCount (argIds m c) (segOf t.val (lt_of_lt_of_eq t.isLt N_0) s) (t.val % 16 + 1) :=
  carried_at m hO c t.val t rfl s

/-- The block a tile's last point stores. -/
theorem stored_block (t : Fin (cfgM m hO).N) (h15 : t.val % 16 = 15) (s : Fin 1024) (o : Fin 32) :
    (outsAt0 m hO c t.val t.isLt).1 (ix2 s o)
      = pooled (argA m c) (argB m c) (argIds m c) (argW m c) (argβ m c) (ix2 (segOf t.val (lt_of_lt_of_eq t.isLt N_0) s) o) := by
  have h0 : ¬t.val % 16 = 0 := by omega
  have e16 : t.val % 16 + 1 = 16 := by omega
  obtain ⟨cA, cB, cC⟩ := carried m hO c t s
  rw [e16] at cA cB cC
  have key : ∀ (x9 : Vec Ideal S1024x1 .f32) (x7 x8 : Vec Ideal S1024x256 .f32),
      (outsAt0 m hO c t.val t.isLt).2.2.2 = x9 → (outsAt0 m hO c t.val t.isLt).2.1 = x7 → (outsAt0 m hO c t.val t.isLt).2.2.1 = x8 →
      (outsAt0 m hO c t.val t.isLt).1 = k0_pay4 (F := Ideal) x9 x7 x8 (weight m hO c t) (offset m hO c t) →
      (outsAt0 m hO c t.val t.isLt).1
        = k0_pay4 (F := Ideal) (outsAt0 m hO c t.val t.isLt).2.2.2 (outsAt0 m hO c t.val t.isLt).2.1 (outsAt0 m hO c t.val t.isLt).2.2.1 (weight m hO c t) (offset m hO c t) := by
    intro x9 x7 x8 e9 e7 e8 e
    rw [e9, e7, e8]
    exact e
  have hblk : (outsAt0 m hO c t.val t.isLt).1
      = k0_pay4 (F := Ideal) (outsAt0 m hO c t.val t.isLt).2.2.2 (outsAt0 m hO c t.val t.isLt).2.1 (outsAt0 m hO c t.val t.isLt).2.2.1 (weight m hO c t) (offset m hO c t) := by
    by_cases h1 : between m hO t
    · exact key _ _ _ (atE_count m hO c t h0 h1 h15) (atE_A m hO c t h0 h1 h15) (atE_B m hO c t h0 h1 h15) (atE_block m hO c t h0 h1 h15)
    · exact key _ _ _ (atF_count m hO c t h0 h1 h15) (atF_A m hO c t h0 h1 h15) (atF_B m hO c t h0 h1 h15) (atF_block m hO c t h0 h1 h15)
  rw [hblk, project_apply, cC, weight_eq m hO c t, offset_eq m hO c t]
  simp only [cA, cB, headSum_all, headCount_all]
  rfl

end Cert.KernelIdeal.Carried

end
-- ==== Proof.ResultArray.lean ====
/-
  The result array after the run is the pooled projection of the argument arrays.
  The result is written back block by block: the last point of tile `q` (position `16·q + 15`) writes rows
  `1024·q … 1024·q + 1023`, all 32 columns, and no other point writes anything back. What it writes is the pooled
  projection restricted to those rows, and the four blocks cover the 4096 rows: row `r` lies in the block of tile
  `r / 1024`. So the array ends as the pooled projection, and the argument arrays end as launched.
-/
import proofs.«423303_j78640851190456_3_alg».proof.Proof.FrameKernelIdeal
import proofs.«423303_j78640851190456_3_alg».proof.Proof.CarriedSums
import proofs.«423303_j78640851190456_3_alg».proof.Proof.SegmentPool
import Idealize.ShloMosaic.Lib.Pipeline.Value
import Idealize.ShloMosaic.Lib.ValueIdx

set_option maxRecDepth 16384

noncomputable section

open scoped BigOperators

namespace Cert.KernelIdeal.Result

open Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen Cert.KernelIdeal.GenP Cert.KernelIdeal.Carried Cert.SegmentPool
open Idealize.ShloMosaic.Pipeline (Dat)

variable (m : (ℓ : Loc nD τ sig) → Buf (Elt Ideal) ℓ) (ρ : Dev nD → PrngReg)

/-- The result, as contents of the result array. -/
abbrev result (c : Dev nD) : Buf (Elt Ideal) ((c : Thread nD τ).loc main_v30) :=
  pooled (argA m c) (argB m c) (argIds m c) (argW m c) (argβ m c)

/-! ## The block a point writes back, in the array -/

/-- The result window's block index at a point: the tile on the rows, zero on the columns (decided over the grid). -/
theorem index_facts : ∀ t : Fin grid0.N, cc0_transform_5 (grid0.coords t) (0 : Fin 2) = t.val / 16
    ∧ cc0_transform_5 (grid0.coords t) (1 : Fin 2) = 0 :=
  (by decide +kernel : ∀ t : Fin grid0.N, _)

/-- At any admissible contents of the tables the result window's block index is the printed map's: it reads no table. -/
theorem index_eq (a : (pcfg0 (F := Ideal)).Adm) (t : Fin (cfg0 a).N) :
    ((cfg0 a).win 5).index t = cc0_transform_5 (grid0.coords t) := rfl

/-- Element `(s, o)` of the block at point `t` sits in the array at row `1024 · (t / 16) + s`, column `o`. -/
theorem blk_emb (a : (pcfg0 (F := Ideal)).Adm) (t : Fin (cfg0 a).N) (ht : t.val < 64) (y : S1024x32.Idx) :
    (((cfg0 a).win 5).blk t).view.emb y
      = ix2 (segOf t.val ht ⟨(y 0).val, (y 0).isLt⟩) (⟨(y 1).val, (y 1).isLt⟩ : Fin 32) := by
  obtain ⟨e0, e1⟩ := index_facts t
  funext b
  apply Fin.ext
  match b with
  | ⟨0, _⟩ =>
    show ((cfg0 a).win 5).index t (0 : Fin 2) * 1024 + 1 * (y 0).val = t.val / 16 * 1024 + (y 0).val
    rw [index_eq, e0]; omega
  | ⟨1, _⟩ =>
    show ((cfg0 a).win 5).index t (1 : Fin 2) * 32 + 1 * (y 1).val = (y 1).val
    rw [index_eq, e1]; omega

/-- What is written back from a block `X` at point `t` is the array `G` read through the point's block, when `X` at
    `(s, o)` is `G` at row `1024 · (t / 16) + s`, column `o`. -/
theorem cut_eq_read (a : (pcfg0 (F := Ideal)).Adm) (t : Fin (cfg0 a).N) (ht : t.val < 64)
    (X : S1024x32.Idx → EReal) (G : S4096x32.Idx → EReal)
    (h : ∀ (s : Fin 1024) (o : Fin 32), X (ix2 s o) = G (ix2 (segOf t.val ht s) o)) :
    ((cfg0 a).win 5).cut ((cfg0 a).grid.coords t) X = (((cfg0 a).win 5).blk t).view.read (Elt Ideal) G := by
  refine funext fun (y : S1024x32.Idx) => ?_
  have hy : ((cfg0 a).win 5).xinj ((cfg0 a).grid.coords t) y
      = ix2 (⟨(y 0).val, (y 0).isLt⟩ : Fin 1024) (⟨(y 1).val, (y 1).isLt⟩ : Fin 32) := by
    funext b
    match b with
    | ⟨0, _⟩ => rfl
    | ⟨1, _⟩ => rfl
  show X (((cfg0 a).win 5).xinj ((cfg0 a).grid.coords t) y) = G ((((cfg0 a).win 5).blk t).view.emb y)
  rw [hy, blk_emb a t ht y]
  exact h _ _

/-- What a writing-back point writes is the result read through the point's block. -/
theorem flushed_eq (hO : Ok m) (c : Dev nD) (t : Fin (cfgM m hO).N) (hf : ((cfgM m hO).win 5).flush t = true) :
    (dats m hO 0 c).flushed 5 t = (((cfgM m hO).win 5).blk t).view.read (Elt Ideal) (result m c) := by
  have h15 : t.val % 16 = 15 := (flush0_5 (adm m hO) t).mp hf
  have ht : t.val < 64 := lt_of_lt_of_eq t.isLt N_0
  show ((cfgM m hO).win 5).cut ((cfgM m hO).grid.coords t) ((dats m hO 0 c).after 5 t) = _
  rw [after0_5]
  exact cut_eq_read (adm m hO) t ht _ (result m c) fun s o => stored_block m hO c t h15 s o

/-! ## The four blocks cover the array -/

/-- An index of the array is in point `t`'s block iff each coordinate is in the block's range on its axis. -/
theorem mem_blk (a : (pcfg0 (F := Ideal)).Adm) (t : Fin (cfg0 a).N) (i : S4096x32.Idx) :
    i ∈ (((cfg0 a).win 5).blk t).view.set ↔ ∀ b : Fin 2, ((cfg0 a).win 5).index t b * S1024x32.size b ≤ (i b).val
      ∧ (i b).val < ((cfg0 a).win 5).index t b * S1024x32.size b + S1024x32.size b := by
  have e : (((cfg0 a).win 5).blk t).view.set
      = (Rect.unit (s := S4096x32) (fun b => ((cfg0 a).win 5).index t b * S1024x32.size b) S1024x32.size
          (fun b => Pipeline.Clip.inb (((cfg0 a).win 5).hclip ((cfg0 a).grid.coords t) b))).set :=
    View.set_slice_whole main_v30 _
  rw [e]
  exact Rect.mem_set_unit

/-- Row `r` is in the block written back by the last point of tile `r / 1024`. -/
theorem cover (a : (pcfg0 (F := Ideal)).Adm) (i : S4096x32.Idx) :
    ∃ t : Fin (cfg0 a).N, ((cfg0 a).win 5).flush t = true ∧ i ∈ (((cfg0 a).win 5).blk t).view.set := by
  have hi0 : (i 0).val < 4096 := (i 0).isLt
  have hi1 : (i 1).val < 32 := (i 1).isLt
  have hN : (cfg0 a).N = 64 := N_0
  obtain ⟨t, htv⟩ : ∃ t : Fin (cfg0 a).N, t.val = 16 * ((i 0).val / 1024) + 15 := ⟨⟨_, by rw [hN]; omega⟩, rfl⟩
  refine ⟨t, (flush0_5 a t).mpr (by omega), ?_⟩
  rw [mem_blk]
  obtain ⟨e0, e1⟩ := index_facts t
  intro b
  match b with
  | ⟨0, _⟩ =>
    show ((cfg0 a).win 5).index t (0 : Fin 2) * 1024 ≤ (i 0).val
      ∧ (i 0).val < ((cfg0 a).win 5).index t (0 : Fin 2) * 1024 + 1024
    rw [index_eq, e0]; omega
  | ⟨1, _⟩ =>
    show ((cfg0 a).win 5).index t (1 : Fin 2) * 32 ≤ (i 1).val
      ∧ (i 1).val < ((cfg0 a).win 5).index t (1 : Fin 2) * 32 + 32
    rw [index_eq, e1]; omega

/-- The result array ends holding the result. -/
theorem final (hO : Ok m) (c : Dev nD) : (dats m hO 0 c).arrAt 5 (cfgM m hO).N = result m c :=
  (dats m hO 0 c).arrAt_eq_of_cover 5 (result m c) (fun t hf => flushed_eq m hO c t hf) (cover (adm m hO))

/-- The run, read: the result array at the pooled projection, the argument arrays unchanged. -/
theorem run (hO : Ok m) : θ_run defs (onTc (τ := τ) (main (F := Ideal))) ⟨m, fun _ => 0, ρ⟩ fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

end Cert.KernelIdeal.Result

end
-- ==== Proof.lean ====
/-
  Segment mean pooling followed by a linear projection: the kernel and the reference compute one function.

  Rows `r < 65536` of two row arrays `a`, `b` (256 columns each) carry a segment word `ids r`; for each segment
  `p < 4096` the result row `p` is `(sum of the segment's rows of [a | b]) / max(count, 1)` contracted with the weight's
  rows (512 columns), plus an offset. The reference computes this with two accumulating scatters, a division and one
  contraction over the 512 joined columns. The kernel walks four tiles of 1024 segments; per tile it walks the sixteen
  blocks of 4096 rows, skipping the blocks outside the tile's first-to-last block range computed on the host — a block
  outside that range holds no row of the tile, so skipping it changes nothing — and adds, for each remaining block, the
  product of the block's membership matrix with the block's rows into two accumulators and the matrix's row sums into a
  count; after the sixteenth block it scales the accumulators by `1 / max(count, 1)`, contracts each with its half of the
  weight's columns and adds the two and the offset. Over the extended reals both are `SegmentPool.pooled` of the
  argument arrays: sums may be taken in any order and grouping, dividing by a nonzero real is multiplying by its
  reciprocal, and a contraction over 512 columns is the sum of the contractions over its two halves.

  The frames: the two kernel programs run under the pipeline's side condition on the two host-computed tables, which
  holds for every input (the tables end in a minimum with 15 and a maximum with 0); the reference's frame is its run.
  The idealization rewrote nothing, so `preserves` is trivial.
-/
import proofs.«423303_j78640851190456_3_alg».proof.Defs
import proofs.«423303_j78640851190456_3_alg».proof.Proof.Gen.Kernel
import proofs.«423303_j78640851190456_3_alg».proof.Proof.Gen.KernelIdeal
import proofs.«423303_j78640851190456_3_alg».proof.Proof.Gen.ReferenceIdeal
import proofs.«423303_j78640851190456_3_alg».proof.Proof.Gen.Pre_finite_inputs
import proofs.«423303_j78640851190456_3_alg».proof.Proof.Gen.ReferenceIdeal.Run
import proofs.«423303_j78640851190456_3_alg».proof.Proof.Gen.ReferenceIdeal.Read
import proofs.«423303_j78640851190456_3_alg».proof.Proof.FrameKernel
import proofs.«423303_j78640851190456_3_alg».proof.Proof.FrameKernelIdeal
import proofs.«423303_j78640851190456_3_alg».proof.Proof.TableBounds
import proofs.«423303_j78640851190456_3_alg».proof.Proof.TableBoundsWords
import proofs.«423303_j78640851190456_3_alg».proof.Proof.ReferencePooled
import proofs.«423303_j78640851190456_3_alg».proof.Proof.ResultArray
import Idealize.ShloMosaic.Adequacy
import Idealize.ShloMosaic.Init

noncomputable section

namespace Cert.Proof

open Idealize.ShloMosaic Idealize.SL.Sem

/-- The word-level kernel runs and leaves its arguments as launched: the tables admit every input. -/
theorem frame_kernel : @Cert.frame_Kernel Cert.Kernel.Gen.facts Cert.Pre_finite_inputs.Gen.facts :=
  fun m ρ _ => Cert.Kernel.GenP.frame m ρ (Cert.Kernel.TableBounds.ok m)

/-- So does the idealized kernel. -/
theorem frame_kernelIdeal : @Cert.frame_KernelIdeal Cert.KernelIdeal.Gen.facts Cert.Pre_finite_inputs.Gen.facts :=
  fun m ρ _ => Cert.KernelIdeal.GenP.frame m ρ (Cert.KernelIdeal.TableBounds.ok m)

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end with the pooled projection of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Result.result m c, Cert.KernelIdeal.Result.run m ρ (Cert.KernelIdeal.TableBounds.ok m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Pooled.stage_eq_pooled,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
